-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S50000 : Shape := ⟨1, ![50000]⟩
abbrev S800000 : Shape := ⟨1, ![800000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S50000 : S_.BroadcastsInDim S50000 (![] : Fin 0 → Fin S50000.rank)
  reducesTo_S50000_S_d0 : S50000.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S50000 32) (main_arg4 : IVec S800000 32) (main_v13 : IVec S_ 1) (main_v15 : IVec S50000 1) (main_c_5 : IVec S_ 32) : IVec S_ 1 :=
  let main_v16 : IVec S50000 32 := broadcastInDim S50000 ![] bcast_S_S50000 main_c_5
  let main_v17 : IVec S50000 1 := cmpi .slt main_arg3 main_v16
  let main_v18 : IVec S50000 1 := andi main_v15 main_v17
  let main_c_6 : IVec S_ 1 := constantI S_ 1 1#1
  let main_v19 : IVec S_ 1 := (fun x v => Host.reduce IntOp.andi x v reducesTo_S50000_S_d0 h_S_) main_v18 main_c_6
  let main_v20 : IVec S_ 1 := andi main_v13 main_v19
  let main_c_7 : IVec S_ 32 := constantI S_ 32 0#32
  let main_v21 : IVec S800000 32 := broadcastInDim S800000 ![] bcast_S_S800000 main_c_7
  let main_v22 : IVec S800000 1 := cmpi .sge main_arg4 main_v21
  let main_c_8 : IVec S_ 32 := constantI S_ 32 10000#32
  let main_v23 : IVec S800000 32 := broadcastInDim S800000 ![] bcast_S_S800000 main_c_8
  let main_v24 : IVec S800000 1 := cmpi .slt main_arg4 main_v23
  let main_v25 : IVec S800000 1 := andi main_v22 main_v24
  let main_c_9 : IVec S_ 1 := constantI S_ 1 1#1
  let main_v26 : IVec S_ 1 := (fun x v => Host.reduce IntOp.andi x v reducesTo_S800000_S_d0 h_S_) main_v25 main_c_9
  let main_v27 : IVec S_ 1 := andi main_v20 main_v26
  main_v27

def fn {F : FTy → Type} [FloatOps F] (main_arg0 : FVec F S10000x128 .f32) (main_arg1 : FVec F S128x128 .f32) (main_arg2 : FVec F S128x128 .f32) (main_arg3 : IVec S50000 32) (main_arg4 : IVec S800000 32) (main_arg5 : IVec S800000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_c_4 : IVec S_ 32 := constantI S_ 32 0#32
  let main_v14 : IVec S50000 32 := broadcastInDim S50000 ![] bcast_S_S50000 main_c_4
  let main_v15 : IVec S50000 1 := cmpi .sge main_arg3 main_v14
  let main_c_5 : IVec S_ 32 := constantI S_ 32 10000#32
  fn_part1 (F := F) main_arg3 main_arg4 main_v13 main_v15 main_c_5
-- ==== Kernel.lean ====
abbrev S10000x128 : Shape := ⟨2, ![10000, 128]⟩
abbrev S128x128 : Shape := ⟨2, ![128, 128]⟩
abbrev S50000 : Shape := ⟨1, ![50000]⟩
abbrev S800000 : Shape := ⟨1, ![800000]⟩
abbrev S_ : Shape := ⟨0, ![]⟩
abbrev S10240x128 : Shape := ⟨2, ![10240, 128]⟩
abbrev S51200 : Shape := ⟨1, ![51200]⟩
abbrev S51200x1 : Shape := ⟨2, ![51200, 1]⟩
abbrev S800000x1 : Shape := ⟨2, ![800000, 1]⟩
abbrev S51200x128 : Shape := ⟨2, ![51200, 128]⟩
abbrev S512x1 : Shape := ⟨2, ![512, 1]⟩
abbrev S512x128 : Shape := ⟨2, ![512, 128]⟩
abbrev S512x10240 : Shape := ⟨2, ![512, 10240]⟩
abbrev S800000x128 : Shape := ⟨2, ![800000, 128]⟩
abbrev S256x1 : Shape := ⟨2, ![256, 1]⟩
abbrev S256x128 : Shape := ⟨2, ![256, 128]⟩
abbrev S256x10240 : Shape := ⟨2, ![256, 10240]⟩
abbrev S128 : Shape := ⟨1, ![128]⟩
abbrev S1024x128 : Shape := ⟨2, ![1024, 128]⟩
abbrev S4000x128 : Shape := ⟨2, ![4000, 128]⟩
abbrev S4000x1 : Shape := ⟨2, ![4000, 1]⟩
abbrev S1x128 : Shape := ⟨2, ![1, 128]⟩
abbrev S4000x1024 : Shape := ⟨2, ![4000, 1024]⟩
abbrev S1024x1 : Shape := ⟨2, ![1024, 1]⟩
abbrev S1 : Shape := ⟨1, ![1]⟩

abbrev nBuf : Space → Nat
  | .hbm => 32
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128x128, .f32⟩
  | .hbm, ⟨3, _⟩ => ⟨S50000, .i32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S_, .f32⟩
  | .hbm, ⟨8, _⟩ => ⟨S10240x128, .f32⟩
  | .hbm, ⟨9, _⟩ => ⟨S10240x128, .bf16⟩
  | .hbm, ⟨10, _⟩ => ⟨S_, .i32⟩
  | .hbm, ⟨11, _⟩ => ⟨S_, .i32⟩
  | .hbm, ⟨12, _⟩ => ⟨S51200, .i32⟩
  | .hbm, ⟨13, _⟩ => ⟨S51200x1, .i32⟩
  | .hbm, ⟨14, _⟩ => ⟨S800000x1, .i32⟩
  | .hbm, ⟨15, _⟩ => ⟨S800000x1, .i32⟩
  | .hbm, ⟨16, _⟩ => ⟨S51200x128, .bf16⟩
  | .hbm, ⟨17, _⟩ => ⟨S800000x128, .bf16⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S128, .f32⟩
  | .hbm, ⟨31, _⟩ => ⟨S128, .f32⟩
  | .local _ .vmem, ⟨0, _⟩ => ⟨S512x1, .i32⟩
  | .local _ .vmem, ⟨1, _⟩ => ⟨S512x1, .i32⟩
  | .local _ .vmem, ⟨2, _⟩ => ⟨S10240x128, .bf16⟩
  | .local _ .vmem, ⟨3, _⟩ => ⟨S512x128, .bf16⟩
  | .local _ .vmem, ⟨4, _⟩ => ⟨S512x128, .bf16⟩
  | .local _ .vmem, ⟨5, _⟩ => ⟨S256x1, .i32⟩
  | .local _ .vmem, ⟨6, _⟩ => ⟨S256x1, .i32⟩
  | .local _ .vmem, ⟨7, _⟩ => ⟨S10240x128, .bf16⟩
  | .local _ .vmem, ⟨8, _⟩ => ⟨S256x128, .bf16⟩
  | .local _ .vmem, ⟨9, _⟩ => ⟨S256x128, .bf16⟩
  | .local _ .vmem, ⟨10, _⟩ => ⟨S1024x128, .bf16⟩
  | .local _ .vmem, ⟨11, _⟩ => ⟨S1024x128, .bf16⟩
  | .local _ .vmem, ⟨12, _⟩ => ⟨S4000x128, .bf16⟩
  | .local _ .vmem, ⟨13, _⟩ => ⟨S4000x128, .bf16⟩
  | .local _ .vmem, ⟨14, _⟩ => ⟨S4000x1, .i32⟩
  | .local _ .vmem, ⟨15, _⟩ => ⟨S4000x1, .i32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S1024x128, .f32⟩
  | .local _ .vmem, ⟨20, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_scratch0 : Ref sig .tc := ⟨.vmem, 19, rfl⟩
abbrev cc2_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![3125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![50, 200], ![false, false]⟩

def k2_cond4 (i : grid2.Coords) : BitVec 1 :=
  let arg0 : BitVec 32 := BitVec.ofNat 32 (i 0).val
  let c49_i32 : BitVec 32 := 49#32
  let v30 : BitVec 1 := Scalar.cmpi .eq arg0 c49_i32
  let arg1 : BitVec 32 := BitVec.ofNat 32 (i 1).val
  let c199_i32_12 : BitVec 32 := 199#32
  let v31 : BitVec 1 := Scalar.cmpi .eq arg1 c199_i32_12
  let v32 : BitVec 1 := Scalar.andi v30 v31
  let v33 : BitVec 32 := Scalar.extui v32
  let c0_i32_13 : BitVec 32 := 0#32
  let v34 : BitVec 1 := Scalar.cmpi .ne v33 c0_i32_13
  v34

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

class Facts₀ : Prop where
  pads_S10000x128_S10240x128_02400_000 : S10000x128.Pads (![0, 0] : Fin 2 → Nat) ![240, 0] ![0, 0] S10240x128
  h_S_ : 0 < S_.numel
  bitsLt_bf16_f32 : FTy.bits .bf16 < FTy.bits .f32
  pads_S50000_S51200_012000 : S50000.Pads (![0] : Fin 1 → Nat) ![1200] ![0] S51200
  shapeCasts_S51200_S51200x1 : S51200.ShapeCasts S51200x1
  shapeCasts_S800000_S800000x1 : S800000.ShapeCasts S800000x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x10240_d1_w32 : S512x10240.Iotas .tc 32 [1]
  broadcasts_S512x1_S512x10240 : S512x1.Broadcasts S512x10240
  natLt_1_32 : 1 < 32
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x10240_d1_w32 : S256x10240.Iotas .tc 32 [1]
  broadcasts_S256x1_S256x10240 : S256x1.Broadcasts S256x10240
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S4000x1024_d1_w32 : S4000x1024.Iotas .tc 32 [1]
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x1024 : S4000x1.Broadcasts S4000x1024
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  iota_S1024x1_d0_w32 : S1024x1.Iotas .tc 32 [0]
  broadcasts_S1024x1_S1024x128 : S1024x1.Broadcasts S1024x128
  reduces_S1024x128_S128 : S1024x128.Reduces [0] S128
  shapeCasts_S128_S1x128 : S128.ShapeCasts S1x128
  shapeCasts_S1x128_S128 : S1x128.ShapeCasts S128
  inb_S128_S128_0 : ∀ a, (![0] : Fin 1 → Nat) a + S128.size a ≤ S128.size a
  h_S128 : 0 < S128.numel
  reducesTo_S128_S_d0 : S128.ReducesTo [0] S_
  bcast_S_S1 : S_.BroadcastsInDim S1 (![] : Fin 0 → Fin S1.rank)
  bcast_S1_S128_0 : S1.BroadcastsInDim S128 (![0] : Fin 1 → Fin S128.rank)
  dot_S512x10240_S10240x128_S512x128_1_0_0_1_n_n_wf : DotDims.WF S512x10240 S10240x128 S512x128 [1] [0] [0] [1] [] []
  dot_S256x10240_S10240x128_S256x128_1_0_0_1_n_n_wf : DotDims.WF S256x10240 S10240x128 S256x128 [1] [0] [0] [1] [] []
  dot_S4000x1024_S4000x128_S1024x128_0_0_1_1_n_n_wf : DotDims.WF S4000x1024 S4000x128 S1024x128 [0] [0] [1] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S51200x1.size a
  hwx0_0 : ∀ i : grid0.Coords, EltTy.bits .i32 = 32 ∨ (Rect.block (s := S51200x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S51200x128.size a
  hwx0_2 : ∀ i : grid0.Coords, EltTy.bits .bf16 = 32 ∨ (Rect.block (s := S51200x128) S512x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S800000x1.size a
  hwx1_0 : ∀ i : grid1.Coords, EltTy.bits .i32 = 32 ∨ (Rect.block (s := S800000x1) S256x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S800000x128.size a
  hwx1_2 : ∀ i : grid1.Coords, EltTy.bits .bf16 = 32 ∨ (Rect.block (s := S800000x128) S256x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S51200x128.size a
  hwx2_0 : ∀ i : grid2.Coords, EltTy.bits .bf16 = 32 ∨ (Rect.block (s := S51200x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .bf16 = 32 ∨ (Rect.block (s := S800000x128) S4000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S800000x1.size a
  hwx2_2 : ∀ i : grid2.Coords, EltTy.bits .i32 = 32 ∨ (Rect.block (s := S800000x1) S4000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)

variable [Facts₀]

def dot_S512x10240_S10240x128_S512x128_1_0_0_1_n_n : DotDims S512x10240 S10240x128 S512x128 where
  lhsContracting := [1]
  rhsContracting := [0]
  lhsNonContracting := [0]
  rhsNonContracting := [1]
  lhsBatch := []
  rhsBatch := []
  wf := dot_S512x10240_S10240x128_S512x128_1_0_0_1_n_n_wf
def dot_S256x10240_S10240x128_S256x128_1_0_0_1_n_n : DotDims S256x10240 S10240x128 S256x128 where
  lhsContracting := [1]
  rhsContracting := [0]
  lhsNonContracting := [0]
  rhsNonContracting := [1]
  lhsBatch := []
  rhsBatch := []
  wf := dot_S256x10240_S10240x128_S256x128_1_0_0_1_n_n_wf
def dot_S4000x1024_S4000x128_S1024x128_0_0_1_1_n_n : DotDims S4000x1024 S4000x128 S1024x128 where
  lhsContracting := [0]
  rhsContracting := [0]
  lhsNonContracting := [1]
  rhsNonContracting := [1]
  lhsBatch := []
  rhsBatch := []
  wf := dot_S4000x1024_S4000x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v3) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond4 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S128x128 : Shape := ⟨2, ![128, 128]⟩
abbrev S50000 : Shape := ⟨1, ![50000]⟩
abbrev S800000 : Shape := ⟨1, ![800000]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000x128 : Shape := ⟨2, ![800000, 128]⟩
abbrev S128 : Shape := ⟨1, ![128]⟩
abbrev S1 : Shape := ⟨1, ![1]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128x128, .f32⟩
  | .hbm, ⟨3, _⟩ => ⟨S50000, .i32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S50000, .i32⟩
  | .hbm, ⟨8, _⟩ => ⟨S50000, .i1⟩
  | .hbm, ⟨9, _⟩ => ⟨S_, .i32⟩
  | .hbm, ⟨10, _⟩ => ⟨S50000, .i32⟩
  | .hbm, ⟨11, _⟩ => ⟨S50000, .i32⟩
  | .hbm, ⟨12, _⟩ => ⟨S50000, .i32⟩
  | .hbm, ⟨13, _⟩ => ⟨S50000x1, .i32⟩
  | .hbm, ⟨14, _⟩ => ⟨S50000x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S128x128, .f32⟩
  | .hbm, ⟨29, _⟩ => ⟨S50000x128, .f32⟩
  | .hbm, ⟨30, _⟩ => ⟨S128x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S128, .f32⟩
  | .hbm, ⟨50, _⟩ => ⟨S128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  reducesTo_S50000x128_S128_d0 : S50000x128.ReducesTo [0] S128
  h_S_ : 0 < S_.numel
  reducesTo_S128_S_d0 : S128.ReducesTo [0] S_
  bcast_S_S1 : S_.BroadcastsInDim S1 (![] : Fin 0 → Fin S1.rank)
  bcast_S1_S128_0 : S1.BroadcastsInDim S128 (![0] : Fin 1 → Fin S128.rank)
  gather_S10000x128_S50000x1_S50000x128_1_0_n_n_0_1_1128_wf : GatherDims.WF S10000x128 S50000x1 S50000x128 [1] [0] [] [0] [] 1 ![1, 128]
  gather_S10000x128_S800000x1_S800000x128_1_0_n_n_0_1_1128_wf : GatherDims.WF S10000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S10000x128_S50000x1_S50000x128_1_0_n_n_0_1_1128 : GatherDims S10000x128 S50000x1 S50000x128 where
  offsetDims := [1]
  collapsedSliceDims := [0]
  operandBatchingDims := []
  startIndicesBatchingDims := []
  startIndexMap := [0]
  indexVectorDim := 1
  sliceSizes := ![1, 128]
  wf := gather_S10000x128_S50000x1_S50000x128_1_0_n_n_0_1_1128_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KReg0.lean ====
/-
  The first row-take stage (the self features): each grid point loads a tile of 512 index words and the whole table,
  and stores the tile's rows of the table, read through a one-hot matrix product. This module is the stage's half of
  the run, at any contents `V` the stage may be entered from: a window's block at a point, what the body stores as a
  function of the blocks it loads, the stage's proof data, and the body's triple at every grid point.
-/
import proofs.«413086_j36112085025448_1_alg».proof.Proof.Gen.Kernel.Launch
import proofs.«413086_j36112085025448_1_alg».proof.Proof.Gen.Kernel.Skeleton
import proofs.«413086_j36112085025448_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not, for any
    proof data over the arrays as found whose body leaves the block in place: unfetched, the block index has not moved,
    and the previous point's block is this point's. Window 0 is the tile of index words. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of window 1, the whole table, whose block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1 := Rect.unit (s := S512x1) ![0, 0] S512x1.size Gen.inb_S512x1_S512x1_0_0
abbrev r0_1 : Rect S10240x128 := Rect.unit (s := S10240x128) ![0, 0] S10240x128.size Gen.inb_S10240x128_S10240x128_0_0
abbrev r0_2 : Rect S512x128 := Rect.unit (s := S512x128) ![0, 0] S512x128.size Gen.inb_S512x128_S512x128_0_0

/-- The output tile after the body: its one store, of the rows the tile's index words name. -/
def out0_2 (x0 : Vec F S512x1 .i32) (x1 : Vec F S10240x128 .bf16) : Vec F S512x128 .bf16 :=
  View.canon [⟨r0_2, k0_pay1 (View.ld x0 r0_0) (View.ld x1 r0_1)⟩]

/-- The one store is of the whole tile, so it covers it. -/
theorem cover0_2 (p0 : Vec F S512x128 .bf16) (y : S512x128.Idx) :
    ∃ pc ∈ ([⟨r0_2, p0⟩] : List (View.Piece (Elt F) S512x128 .bf16)), y ∈ pc.1.set :=
  View.cover_of_tiled [⟨r0_2, p0⟩] S512x128.size (by rfl) y

set_option maxHeartbeats 1000000 in
/-- The body on whole staging buffers, the two inputs' at read contents `x0`, `x1` and the output's at anything, runs to
    the continuation holding the inputs' as they were and the output's at `out0_2 x0 x1`: two loads of the inputs, a load
    of the output whose value is unused, and one store over the whole output tile. -/
theorem sound_kernel0 (c : Dev nD) (E : Set ℕ) (i : grid0.Coords) (arg1 : Memref sig .tc .vmem S512x1 .i32) (harg1 : arg1.IsWhole)
    (arg2 : Memref sig .tc .vmem S10240x128 .bf16) (harg2 : arg2.IsWhole) (arg3 : Memref sig .tc .vmem S512x128 .bf16) (harg3 : arg3.IsWhole)
    (x0 : Vec F S512x1 .i32) (x1 : Vec F S10240x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The stage's proof data on core `c`: the arrays as found; after the body each input tile as loaded and the output
    tile at `out0_2` of the two input tiles; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's triple at every grid point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.KReg1.lean ====
/-
  The second row-take stage (the edge features): each grid point loads a tile of 256 index words and the whole table,
  and stores the tile's rows of the table, read through a one-hot matrix product. This module is the stage's half of
  the run, at any contents `V` the stage may be entered from: a window's block at a point, what the body stores as a
  function of the blocks it loads, the stage's proof data, and the body's triple at every grid point.
-/
import proofs.«413086_j36112085025448_1_alg».proof.Proof.Gen.Kernel.Launch
import proofs.«413086_j36112085025448_1_alg».proof.Proof.Gen.Kernel.Skeleton
import proofs.«413086_j36112085025448_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not, for any
    proof data over the arrays as found whose body leaves the block in place: unfetched, the block index has not moved,
    and the previous point's block is this point's. Window 0 is the tile of index words. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of window 1, the whole table, whose block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x1 := Rect.unit (s := S256x1) ![0, 0] S256x1.size Gen.inb_S256x1_S256x1_0_0
abbrev r1_1 : Rect S10240x128 := Rect.unit (s := S10240x128) ![0, 0] S10240x128.size Gen.inb_S10240x128_S10240x128_0_0
abbrev r1_2 : Rect S256x128 := Rect.unit (s := S256x128) ![0, 0] S256x128.size Gen.inb_S256x128_S256x128_0_0

/-- The output tile after the body: its one store, of the rows the tile's index words name. -/
def out1_2 (x0 : Vec F S256x1 .i32) (x1 : Vec F S10240x128 .bf16) : Vec F S256x128 .bf16 :=
  View.canon [⟨r1_2, k1_pay1 (View.ld x0 r1_0) (View.ld x1 r1_1)⟩]

/-- The one store is of the whole tile, so it covers it. -/
theorem cover1_2 (p0 : Vec F S256x128 .bf16) (y : S256x128.Idx) :
    ∃ pc ∈ ([⟨r1_2, p0⟩] : List (View.Piece (Elt F) S256x128 .bf16)), y ∈ pc.1.set :=
  View.cover_of_tiled [⟨r1_2, p0⟩] S256x128.size (by rfl) y

set_option maxHeartbeats 1000000 in
/-- The body on whole staging buffers, the two inputs' at read contents `x0`, `x1` and the output's at anything, runs to
    the continuation holding the inputs' as they were and the output's at `out1_2 x0 x1`: two loads of the inputs, a load
    of the output whose value is unused, and one store over the whole output tile. -/
theorem sound_kernel1 (c : Dev nD) (E : Set ℕ) (i : grid1.Coords) (arg1 : Memref sig .tc .vmem S256x1 .i32) (harg1 : arg1.IsWhole)
    (arg2 : Memref sig .tc .vmem S10240x128 .bf16) (harg2 : arg2.IsWhole) (arg3 : Memref sig .tc .vmem S256x128 .bf16) (harg3 : arg3.IsWhole)
    (x0 : Vec F S256x1 .i32) (x1 : Vec F S10240x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The stage's proof data on core `c`: the arrays as found; after the body each input tile as loaded and the output
    tile at `out1_2` of the two input tiles; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's triple at every grid point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.KReg2Defs.lean ====
/-
  The combining stage: a grid of 50 node tiles by 200 edge tiles (point t is node tile t / 200, edge tile t % 200).
  Each point adds to a scratch accumulator of 1024 node rows what the point's 4000 edges credit to the tile's nodes (a
  one-hot product against the edge features); the accumulator is reset at the first edge tile of every node tile; at
  the last edge tile the node tile's pre-activations `self · Wᵀ + acc · Mᵀ` are formed, their positive parts masked to
  the real nodes and summed over the rows into a second scratch row, itself reset at the very first point; the very last
  point stores that row as the result.
  This module holds the stage's definitions at any entry contents `V`: a window's block at a point, the body's four
  branch conditions, what one run of the body leaves in the two scratch buffers and in the result buffer as functions of
  what it found, the scratch contents after every point (by recursion on the point), and the stage's proof data.
-/
import proofs.«413086_j36112085025448_1_alg».proof.Proof.Gen.Kernel.Launch
import proofs.«413086_j36112085025448_1_alg».proof.Proof.Gen.Kernel.Skeleton
import proofs.«413086_j36112085025448_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, as the skeleton computes them from the grid point -/

/-- Reset of the row-sum scratch: node tile 0 and edge tile 0. -/
abbrev c2_1 (i : grid2.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Reset of the accumulator: edge tile 0. -/
abbrev c2_2 (i : grid2.Coords) : Prop :=
  Scalar.cmpi .ne (Scalar.extui (Scalar.cmpi .eq (BitVec.ofNat 32 (i 1).val) 0#32)) 0#32 = 1#1
/-- The node tile's finish: edge tile 199. -/
abbrev c2_3 (i : grid2.Coords) : Prop :=
  Scalar.cmpi .ne (Scalar.extui (Scalar.cmpi .eq (BitVec.ofNat 32 (i 1).val) 199#32)) 0#32 = 1#1
/-- The result's store: node tile 49 and edge tile 199. -/
abbrev c2_4 (i : grid2.Coords) : Prop := k2_cond4 i = 1#1

/-! ## One run of the body, as functions of what it finds -/

/-- The accumulator after the body: the point's credit added to what it found, or to the reset value at edge tile 0. -/
def acc' (i : grid2.Coords) (x1 : Vec F S4000x128 .bf16) (x2 : Vec F S4000x1 .i32) (a0 : Vec F S1024x128 .f32) : Vec F S1024x128 .f32 :=
  k2_pay4 i x2 x1 (if c2_2 i then k2_pay3 (F := F) else a0)

/-- The row-sum scratch the finish finds: the reset value at the very first point, else what the body found. -/
def glob0 (i : grid2.Coords) (g0 : Vec F S1x128 .f32) : Vec F S1x128 .f32 :=
  if c2_1 i then k2_pay2 (F := F) else g0

/-- The row-sum scratch after the body: at edge tile 199 the node tile's masked, rectified row sum added in. -/
def glob' (i : grid2.Coords) (x0 : Vec F S1024x128 .bf16) (x1 : Vec F S4000x128 .bf16) (x2 : Vec F S4000x1 .i32)
    (x3 x4 : Vec F S128x128 .f32) (a0 : Vec F S1024x128 .f32) (g0 : Vec F S1x128 .f32) : Vec F S1x128 .f32 :=
  if c2_3 i then k2_pay5 i x0 x3 x4 (acc' i x1 x2 a0) (glob0 i g0) else glob0 i g0

/-- The result buffer after the body: the row-sum scratch at the very last point, else as found. -/
def out7 (i : grid2.Coords) (x0 : Vec F S1024x128 .bf16) (x1 : Vec F S4000x128 .bf16) (x2 : Vec F S4000x1 .i32)
    (x3 x4 : Vec F S128x128 .f32) (d7 : Vec F S128 .f32) (a0 : Vec F S1024x128 .f32) (g0 : Vec F S1x128 .f32) : Vec F S128 .f32 :=
  if c2_4 i then k2_pay1 (glob' i x0 x1 x2 x3 x4 a0 g0) else d7

variable (V : (c : Dev nD) → (b : Ref sig .tc) → Buf (Elt F) ((c : Thread nD τ).loc b))

/-- Window `w`'s block at grid point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The scratch contents after each point -/

/-- The accumulator after point `n`. -/
def accAt (c : Dev nD) : (n : ℕ) → n < cfg2.N → Vec F S1024x128 .f32
  | 0, hn => acc' (grid2.coords ⟨0, hn⟩) (iblk2 V c 1 ⟨0, hn⟩) (iblk2 V c 2 ⟨0, hn⟩) (k2_pay3 (F := F))
  | n + 1, hn => acc' (grid2.coords ⟨n + 1, hn⟩) (iblk2 V c 1 ⟨n + 1, hn⟩) (iblk2 V c 2 ⟨n + 1, hn⟩) (accAt c n (Nat.lt_of_succ_lt hn))

/-- The row-sum scratch after point `n`. -/
def globAt (c : Dev nD) : (n : ℕ) → n < cfg2.N → Vec F S1x128 .f32
  | 0, hn => glob' (grid2.coords ⟨0, hn⟩) (iblk2 V c 0 ⟨0, hn⟩) (iblk2 V c 1 ⟨0, hn⟩) (iblk2 V c 2 ⟨0, hn⟩) (iblk2 V c 3 ⟨0, hn⟩) (iblk2 V c 4 ⟨0, hn⟩)
      (k2_pay3 (F := F)) (k2_pay2 (F := F))
  | n + 1, hn => glob' (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (accAt V c n (Nat.lt_of_succ_lt hn)) (globAt c n (Nat.lt_of_succ_lt hn))

theorem accAt_zero (c : Dev nD) (hn : 0 < cfg2.N) :
    accAt V c 0 hn = acc' (grid2.coords ⟨0, hn⟩) (iblk2 V c 1 ⟨0, hn⟩) (iblk2 V c 2 ⟨0, hn⟩) (k2_pay3 (F := F)) := rfl
theorem accAt_succ (c : Dev nD) (n : ℕ) (hn : n + 1 < cfg2.N) :
    accAt V c (n + 1) hn = acc' (grid2.coords ⟨n + 1, hn⟩) (iblk2 V c 1 ⟨n + 1, hn⟩) (iblk2 V c 2 ⟨n + 1, hn⟩) (accAt V c n (Nat.lt_of_succ_lt hn)) := rfl
theorem globAt_zero (c : Dev nD) (hn : 0 < cfg2.N) :
    globAt V c 0 hn = glob' (grid2.coords ⟨0, hn⟩) (iblk2 V c 0 ⟨0, hn⟩) (iblk2 V c 1 ⟨0, hn⟩) (iblk2 V c 2 ⟨0, hn⟩) (iblk2 V c 3 ⟨0, hn⟩) (iblk2 V c 4 ⟨0, hn⟩)
      (k2_pay3 (F := F)) (k2_pay2 (F := F)) := rfl
theorem globAt_succ (c : Dev nD) (n : ℕ) (hn : n + 1 < cfg2.N) :
    globAt V c (n + 1) hn = glob' (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (accAt V c n (Nat.lt_of_succ_lt hn)) (globAt V c n (Nat.lt_of_succ_lt hn)) := rfl

/-! ## The stage's invariant and proof data -/

/-- The two scratch operands as whole memrefs. -/
abbrev scM2_0 : Memref sig .tc .vmem S1024x128 .f32 := Memref.whole cc2_scratch0
abbrev scM2_1 : Memref sig .tc .vmem S1x128 .f32 := Memref.whole cc2_scratch1

/-- The core's scoped buffers that are the other two stages' staging buffers, each whole at some contents: this stage
    neither reads nor writes them and carries them through every point as found. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The invariant before position `n`: before the first point every scoped buffer that is no staging buffer of this
    stage at anything (the class's); afterwards the accumulator and the row-sum scratch at what the point before left,
    the other stages' staging buffers at anything, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare (accAt V c n hn) ∗ owns (c : Thread nD τ) scM2_1 fullShare (globAt V c n hn)) ∗ others2 c ∗ (∃ r, prngReg c r))

/-- The stage's proof data on core `c`: the arrays as found; after the body each input block as loaded and the result
    buffer at the row-sum scratch's contents (consulted only at the last point, the one that stores and writes it back);
    the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (globAt V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay1 (globAt V c t.val t.isLt) := by dsimp only [dat2]

theorem owed2 (c : Dev nD) (t : Fin (cfg2.N + 1)) : (dat2 V c).owed t = 0 := rfl

end Cert.Kernel.Run

end
-- ==== Proof.KReg2Run.lean ====
/-
  One run of the combining stage's body, on whole buffers.
  The body finds five input blocks (the node tile's own features, the point's 4000 edge features, their segment
  indices, the two weight matrices), the result buffer, the accumulator scratch and the row-sum scratch, each at some
  contents. Which stores it makes is decided by four conditions on the grid point: reset of the row-sum scratch (the
  very first point), reset of the accumulator (edge tile 0), the node tile's finish (edge tile 199) and the result's
  store (the very last point). The first implies the second, the fourth the third, and the second and third exclude
  each other, so a point is of one of five kinds. For each kind the run is followed store by store: every store is of a
  whole buffer, so what a buffer holds afterwards is the payload of its last store, and a load of a whole buffer reads
  what the last store before it left, or what the run found there when there was none. Read this way the three written
  buffers end at `out7`, `acc'` and `glob'` of what the run found, and the five inputs are as they were.
-/
import proofs.«413086_j36112085025448_1_alg».proof.Proof.KReg2Defs
import Idealize.ShloMosaic.Lib.Pipeline.Value

set_option maxRecDepth 16384

noncomputable section

namespace Cert.Kernel.Run

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a whole buffer back -/

/-- The zero offsets of a rank-two buffer, as the body spells them. -/
private theorem hz2 : (![0, 0] : Fin 2 → Nat) = fun _ => 0 := funext fun a => by fin_cases a <;> rfl
/-- The zero offset of a rank-one buffer. -/
private theorem hz1 : (![0] : Fin 1 → Nat) = fun _ => 0 := funext fun a => by fin_cases a <;> rfl

section Whole
variable {S : Shape} {e : EltTy}

/-- A load of a whole buffer held at contents `X` reads `X`. -/
private theorem ld_whole (m : Memref sig .tc .vmem S e) (h : m.IsWhole) (X : Vec F S e) {off : Fin S.rank → Nat}
    (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- A store of a whole buffer, made last, leaves its payload whatever was stored before. -/
private theorem st_whole (m : Memref sig .tc .vmem S e) (f : m.view.ty.Contents (Elt F)) {off : Fin S.rank → Nat}
    (hz : off = fun _ => 0) (inb : ∀ a, off a + S.size a ≤ S.size a) (w : Vec F S e) (L : List (View.Piece (Elt F) S e)) :
    View.read (Elt F) m.view (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

/-! ## The five kinds of point -/

set_option maxHeartbeats 1000000 in
/-- The very first point: both scratch buffers are reset, then the point's credit is added to the reset accumulator. -/
private theorem run_first (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : c2_1 i) (h2 : c2_2 i) (h3 : ¬c2_3 i) (h4 : ¬c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [out7, if_neg h4]; exact harg7.read_unread _
  isplitl [H8]
  · iexists _; isplitr; swap; · iexact H8
    ipureintro
    sl_unfold_run_names
    rw [st_whole _ _ hz2, acc', if_pos h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  rw [st_whole _ _ hz2, glob', if_neg h3, glob0, if_pos h1]

set_option maxHeartbeats 1000000 in
/-- The first edge tile of a later node tile: the accumulator is reset, then the point's credit is added to it. -/
private theorem run_reset (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : ¬c2_1 i) (h2 : c2_2 i) (h3 : ¬c2_3 i) (h4 : ¬c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [out7, if_neg h4]; exact harg7.read_unread _
  isplitl [H8]
  · iexists _; isplitr; swap; · iexact H8
    ipureintro
    sl_unfold_run_names
    rw [st_whole _ _ hz2, acc', if_pos h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  rw [glob', if_neg h3, glob0, if_neg h1]; exact harg9.read_unread _

set_option maxHeartbeats 1000000 in
/-- A middle edge tile: the point's credit is added to the accumulator as found; nothing else changes. -/
private theorem run_mid (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : ¬c2_1 i) (h2 : ¬c2_2 i) (h3 : ¬c2_3 i) (h4 : ¬c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [out7, if_neg h4]; exact harg7.read_unread _
  isplitl [H8]
  · iexists _; isplitr; swap; · iexact H8
    ipureintro
    rw [st_whole _ _ hz2, acc', if_neg h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  rw [glob', if_neg h3, glob0, if_neg h1]; exact harg9.read_unread _

set_option maxHeartbeats 1000000 in
/-- The last edge tile of a node tile other than the last: after the credit, the tile's masked rectified row sum is added to the row-sum scratch. -/
private theorem run_finish (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : ¬c2_1 i) (h2 : ¬c2_2 i) (h3 : c2_3 i) (h4 : ¬c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [out7, if_neg h4]; exact harg7.read_unread _
  isplitl [H8]
  · iexists _; isplitr; swap; · iexact H8
    ipureintro
    sl_unfold_run_names
    rw [st_whole _ _ hz2, acc', if_neg h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  sl_unfold_run_names
  rw [st_whole _ _ hz2, glob', if_pos h3, glob0, if_neg h1, acc', if_neg h2]
  simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]

set_option maxHeartbeats 1000000 in
/-- The very last point: as at a finish, and then the row-sum scratch is stored as the result. -/
private theorem run_last (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : ¬c2_1 i) (h2 : ¬c2_2 i) (h3 : c2_3 i) (h4 : c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    sl_unfold_run_names
    rw [st_whole _ _ hz1, out7, if_pos h4, glob', if_pos h3, glob0, if_neg h1, acc', if_neg h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  isplitl [H8]
  · iexists _; isplitr; swap; · iexact H8
    ipureintro
    sl_unfold_run_names
    rw [st_whole _ _ hz2, acc', if_neg h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  sl_unfold_run_names
  rw [st_whole _ _ hz2, glob', if_pos h3, glob0, if_neg h1, acc', if_neg h2]
  simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]

/-! ## Any reachable point -/

/-- One run of the body, at any reachable point: whatever the eight buffers hold, the run leaves the inputs as they were,
    and the result buffer, the accumulator and the row-sum scratch at `out7`, `acc'` and `glob'` of what it found.
    The four conditions decide which of the five kinds of point this is; each kind is one of the runs above. -/
theorem sound_kernel2 (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (hreach : (c2_1 i → c2_2 i) ∧ (c2_4 i → c2_3 i) ∧ ¬(c2_2 i ∧ c2_3 i))
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  obtain ⟨hr1, hr4, hr23⟩ := hreach
  by_cases h2 : c2_2 i
  · have h3 : ¬c2_3 i := fun h3 => hr23 ⟨h2, h3⟩
    have h4 : ¬c2_4 i := fun h4 => h3 (hr4 h4)
    by_cases h1 : c2_1 i
    · exact run_first c E i arg2 harg2 arg3 harg3 arg4 harg4 arg5 harg5 arg6 harg6 arg7 harg7 arg8 harg8 arg9 harg9 h1 h2 h3 h4 x0 x1 x2 x3 x4 d7 a0 g0 K
    · exact run_reset c E i arg2 harg2 arg3 harg3 arg4 harg4 arg5 harg5 arg6 harg6 arg7 harg7 arg8 harg8 arg9 harg9 h1 h2 h3 h4 x0 x1 x2 x3 x4 d7 a0 g0 K
  · have h1 : ¬c2_1 i := fun h1 => h2 (hr1 h1)
    by_cases h3 : c2_3 i
    · by_cases h4 : c2_4 i
      · exact run_last c E i arg2 harg2 arg3 harg3 arg4 harg4 arg5 harg5 arg6 harg6 arg7 harg7 arg8 harg8 arg9 harg9 h1 h2 h3 h4 x0 x1 x2 x3 x4 d7 a0 g0 K
      · exact run_finish c E i arg2 harg2 arg3 harg3 arg4 harg4 arg5 harg5 arg6 harg6 arg7 harg7 arg8 harg8 arg9 harg9 h1 h2 h3 h4 x0 x1 x2 x3 x4 d7 a0 g0 K
    · have h4 : ¬c2_4 i := fun h4 => h3 (hr4 h4)
      exact run_mid c E i arg2 harg2 arg3 harg3 arg4 harg4 arg5 harg5 arg6 harg6 arg7 harg7 arg8 harg8 arg9 harg9 h1 h2 h3 h4 x0 x1 x2 x3 x4 d7 a0 g0 K

end Cert.Kernel.Run

end
-- ==== Proof.KReg2.lean ====
/-
  The combining stage's half of the run at any entry contents: the body's triple at every grid point, and the
  invariant's two ends.
  The grid's points in closed form (point t is node tile t / 200, edge tile t % 200) give the four branch conditions
  as arithmetic on t; every input window's staging buffer holds its block at every point, fetched there or not; the
  result window is idle and not written back before the last point and live at it; the invariant carries the two
  scratch buffers at what the point before left (the recursion accAt / globAt), and since both are reset at the first
  point, what they hold before it does not matter.
-/
import proofs.«413086_j36112085025448_1_alg».proof.Proof.KReg2Defs
import proofs.«413086_j36112085025448_1_alg».proof.Proof.KReg2Run

set_option maxRecDepth 16384

noncomputable section

namespace Cert.Kernel.Run

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid's coordinates and the branch conditions in closed form -/

/-- Point `t`'s node tile. -/
theorem coords2_0 (t : Fin cfg2.N) : ((grid2.coords t) 0).val = t.val / 200 := by
  have hN : t.val < 10000 := lt_of_lt_of_eq t.isLt N_2
  show t.val / grid2.stride 0 % grid2.bound 0 = _
  have h1 : grid2.stride 0 = 200 := by decide
  have h2 : grid2.bound 0 = 50 := rfl
  rw [h1, h2]; omega

/-- Point `t`'s edge tile. -/
theorem coords2_1 (t : Fin cfg2.N) : ((grid2.coords t) 1).val = t.val % 200 := by
  show t.val / grid2.stride 1 % grid2.bound 1 = _
  have h1 : grid2.stride 1 = 1 := by decide
  have h2 : grid2.bound 1 = 200 := rfl
  rw [h1, h2, Nat.div_one]

/-- A one-bit comparison widened and tested against zero is the comparison. -/
theorem ne_zero_extui (b : Bool) : Scalar.cmpi .ne (Scalar.extui (BitVec.ofBool b)) 0#32 = 1#1 ↔ b = true := by
  cases b <;> decide

/-- Equality of two 32-bit words of small numbers is equality of the numbers. -/
theorem cmpi_eq_ofNat (n m : ℕ) (hn : n < 2 ^ 32) (hm : m < 2 ^ 32) :
    Scalar.cmpi .eq (BitVec.ofNat 32 n) (BitVec.ofNat 32 m) = BitVec.ofBool (decide (n = m)) := by
  show BitVec.ofBool (BitVec.ofNat 32 n == BitVec.ofNat 32 m) = _
  congr 1
  rw [Bool.eq_iff_iff, beq_iff_eq, decide_eq_true_iff]
  constructor
  · intro h
    have := congrArg BitVec.toNat h
    rwa [BitVec.toNat_ofNat, BitVec.toNat_ofNat, Nat.mod_eq_of_lt hn, Nat.mod_eq_of_lt hm] at this
  · intro h; rw [h]

theorem andi_ofBool (a b : Bool) : Scalar.andi (BitVec.ofBool a) (BitVec.ofBool b) = BitVec.ofBool (a && b) := by
  cases a <;> cases b <;> decide

theorem hcond2_2 (t : Fin cfg2.N) : c2_2 (grid2.coords t) ↔ t.val % 200 = 0 := by
  unfold c2_2
  rw [coords2_1, show (0#32 : BitVec 32) = BitVec.ofNat 32 0 from rfl, cmpi_eq_ofNat _ _ (by omega) (by omega), ne_zero_extui, decide_eq_true_iff]

theorem hcond2_3 (t : Fin cfg2.N) : c2_3 (grid2.coords t) ↔ t.val % 200 = 199 := by
  unfold c2_3
  rw [coords2_1, show (199#32 : BitVec 32) = BitVec.ofNat 32 199 from rfl, cmpi_eq_ofNat _ _ (by omega) (by omega), ne_zero_extui, decide_eq_true_iff]

theorem hcond2_1 (t : Fin cfg2.N) : c2_1 (grid2.coords t) ↔ t.val = 0 := by
  have hN : t.val < 10000 := lt_of_lt_of_eq t.isLt N_2
  unfold c2_1
  rw [coords2_0, coords2_1, show (0#32 : BitVec 32) = BitVec.ofNat 32 0 from rfl, cmpi_eq_ofNat _ _ (by omega) (by omega),
    cmpi_eq_ofNat _ _ (by omega) (by omega), andi_ofBool, ne_zero_extui, Bool.and_eq_true, decide_eq_true_iff, decide_eq_true_iff]
  omega

theorem hcond2_4 (t : Fin cfg2.N) : c2_4 (grid2.coords t) ↔ t.val = 9999 := by
  have hN : t.val < 10000 := lt_of_lt_of_eq t.isLt N_2
  unfold c2_4 k2_cond4
  dsimp only
  rw [coords2_0, coords2_1, show (49#32 : BitVec 32) = BitVec.ofNat 32 49 from rfl, show (199#32 : BitVec 32) = BitVec.ofNat 32 199 from rfl,
    cmpi_eq_ofNat _ _ (by omega) (by omega), cmpi_eq_ofNat _ _ (by omega) (by omega), andi_ofBool, ne_zero_extui, Bool.and_eq_true,
    decide_eq_true_iff, decide_eq_true_iff]
  omega

/-- The branches the body can take at a point: the row-sum reset only with the accumulator's, the store only with the
    finish, and never a reset together with a finish. -/
theorem hreach2 (t : Fin cfg2.N) :
    (c2_1 (grid2.coords t) → c2_2 (grid2.coords t)) ∧ (c2_4 (grid2.coords t) → c2_3 (grid2.coords t))
      ∧ ¬(c2_2 (grid2.coords t) ∧ c2_3 (grid2.coords t)) := by
  rw [hcond2_1, hcond2_2, hcond2_3, hcond2_4]
  refine ⟨fun h => by rw [h], fun h => by rw [h], fun h => by omega⟩

/-! ## Each input window's current staging buffer holds its block at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-! ## The result window: idle and not written back before the last point, live at it -/

theorem idleAt2_5 (t : Fin cfg2.N) (h : ¬c2_4 (grid2.coords t)) : cfg2.idle 5 (grid2.coords t) = true := by
  show (!(k2_cond4 (grid2.coords t) == 1#1)) = true
  rw [Bool.not_eq_true', beq_eq_false_iff_ne]; exact h

theorem liveAt2_5 (t : Fin cfg2.N) (h : c2_4 (grid2.coords t)) : cfg2.idle 5 (grid2.coords t) = false := by
  show (!(k2_cond4 (grid2.coords t) == 1#1)) = false
  rw [Bool.not_eq_false', beq_iff_eq]; exact h

theorem noFlush2_5 (t : Fin cfg2.N) (h : t.val ≠ 9999) : (cfg2.win 5).flush t = false := by
  have hN : t.val < 10000 := lt_of_lt_of_eq t.isLt N_2
  rw [Bool.eq_false_iff]
  intro hf
  have := (flush2_5 t).mp hf
  omega

/-! ## The invariant's forms -/

/-- The class's invariant hands out the two scratch operands as whole memrefs owned at some contents, the other stages'
    staging buffers apart (`∗` reassociated and commuted), -/
theorem PhiA2_split (c : Dev nD) :
    (Pipeline.ΦA spec2 c : sProp 𝕄)
      ⊢ iprop(iprop((∃ d, owns (c : Thread nD τ) scM2_0 fullShare d) ∗ (∃ d, owns (c : Thread nD τ) scM2_1 fullShare d)) ∗ others2 c ∗ (∃ r, prngReg c r)) := by
  unfold Pipeline.ΦA others2; rw [scopedRest2_eq]; simp only [scM2_0, scM2_1, owns_whole]
  iintro ⟨⟨O1, O2, O3, O4, O5, O6, O7, O8, O9, O10, S0, S1⟩, Hg⟩
  isplitl [S0 S1]
  · isplitl [S0]; · iexact S0
    iexact S1
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexact O10
  iexact Hg

/-- and takes them back. -/
theorem PhiA2_join (c : Dev nD) :
    iprop(iprop((∃ d, owns (c : Thread nD τ) scM2_0 fullShare d) ∗ (∃ d, owns (c : Thread nD τ) scM2_1 fullShare d)) ∗ others2 c ∗ (∃ r, prngReg c r))
      ⊢ (Pipeline.ΦA spec2 c : sProp 𝕄) := by
  unfold Pipeline.ΦA others2; rw [scopedRest2_eq]; simp only [scM2_0, scM2_1, owns_whole]
  iintro ⟨⟨S0, S1⟩, ⟨O1, O2, O3, O4, O5, O6, O7, O8, O9, O10⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [S0]; · iexact S0
    iexact S1
  iexact Hg

theorem PhiA2_eq (c : Dev nD) :
    (Pipeline.ΦA spec2 c : sProp 𝕄)
      = iprop(iprop((∃ d, owns (c : Thread nD τ) scM2_0 fullShare d) ∗ (∃ d, owns (c : Thread nD τ) scM2_1 fullShare d)) ∗ others2 c ∗ (∃ r, prngReg c r)) :=
  BI.equiv_iff.mp ⟨PhiA2_split c, PhiA2_join c⟩
theorem PhiS2_zero (c : Dev nD) (n : ℕ) (h : n ≤ cfg2.N) (hz : n = 0) : PhiS2 V c n h = Pipeline.ΦA spec2 c := by
  subst hz; rfl

/-- After point `n` (before point `n + 1`): the two scratch buffers at that point's contents. -/
theorem PhiS2_succ (c : Dev nD) (n : ℕ) (hn : n < cfg2.N) :
    PhiS2 V c (n + 1) hn = iprop(iprop(owns (c : Thread nD τ) scM2_0 fullShare (accAt V c n hn) ∗ owns (c : Thread nD τ) scM2_1 fullShare (globAt V c n hn)) ∗ others2 c ∗ (∃ r, prngReg c r)) := rfl

/-- Before a point that is not the first: the two scratch buffers at what the point before left. -/
theorem PhiS2_pos (c : Dev nD) (n : ℕ) (h : n ≤ cfg2.N) (hz : n ≠ 0) :
    PhiS2 V c n h = iprop(iprop(owns (c : Thread nD τ) scM2_0 fullShare (accAt V c (n - 1) (by omega)) ∗ owns (c : Thread nD τ) scM2_1 fullShare (globAt V c (n - 1) (by omega))) ∗ others2 c ∗ (∃ r, prngReg c r)) := by
  cases n with
  | zero => exact absurd rfl hz
  | succ n => rfl

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The scratch contents after a point, from one run of the body -/

theorem acc'_reset (i : grid2.Coords) (x1 : Vec F S4000x128 .bf16) (x2 : Vec F S4000x1 .i32) (a0 : Vec F S1024x128 .f32) (h : c2_2 i) :
    acc' i x1 x2 a0 = acc' i x1 x2 (k2_pay3 (F := F)) := by
  unfold acc'; rw [if_pos h, if_pos h]

theorem glob'_reset (i : grid2.Coords) (x0 : Vec F S1024x128 .bf16) (x1 : Vec F S4000x128 .bf16) (x2 : Vec F S4000x1 .i32)
    (x3 x4 : Vec F S128x128 .f32) (a0 : Vec F S1024x128 .f32) (g0 : Vec F S1x128 .f32) (h1 : c2_1 i) (h2 : c2_2 i) :
    glob' i x0 x1 x2 x3 x4 a0 g0 = glob' i x0 x1 x2 x3 x4 (k2_pay3 (F := F)) (k2_pay2 (F := F)) := by
  unfold glob' glob0; rw [acc'_reset i x1 x2 a0 h2, if_pos h1, if_pos h1]

/-- At the first point both scratch buffers are reset, so what the body leaves does not depend on what it found. -/
theorem accAt_first (c : Dev nD) (t : Fin cfg2.N) (hz : t.val = 0) (a0 : Vec F S1024x128 .f32) :
    acc' (grid2.coords t) (iblk2 V c 1 t) (iblk2 V c 2 t) a0 = accAt V c t.val t.isLt := by
  obtain ⟨n, hn⟩ := t
  cases n with
  | zero => rw [accAt_zero]; exact acc'_reset _ _ _ _ ((hcond2_2 ⟨0, hn⟩).mpr (Nat.zero_mod _))
  | succ n => exact absurd hz (Nat.succ_ne_zero n)

theorem globAt_first (c : Dev nD) (t : Fin cfg2.N) (hz : t.val = 0) (a0 : Vec F S1024x128 .f32) (g0 : Vec F S1x128 .f32) :
    glob' (grid2.coords t) (iblk2 V c 0 t) (iblk2 V c 1 t) (iblk2 V c 2 t) (iblk2 V c 3 t) (iblk2 V c 4 t) a0 g0 = globAt V c t.val t.isLt := by
  obtain ⟨n, hn⟩ := t
  cases n with
  | zero => rw [globAt_zero]; exact glob'_reset _ _ _ _ _ _ _ _ ((hcond2_1 ⟨0, hn⟩).mpr rfl) ((hcond2_2 ⟨0, hn⟩).mpr (Nat.zero_mod _))
  | succ n => exact absurd hz (Nat.succ_ne_zero n)

/-- At a later point the body runs over what the point before left. -/
theorem accAt_next (c : Dev nD) (t : Fin cfg2.N) (hz : t.val ≠ 0) :
    acc' (grid2.coords t) (iblk2 V c 1 t) (iblk2 V c 2 t) (accAt V c (t.val - 1) (Nat.lt_of_le_of_lt (Nat.sub_le _ _) t.isLt)) = accAt V c t.val t.isLt := by
  obtain ⟨n, hn⟩ := t
  cases n with
  | zero => exact absurd rfl hz
  | succ n => rfl

theorem globAt_next (c : Dev nD) (t : Fin cfg2.N) (hz : t.val ≠ 0) :
    glob' (grid2.coords t) (iblk2 V c 0 t) (iblk2 V c 1 t) (iblk2 V c 2 t) (iblk2 V c 3 t) (iblk2 V c 4 t)
      (accAt V c (t.val - 1) (Nat.lt_of_le_of_lt (Nat.sub_le _ _) t.isLt)) (globAt V c (t.val - 1) (Nat.lt_of_le_of_lt (Nat.sub_le _ _) t.isLt)) = globAt V c t.val t.isLt := by
  obtain ⟨n, hn⟩ := t
  cases n with
  | zero => exact absurd rfl hz
  | succ n => rfl

/-- The invariant before point `t`, opened: the two scratch buffers at contents from which one run of the body at `t`
    leaves the point's. -/
theorem PhiS2_open (c : Dev nD) (t : Fin cfg2.N) :
    PhiS2 V c t.val (Nat.le_of_lt t.isLt) ⊢ (iprop(∃ (a0 : Vec F S1024x128 .f32) (g0 : Vec F S1x128 .f32),
      ⌜acc' (grid2.coords t) (iblk2 V c 1 t) (iblk2 V c 2 t) a0 = accAt V c t.val t.isLt
        ∧ glob' (grid2.coords t) (iblk2 V c 0 t) (iblk2 V c 1 t) (iblk2 V c 2 t) (iblk2 V c 3 t) (iblk2 V c 4 t) a0 g0 = globAt V c t.val t.isLt⌝
      ∗ iprop(owns (c : Thread nD τ) scM2_0 fullShare a0 ∗ owns (c : Thread nD τ) scM2_1 fullShare g0) ∗ others2 c ∗ (∃ r, prngReg c r)) : sProp 𝕄) := by
  by_cases hz : t.val = 0
  · rw [PhiS2_zero V c _ _ hz, PhiA2_eq]
    iintro ⟨⟨⟨%a0, HS0⟩, ⟨%g0, HS1⟩⟩, Hoth, Hg⟩
    iexists a0, g0
    isplitr
    · ipureintro; exact ⟨accAt_first V c t hz a0, globAt_first V c t hz a0 g0⟩
    isplitl [HS0 HS1]
    · isplitl [HS0]; · iexact HS0
      iexact HS1
    isplitl [Hoth]; · iexact Hoth
    iexact Hg
  · rw [PhiS2_pos V c _ _ hz]
    iintro ⟨⟨HS0, HS1⟩, Hoth, Hg⟩
    iexists _, _
    isplitr
    · ipureintro; exact ⟨accAt_next V c t hz, globAt_next V c t hz⟩
    isplitl [HS0 HS1]
    · isplitl [HS0]; · iexact HS0
      iexact HS1
    isplitl [Hoth]; · iexact Hoth
    iexact Hg

/-! ## The body obligation, at a generic point -/

/-- Each window's current staging memref at point `t`, spelled as the pipeline passes it, and its wholeness. -/
abbrev ms2_0 (t : Fin cfg2.N) : Memref sig .tc .vmem S1024x128 .bf16 := win2_0.stage (cfg2.slots t 0)
abbrev hs2_0 (t : Fin cfg2.N) : (ms2_0 t).IsWhole := Facts₀.hstage2_0 ((cfg2.slots t 0).cast Facts₀.nbuf2_0)
abbrev ms2_1 (t : Fin cfg2.N) : Memref sig .tc .vmem S4000x128 .bf16 := win2_1.stage (cfg2.slots t 1)
abbrev hs2_1 (t : Fin cfg2.N) : (ms2_1 t).IsWhole := Facts₀.hstage2_1 ((cfg2.slots t 1).cast Facts₀.nbuf2_1)
abbrev ms2_2 (t : Fin cfg2.N) : Memref sig .tc .vmem S4000x1 .i32 := win2_2.stage (cfg2.slots t 2)
abbrev hs2_2 (t : Fin cfg2.N) : (ms2_2 t).IsWhole := Facts₀.hstage2_2 ((cfg2.slots t 2).cast Facts₀.nbuf2_2)
abbrev ms2_3 (t : Fin cfg2.N) : Memref sig .tc .vmem S128x128 .f32 := win2_3.stage (cfg2.slots t 3)
abbrev hs2_3 (t : Fin cfg2.N) : (ms2_3 t).IsWhole := Facts₀.hstage2_3 ((cfg2.slots t 3).cast Facts₀.nbuf2_3)
abbrev ms2_4 (t : Fin cfg2.N) : Memref sig .tc .vmem S128x128 .f32 := win2_4.stage (cfg2.slots t 4)
abbrev hs2_4 (t : Fin cfg2.N) : (ms2_4 t).IsWhole := Facts₀.hstage2_4 ((cfg2.slots t 4).cast Facts₀.nbuf2_4)
abbrev ms2_5 (t : Fin cfg2.N) : Memref sig .tc .vmem S128 .f32 := win2_5.stage (cfg2.slots t 5)
abbrev hs2_5 (t : Fin cfg2.N) : (ms2_5 t).IsWhole := Facts₀.hstage2_5 ((cfg2.slots t 5).cast Facts₀.nbuf2_5)

/-- What the result window's buffer holds after the body is what the obligation asks of it: before the last point the
    window is idle and not written back, and the buffer is as found; at the last point it is the row-sum scratch. -/
theorem leaves2_5 (c : Dev nD) (t : Fin cfg2.N) (d) (a0 : Vec F S1024x128 .f32) (g0 : Vec F S1x128 .f32)
    (hg : glob' (grid2.coords t) (iblk2 V c 0 t) (iblk2 V c 1 t) (iblk2 V c 2 t) (iblk2 V c 3 t) (iblk2 V c 4 t) a0 g0 = globAt V c t.val t.isLt) :
    owns (c : Thread nD τ) (ms2_5 t) fullShare (out7 (grid2.coords t) (iblk2 V c 0 t) (iblk2 V c 1 t) (iblk2 V c 2 t) (iblk2 V c 3 t) (iblk2 V c 4 t) ((dat2 V c).before 5 t d) a0 g0)
      ⊢ ((dat2 V c).leavesExact 5 t : sProp 𝕄) := by
  by_cases h4 : c2_4 (grid2.coords t)
  · rw [show (dat2 V c).leavesExact 5 t = owns (c : Thread nD τ) (ms2_5 t) fullShare ((dat2 V c).after 5 t) from by
      unfold Dat.leavesExact; rw [liveAt2_5 t h4], after2_5]
    unfold out7; rw [if_pos h4, hg]
  · rw [Dat.leavesExact_idle (dat2 V c) 5 t (idleAt2_5 t h4) (noFlush2_5 t (fun h => h4 ((hcond2_4 t).mpr h)))]
    unfold out7; rw [if_neg h4]
    iintro H; iexists d; iexact H

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the invariant hands the body the two scratch buffers at
    what the point before left (at anything at the first point, where both are reset); the body's triple applies; the
    invariant takes the scratch buffers back at this point's contents, the inputs are as found, and the result buffer is
    what the obligation asks; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from rfl, after2_0]
  rw [show (dat2 V c).leavesExact 1 t = owns (c : Thread nD τ) (ms2_1 t) fullShare ((dat2 V c).after 1 t) from rfl, after2_1]
  rw [show (dat2 V c).leavesExact 2 t = owns (c : Thread nD τ) (ms2_2 t) fullShare ((dat2 V c).after 2 t) from rfl, after2_2]
  rw [show (dat2 V c).leavesExact 3 t = owns (c : Thread nD τ) (ms2_3 t) fullShare ((dat2 V c).after 3 t) from rfl, after2_3]
  rw [show (dat2 V c).leavesExact 4 t = owns (c : Thread nD τ) (ms2_4 t) fullShare ((dat2 V c).after 4 t) from rfl, after2_4]
  rw [PhiS2_castSucc V c t]
  refine BIBase.Entails.trans (sep_mono_left (PhiS2_open V c t)) ?_
  iintro ⟨⟨%a0, %g0, %hag, ⟨HS0, HS1⟩, Hoth, Hg⟩, Ho, ⟨%d0, H0⟩, ⟨%d1, H1⟩, ⟨%d2, H2⟩, ⟨%d3, H3⟩, ⟨%d4, H4⟩, ⟨%d5, H5⟩⟩
  iapply (sound_kernel2 c Set.univ (grid2.coords t) (ms2_0 t) (hs2_0 t) (ms2_1 t) (hs2_1 t) (ms2_2 t) (hs2_2 t) (ms2_3 t) (hs2_3 t)
    (ms2_4 t) (hs2_4 t) (ms2_5 t) (hs2_5 t) scM2_0 (Memref.isWhole_whole _) scM2_1 (Memref.isWhole_whole _) (hreach2 t)
    (iblk2 V c 0 t) (iblk2 V c 1 t) (iblk2 V c 2 t) (iblk2 V c 3 t) (iblk2 V c 4 t) ((dat2 V c).before 5 t d5) a0 g0 _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  rw [hag.1, hag.2]
  isplitl [HS0 HS1 Hoth Hg]
  · isplitl [HS0 HS1]
    · isplitl [HS0]; · iexact HS0
      iexact HS1
    isplitl [Hoth]; · iexact Hoth
    iexact Hg
  isplitl [Ho]; · iexact Ho
  isplitl [H0]; · iexact H0
  isplitl [H1]; · iexact H1
  isplitl [H2]; · iexact H2
  isplitl [H3]; · iexact H3
  isplitl [H4]; · iexact H4
  iapply (leaves2_5 V c t d5 a0 g0 hag.2)
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the stage is its invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HS1⟩, Hoth, Hg⟩
  isplitl [HS0 HS1]
  · isplitl [HS0]
    · iexists _; iexact HS0
    iexists _; iexact HS1
  isplitl [Hoth]; · iexact Hoth
  iexact Hg

/-- After the last point the invariant gives the class's back: the scratch contents are forgotten. -/
theorem hout2 (c : Dev nD) : (dat2 V c).Φ (Fin.last cfg2.N) ⊢ (Pipeline.ΦA spec2 c : sProp 𝕄) :=
  Phi_out2 V c _ (by rw [Fin.val_last]; have : cfg2.N = 10000 := N_2; omega)

end Cert.Kernel.Run

end
-- ==== Proof.KRun.lean ====
/-
  The run of the whole program: five short host stretches (a zero constant, the padding of the table to 10240 rows,
  its rounding to bf16, the padding of the node index words to 51200, three reshapes), the two row-take stages and
  the combining stage back to back, and the closing host stretch (the softmax of the 128 row sums). This module
  gives the buffer contents at each boundary as a fold from the launch memory, the three stages' proof data at the
  contents each is entered from, each stretch and stage as a segment over one thread state, and the run itself: every
  execution terminates with every unscoped buffer at the fold's last contents, the six arguments as launched.
-/
import proofs.«413086_j36112085025448_1_alg».proof.Proof.KReg0
import proofs.«413086_j36112085025448_1_alg».proof.Proof.KReg1
import proofs.«413086_j36112085025448_1_alg».proof.Proof.KReg2
import proofs.«413086_j36112085025448_1_alg».proof.Proof.Gen.Kernel.Launch
import proofs.«413086_j36112085025448_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Ring
import Idealize.ShloMosaic.Lib.Tactic

set_option maxRecDepth 16384

noncomputable section

namespace Cert.Kernel.Run

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the zero constant. -/
abbrev W1 : Dev nD → Valuation τ sig (Elt F) := fun c => StableHlo.after hostOps0 (W0 m ρ c)
/-- After the table is padded to 10240 rows. -/
abbrev W2 : Dev nD → Valuation τ sig (Elt F) := fun c => StableHlo.after hostOps0_1 (W1 m ρ c)
/-- After the padded table is rounded to bf16 (and a second zero constant). -/
abbrev W3 : Dev nD → Valuation τ sig (Elt F) := fun c => StableHlo.after hostOps0_2 (W2 m ρ c)
/-- After the node index words are padded to 51200. -/
abbrev W4 : Dev nD → Valuation τ sig (Elt F) := fun c => StableHlo.after hostOps0_3 (W3 m ρ c)
/-- After the three index arrays are reshaped to columns: what the first stage is entered from. -/
abbrev W5 : Dev nD → Valuation τ sig (Elt F) := fun c => StableHlo.after hostOps0_4 (W4 m ρ c)
/-- The same read at the core's own references: the first stage's entry contents. -/
abbrev Vin0 : (c : Dev nD) → (b : Ref sig .tc) → Buf (Elt F) ((c : Thread nD τ).loc b) := fun c b => W5 m ρ c b

/-- At stage 0's exit: its arrays at what the stage leaves (an input as entered, an output's write-backs folded in),
    every other buffer as entered. -/
def W6 (c : Dev nD) : Valuation τ sig (Elt F) :=
  Pipeline.withArrays spec0 c (W5 m ρ c) fun w => (dat0 (Vin0 m ρ) c).arrAt w cfg0.N
theorem W6_arr (c : Dev nD) (w : Fin cfg0.W) :
    W6 m ρ c (Proc.devRef .tc (Pipeline.arrRef spec0 w)) = (dat0 (Vin0 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the core's own references (stage 0's exit contents). -/
abbrev Vout0 : (c : Dev nD) → (b : Ref sig .tc) → Buf (Elt F) ((c : Thread nD τ).loc b) := fun c b => W6 m ρ c b
/-- At the exit each array of the stage holds what the stage leaves, and every other buffer what it held at entry. -/
theorem hF0 (c : Dev nD) (w : Fin cfg0.W) : (dat0 (Vin0 m ρ) c).arrAt w cfg0.N = Vout0 m ρ c (Pipeline.arrRef spec0 w) :=
  (W6_arr m ρ c w).symm
theorem hrest0 (c : Dev nD) : ∀ b, b ∉ Finset.univ.image (Pipeline.arrRef spec0) → Vout0 m ρ c b = Vin0 m ρ c b :=
  fun b hb => W6_of_ne m ρ c b fun w e => hb (Finset.mem_image.mpr ⟨w, Finset.mem_univ _, e⟩)

/-- The second stage is entered from the first's exit contents. -/
abbrev Vin1 : (c : Dev nD) → (b : Ref sig .tc) → Buf (Elt F) ((c : Thread nD τ).loc b) := fun c b => W6 m ρ c b

/-- At stage 1's exit: its arrays at what the stage leaves (an input as entered, an output's write-backs folded in),
    every other buffer as entered. -/
def W7 (c : Dev nD) : Valuation τ sig (Elt F) :=
  Pipeline.withArrays spec1 c (W6 m ρ c) fun w => (dat1 (Vin1 m ρ) c).arrAt w cfg1.N
theorem W7_arr (c : Dev nD) (w : Fin cfg1.W) :
    W7 m ρ c (Proc.devRef .tc (Pipeline.arrRef spec1 w)) = (dat1 (Vin1 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the core's own references (stage 1's exit contents). -/
abbrev Vout1 : (c : Dev nD) → (b : Ref sig .tc) → Buf (Elt F) ((c : Thread nD τ).loc b) := fun c b => W7 m ρ c b
/-- At the exit each array of the stage holds what the stage leaves, and every other buffer what it held at entry. -/
theorem hF1 (c : Dev nD) (w : Fin cfg1.W) : (dat1 (Vin1 m ρ) c).arrAt w cfg1.N = Vout1 m ρ c (Pipeline.arrRef spec1 w) :=
  (W7_arr m ρ c w).symm
theorem hrest1 (c : Dev nD) : ∀ b, b ∉ Finset.univ.image (Pipeline.arrRef spec1) → Vout1 m ρ c b = Vin1 m ρ c b :=
  fun b hb => W7_of_ne m ρ c b fun w e => hb (Finset.mem_image.mpr ⟨w, Finset.mem_univ _, e⟩)

/-- The combining stage is entered from the second's exit contents. -/
abbrev Vin2 : (c : Dev nD) → (b : Ref sig .tc) → Buf (Elt F) ((c : Thread nD τ).loc b) := fun c b => W7 m ρ c b

/-- At stage 2's exit: its arrays at what the stage leaves (an input as entered, an output's write-backs folded in),
    every other buffer as entered. -/
def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the core's own references (stage 2's exit contents). -/
abbrev Vout2 : (c : Dev nD) → (b : Ref sig .tc) → Buf (Elt F) ((c : Thread nD τ).loc b) := fun c b => W8 m ρ c b
/-- At the exit each array of the stage holds what the stage leaves, and every other buffer what it held at entry. -/
theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)

/-- After the closing host stretch (the softmax): the last contents. -/
abbrev Wfin : Dev nD → Valuation τ sig (Elt F) := fun c => StableHlo.after hostOps3 (W8 m ρ c)
abbrev W9 : Dev nD → Valuation τ sig (Elt F) := Wfin m ρ

/-! ### The arguments end as launched: the fold at an argument's buffer walks back to the launch memory -/

/-- Argument 0 ends as launched: no host stretch writes it and no stage stores into it. -/
theorem Wfin_main_arg0 (c : Dev nD) : Wfin m ρ c (Proc.devRef .tc main_arg0) = m ((c : Thread nD τ).loc main_arg0) :=
  calc Wfin m ρ c (Proc.devRef .tc main_arg0)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- Argument 1 ends as launched: no host stretch writes it and no stage stores into it. -/
theorem Wfin_main_arg1 (c : Dev nD) : Wfin m ρ c (Proc.devRef .tc main_arg1) = m ((c : Thread nD τ).loc main_arg1) :=
  calc Wfin m ρ c (Proc.devRef .tc main_arg1)
    _ = W8 m ρ c (Proc.devRef .tc main_arg1) := StableHlo.after_of_writes_sub hostOps3 _ hostOps3_writes (by decide)
    _ = W7 m ρ c (Proc.devRef .tc main_arg1) := (W8_arr m ρ c 3).trans (((dat2 (Vin2 m ρ) c).arrAt_in 3 rfl _).trans (A_eq2 (Vin2 m ρ) c 3))
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- Argument 2 ends as launched: no host stretch writes it and no stage stores into it. -/
theorem Wfin_main_arg2 (c : Dev nD) : Wfin m ρ c (Proc.devRef .tc main_arg2) = m ((c : Thread nD τ).loc main_arg2) :=
  calc Wfin m ρ c (Proc.devRef .tc main_arg2)
    _ = W8 m ρ c (Proc.devRef .tc main_arg2) := StableHlo.after_of_writes_sub hostOps3 _ hostOps3_writes (by decide)
    _ = W7 m ρ c (Proc.devRef .tc main_arg2) := (W8_arr m ρ c 4).trans (((dat2 (Vin2 m ρ) c).arrAt_in 4 rfl _).trans (A_eq2 (Vin2 m ρ) c 4))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- Argument 3 ends as launched: no host stretch writes it and no stage stores into it. -/
theorem Wfin_main_arg3 (c : Dev nD) : Wfin m ρ c (Proc.devRef .tc main_arg3) = m ((c : Thread nD τ).loc main_arg3) :=
  calc Wfin m ρ c (Proc.devRef .tc main_arg3)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- Argument 4 ends as launched: no host stretch writes it and no stage stores into it. -/
theorem Wfin_main_arg4 (c : Dev nD) : Wfin m ρ c (Proc.devRef .tc main_arg4) = m ((c : Thread nD τ).loc main_arg4) :=
  calc Wfin m ρ c (Proc.devRef .tc main_arg4)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- Argument 5 ends as launched: no host stretch writes it and no stage stores into it. -/
theorem Wfin_main_arg5 (c : Dev nD) : Wfin m ρ c (Proc.devRef .tc main_arg5) = m ((c : Thread nD τ).loc main_arg5) :=
  calc Wfin m ρ c (Proc.devRef .tc main_arg5)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-! ## The proof data family and the thread state -/

/-- Every stage's proof data, each at its entry contents. -/
def pdats : (p : Fin 3) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's effect on `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (Wfin m ρ c) ∗ ∃ r, prngReg c r)

/-! ## The stages as segments -/

set_option backward.isDefEq.respectTransparency.types false in
/-- Stage 0 over the thread state: entered from every unscoped buffer at `W5`, left at `W6`. Its arrays are split
    out of the unscoped buffers at entry and put back at the exit contents; the generator register goes into the
    stage's invariant and comes back; nothing is owed; the stage has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered from every unscoped buffer at `W6`, left at `W7`. Its arrays are split
    out of the unscoped buffers at entry and put back at the exit contents; the generator register goes into the
    stage's invariant and comes back; nothing is owed; the stage has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 over the thread state: entered from every unscoped buffer at `W7`, left at `W8`. Its arrays are split
    out of the unscoped buffers at entry and put back at the exit contents; the generator register goes into the
    stage's invariant and comes back; nothing is owed; the stage has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (Pipeline.ΦA spec2 c : sProp 𝕄) ⊢ (pdats m ρ 2 c).Φ 0 := hin2 (Vin2 m ρ) c
    refine BIBase.Entails.trans ?_ h2
    unfold Pipeline.ΦA
    iintro ⟨Hp, -, Hr⟩
    isplitl [Hr]; · iexact Hr
    iexact Hp
  hout c := by
    rw [Pipeline.ownSems0_none]
    have h2 : (pdats m ρ 2 c).Φ (Fin.last _) ⊢ (Pipeline.ΦA spec2 c : sProp 𝕄) := hout2 (Vin2 m ρ) c
    refine BIBase.Entails.trans h2 ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order: a host segment per stretch from its boundary's contents, a stage per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .region (reg2 m ρ),
    .host (hseg hostOps3 hostOps3_sub hostOps3_fresh (W8 m ρ)) ]
/-- The program is the run of the segments: it is the chain of its items, and so is the segments' run. -/
theorem main_run (c : Dev nD) : main (F := F) c = Pipeline.Seg.run (segs m ρ) := (main_chain c).trans (by chain_rfl)

set_option backward.isDefEq.respectTransparency.types false in
/-- THE RUN: from any memory with zero counters every weakly fair execution of the program on the cores terminates,
    nothing faulting, and in every final state each core's unscoped buffers hold the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => (show (iprop(StableHlo.held (c : Thread nD τ) (Pipeline.ucRefs τ sig) (Wfin m ρ c)
            ∗ ((∃ r, prngReg c r) ∗ ∃ W, owes (c : Thread nD τ) (0 : CellTallies nD τ sig Unit) W)) : sProp 𝕄)
          ⊢ iprop((StableHlo.held (c : Thread nD τ) (Pipeline.ucRefs τ sig) (Wfin m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun _ h => h)

/-- THE FRAME: every execution terminates and each of the six argument arrays ends holding what it held at launch:
    the run's last contents read at each argument, which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Wfin_main_arg0 m ρ c),
     (h c _ (mem_uc main_arg1 (by decide))).trans (Wfin_main_arg1 m ρ c),
     (h c _ (mem_uc main_arg2 (by decide))).trans (Wfin_main_arg2 m ρ c),
     (h c _ (mem_uc main_arg3 (by decide))).trans (Wfin_main_arg3 m ρ c),
     (h c _ (mem_uc main_arg4 (by decide))).trans (Wfin_main_arg4 m ρ c),
     (h c _ (mem_uc main_arg5 (by decide))).trans (Wfin_main_arg5 m ρ c)⟩) (run_all m ρ)

end Cert.Kernel.Run

end
-- ==== Proof.Reg0.lean ====
/-
  The first row-take stage (the self features): each grid point loads a tile of 512 index words and the whole table,
  and stores the tile's rows of the table, read through a one-hot matrix product. This module is the stage's half of
  the run, at any contents `V` the stage may be entered from: a window's block at a point, what the body stores as a
  function of the blocks it loads, the stage's proof data, and the body's triple at every grid point.
-/
import proofs.«413086_j36112085025448_1_alg».proof.Proof.Gen.KernelIdeal.Launch
import proofs.«413086_j36112085025448_1_alg».proof.Proof.Gen.KernelIdeal.Skeleton
import proofs.«413086_j36112085025448_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not, for any
    proof data over the arrays as found whose body leaves the block in place: unfetched, the block index has not moved,
    and the previous point's block is this point's. Window 0 is the tile of index words. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of window 1, the whole table, whose block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1 := Rect.unit (s := S512x1) ![0, 0] S512x1.size Gen.inb_S512x1_S512x1_0_0
abbrev r0_1 : Rect S10240x128 := Rect.unit (s := S10240x128) ![0, 0] S10240x128.size Gen.inb_S10240x128_S10240x128_0_0
abbrev r0_2 : Rect S512x128 := Rect.unit (s := S512x128) ![0, 0] S512x128.size Gen.inb_S512x128_S512x128_0_0

/-- The output tile after the body: its one store, of the rows the tile's index words name. -/
def out0_2 (x0 : Vec F S512x1 .i32) (x1 : Vec F S10240x128 .bf16) : Vec F S512x128 .bf16 :=
  View.canon [⟨r0_2, k0_pay1 (View.ld x0 r0_0) (View.ld x1 r0_1)⟩]

/-- The one store is of the whole tile, so it covers it. -/
theorem cover0_2 (p0 : Vec F S512x128 .bf16) (y : S512x128.Idx) :
    ∃ pc ∈ ([⟨r0_2, p0⟩] : List (View.Piece (Elt F) S512x128 .bf16)), y ∈ pc.1.set :=
  View.cover_of_tiled [⟨r0_2, p0⟩] S512x128.size (by rfl) y

set_option maxHeartbeats 1000000 in
/-- The body on whole staging buffers, the two inputs' at read contents `x0`, `x1` and the output's at anything, runs to
    the continuation holding the inputs' as they were and the output's at `out0_2 x0 x1`: two loads of the inputs, a load
    of the output whose value is unused, and one store over the whole output tile. -/
theorem sound_kernel0 (c : Dev nD) (E : Set ℕ) (i : grid0.Coords) (arg1 : Memref sig .tc .vmem S512x1 .i32) (harg1 : arg1.IsWhole)
    (arg2 : Memref sig .tc .vmem S10240x128 .bf16) (harg2 : arg2.IsWhole) (arg3 : Memref sig .tc .vmem S512x128 .bf16) (harg3 : arg3.IsWhole)
    (x0 : Vec F S512x1 .i32) (x1 : Vec F S10240x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The stage's proof data on core `c`: the arrays as found; after the body each input tile as loaded and the output
    tile at `out0_2` of the two input tiles; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's triple at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.Reg1.lean ====
/-
  The second row-take stage (the edge features): each grid point loads a tile of 256 index words and the whole table,
  and stores the tile's rows of the table, read through a one-hot matrix product. This module is the stage's half of
  the run, at any contents `V` the stage may be entered from: a window's block at a point, what the body stores as a
  function of the blocks it loads, the stage's proof data, and the body's triple at every grid point.
-/
import proofs.«413086_j36112085025448_1_alg».proof.Proof.Gen.KernelIdeal.Launch
import proofs.«413086_j36112085025448_1_alg».proof.Proof.Gen.KernelIdeal.Skeleton
import proofs.«413086_j36112085025448_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not, for any
    proof data over the arrays as found whose body leaves the block in place: unfetched, the block index has not moved,
    and the previous point's block is this point's. Window 0 is the tile of index words. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of window 1, the whole table, whose block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x1 := Rect.unit (s := S256x1) ![0, 0] S256x1.size Gen.inb_S256x1_S256x1_0_0
abbrev r1_1 : Rect S10240x128 := Rect.unit (s := S10240x128) ![0, 0] S10240x128.size Gen.inb_S10240x128_S10240x128_0_0
abbrev r1_2 : Rect S256x128 := Rect.unit (s := S256x128) ![0, 0] S256x128.size Gen.inb_S256x128_S256x128_0_0

/-- The output tile after the body: its one store, of the rows the tile's index words name. -/
def out1_2 (x0 : Vec F S256x1 .i32) (x1 : Vec F S10240x128 .bf16) : Vec F S256x128 .bf16 :=
  View.canon [⟨r1_2, k1_pay1 (View.ld x0 r1_0) (View.ld x1 r1_1)⟩]

/-- The one store is of the whole tile, so it covers it. -/
theorem cover1_2 (p0 : Vec F S256x128 .bf16) (y : S256x128.Idx) :
    ∃ pc ∈ ([⟨r1_2, p0⟩] : List (View.Piece (Elt F) S256x128 .bf16)), y ∈ pc.1.set :=
  View.cover_of_tiled [⟨r1_2, p0⟩] S256x128.size (by rfl) y

set_option maxHeartbeats 1000000 in
/-- The body on whole staging buffers, the two inputs' at read contents `x0`, `x1` and the output's at anything, runs to
    the continuation holding the inputs' as they were and the output's at `out1_2 x0 x1`: two loads of the inputs, a load
    of the output whose value is unused, and one store over the whole output tile. -/
theorem sound_kernel1 (c : Dev nD) (E : Set ℕ) (i : grid1.Coords) (arg1 : Memref sig .tc .vmem S256x1 .i32) (harg1 : arg1.IsWhole)
    (arg2 : Memref sig .tc .vmem S10240x128 .bf16) (harg2 : arg2.IsWhole) (arg3 : Memref sig .tc .vmem S256x128 .bf16) (harg3 : arg3.IsWhole)
    (x0 : Vec F S256x1 .i32) (x1 : Vec F S10240x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The stage's proof data on core `c`: the arrays as found; after the body each input tile as loaded and the output
    tile at `out1_2` of the two input tiles; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's triple at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.Reg2Defs.lean ====
/-
  The combining stage: a grid of 50 node tiles by 200 edge tiles (point t is node tile t / 200, edge tile t % 200).
  Each point adds to a scratch accumulator of 1024 node rows what the point's 4000 edges credit to the tile's nodes (a
  one-hot product against the edge features); the accumulator is reset at the first edge tile of every node tile; at
  the last edge tile the node tile's pre-activations `self · Wᵀ + acc · Mᵀ` are formed, their positive parts masked to
  the real nodes and summed over the rows into a second scratch row, itself reset at the very first point; the very last
  point stores that row as the result.
  This module holds the stage's definitions at any entry contents `V`: a window's block at a point, the body's four
  branch conditions, what one run of the body leaves in the two scratch buffers and in the result buffer as functions of
  what it found, the scratch contents after every point (by recursion on the point), and the stage's proof data.
-/
import proofs.«413086_j36112085025448_1_alg».proof.Proof.Gen.KernelIdeal.Launch
import proofs.«413086_j36112085025448_1_alg».proof.Proof.Gen.KernelIdeal.Skeleton
import proofs.«413086_j36112085025448_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, as the skeleton computes them from the grid point -/

/-- Reset of the row-sum scratch: node tile 0 and edge tile 0. -/
abbrev c2_1 (i : grid2.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Reset of the accumulator: edge tile 0. -/
abbrev c2_2 (i : grid2.Coords) : Prop :=
  Scalar.cmpi .ne (Scalar.extui (Scalar.cmpi .eq (BitVec.ofNat 32 (i 1).val) 0#32)) 0#32 = 1#1
/-- The node tile's finish: edge tile 199. -/
abbrev c2_3 (i : grid2.Coords) : Prop :=
  Scalar.cmpi .ne (Scalar.extui (Scalar.cmpi .eq (BitVec.ofNat 32 (i 1).val) 199#32)) 0#32 = 1#1
/-- The result's store: node tile 49 and edge tile 199. -/
abbrev c2_4 (i : grid2.Coords) : Prop := k2_cond4 i = 1#1

/-! ## One run of the body, as functions of what it finds -/

/-- The accumulator after the body: the point's credit added to what it found, or to the reset value at edge tile 0. -/
def acc' (i : grid2.Coords) (x1 : Vec F S4000x128 .bf16) (x2 : Vec F S4000x1 .i32) (a0 : Vec F S1024x128 .f32) : Vec F S1024x128 .f32 :=
  k2_pay4 i x2 x1 (if c2_2 i then k2_pay3 (F := F) else a0)

/-- The row-sum scratch the finish finds: the reset value at the very first point, else what the body found. -/
def glob0 (i : grid2.Coords) (g0 : Vec F S1x128 .f32) : Vec F S1x128 .f32 :=
  if c2_1 i then k2_pay2 (F := F) else g0

/-- The row-sum scratch after the body: at edge tile 199 the node tile's masked, rectified row sum added in. -/
def glob' (i : grid2.Coords) (x0 : Vec F S1024x128 .bf16) (x1 : Vec F S4000x128 .bf16) (x2 : Vec F S4000x1 .i32)
    (x3 x4 : Vec F S128x128 .f32) (a0 : Vec F S1024x128 .f32) (g0 : Vec F S1x128 .f32) : Vec F S1x128 .f32 :=
  if c2_3 i then k2_pay5 i x0 x3 x4 (acc' i x1 x2 a0) (glob0 i g0) else glob0 i g0

/-- The result buffer after the body: the row-sum scratch at the very last point, else as found. -/
def out7 (i : grid2.Coords) (x0 : Vec F S1024x128 .bf16) (x1 : Vec F S4000x128 .bf16) (x2 : Vec F S4000x1 .i32)
    (x3 x4 : Vec F S128x128 .f32) (d7 : Vec F S128 .f32) (a0 : Vec F S1024x128 .f32) (g0 : Vec F S1x128 .f32) : Vec F S128 .f32 :=
  if c2_4 i then k2_pay1 (glob' i x0 x1 x2 x3 x4 a0 g0) else d7

variable (V : (c : Dev nD) → (b : Ref sig .tc) → Buf (Elt F) ((c : Thread nD τ).loc b))

/-- Window `w`'s block at grid point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The scratch contents after each point -/

/-- The accumulator after point `n`. -/
def accAt (c : Dev nD) : (n : ℕ) → n < cfg2.N → Vec F S1024x128 .f32
  | 0, hn => acc' (grid2.coords ⟨0, hn⟩) (iblk2 V c 1 ⟨0, hn⟩) (iblk2 V c 2 ⟨0, hn⟩) (k2_pay3 (F := F))
  | n + 1, hn => acc' (grid2.coords ⟨n + 1, hn⟩) (iblk2 V c 1 ⟨n + 1, hn⟩) (iblk2 V c 2 ⟨n + 1, hn⟩) (accAt c n (Nat.lt_of_succ_lt hn))

/-- The row-sum scratch after point `n`. -/
def globAt (c : Dev nD) : (n : ℕ) → n < cfg2.N → Vec F S1x128 .f32
  | 0, hn => glob' (grid2.coords ⟨0, hn⟩) (iblk2 V c 0 ⟨0, hn⟩) (iblk2 V c 1 ⟨0, hn⟩) (iblk2 V c 2 ⟨0, hn⟩) (iblk2 V c 3 ⟨0, hn⟩) (iblk2 V c 4 ⟨0, hn⟩)
      (k2_pay3 (F := F)) (k2_pay2 (F := F))
  | n + 1, hn => glob' (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (accAt V c n (Nat.lt_of_succ_lt hn)) (globAt c n (Nat.lt_of_succ_lt hn))

theorem accAt_zero (c : Dev nD) (hn : 0 < cfg2.N) :
    accAt V c 0 hn = acc' (grid2.coords ⟨0, hn⟩) (iblk2 V c 1 ⟨0, hn⟩) (iblk2 V c 2 ⟨0, hn⟩) (k2_pay3 (F := F)) := rfl
theorem accAt_succ (c : Dev nD) (n : ℕ) (hn : n + 1 < cfg2.N) :
    accAt V c (n + 1) hn = acc' (grid2.coords ⟨n + 1, hn⟩) (iblk2 V c 1 ⟨n + 1, hn⟩) (iblk2 V c 2 ⟨n + 1, hn⟩) (accAt V c n (Nat.lt_of_succ_lt hn)) := rfl
theorem globAt_zero (c : Dev nD) (hn : 0 < cfg2.N) :
    globAt V c 0 hn = glob' (grid2.coords ⟨0, hn⟩) (iblk2 V c 0 ⟨0, hn⟩) (iblk2 V c 1 ⟨0, hn⟩) (iblk2 V c 2 ⟨0, hn⟩) (iblk2 V c 3 ⟨0, hn⟩) (iblk2 V c 4 ⟨0, hn⟩)
      (k2_pay3 (F := F)) (k2_pay2 (F := F)) := rfl
theorem globAt_succ (c : Dev nD) (n : ℕ) (hn : n + 1 < cfg2.N) :
    globAt V c (n + 1) hn = glob' (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (accAt V c n (Nat.lt_of_succ_lt hn)) (globAt V c n (Nat.lt_of_succ_lt hn)) := rfl

/-! ## The stage's invariant and proof data -/

/-- The two scratch operands as whole memrefs. -/
abbrev scM2_0 : Memref sig .tc .vmem S1024x128 .f32 := Memref.whole cc2_scratch0
abbrev scM2_1 : Memref sig .tc .vmem S1x128 .f32 := Memref.whole cc2_scratch1

/-- The core's scoped buffers that are the other two stages' staging buffers, each whole at some contents: this stage
    neither reads nor writes them and carries them through every point as found. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The invariant before position `n`: before the first point every scoped buffer that is no staging buffer of this
    stage at anything (the class's); afterwards the accumulator and the row-sum scratch at what the point before left,
    the other stages' staging buffers at anything, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare (accAt V c n hn) ∗ owns (c : Thread nD τ) scM2_1 fullShare (globAt V c n hn)) ∗ others2 c ∗ (∃ r, prngReg c r))

/-- The stage's proof data on core `c`: the arrays as found; after the body each input block as loaded and the result
    buffer at the row-sum scratch's contents (consulted only at the last point, the one that stores and writes it back);
    the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (globAt V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay1 (globAt V c t.val t.isLt) := by dsimp only [dat2]

theorem owed2 (c : Dev nD) (t : Fin (cfg2.N + 1)) : (dat2 V c).owed t = 0 := rfl

end Cert.KernelIdeal.Run

end
-- ==== Proof.Reg2Run.lean ====
/-
  One run of the combining stage's body, on whole buffers.
  The body finds five input blocks (the node tile's own features, the point's 4000 edge features, their segment
  indices, the two weight matrices), the result buffer, the accumulator scratch and the row-sum scratch, each at some
  contents. Which stores it makes is decided by four conditions on the grid point: reset of the row-sum scratch (the
  very first point), reset of the accumulator (edge tile 0), the node tile's finish (edge tile 199) and the result's
  store (the very last point). The first implies the second, the fourth the third, and the second and third exclude
  each other, so a point is of one of five kinds. For each kind the run is followed store by store: every store is of a
  whole buffer, so what a buffer holds afterwards is the payload of its last store, and a load of a whole buffer reads
  what the last store before it left, or what the run found there when there was none. Read this way the three written
  buffers end at `out7`, `acc'` and `glob'` of what the run found, and the five inputs are as they were.
-/
import proofs.«413086_j36112085025448_1_alg».proof.Proof.Reg2Defs
import Idealize.ShloMosaic.Lib.Pipeline.Value

set_option maxRecDepth 16384

noncomputable section

namespace Cert.KernelIdeal.Run

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a whole buffer back -/

/-- The zero offsets of a rank-two buffer, as the body spells them. -/
private theorem hz2 : (![0, 0] : Fin 2 → Nat) = fun _ => 0 := funext fun a => by fin_cases a <;> rfl
/-- The zero offset of a rank-one buffer. -/
private theorem hz1 : (![0] : Fin 1 → Nat) = fun _ => 0 := funext fun a => by fin_cases a <;> rfl

section Whole
variable {S : Shape} {e : EltTy}

/-- A load of a whole buffer held at contents `X` reads `X`. -/
private theorem ld_whole (m : Memref sig .tc .vmem S e) (h : m.IsWhole) (X : Vec F S e) {off : Fin S.rank → Nat}
    (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- A store of a whole buffer, made last, leaves its payload whatever was stored before. -/
private theorem st_whole (m : Memref sig .tc .vmem S e) (f : m.view.ty.Contents (Elt F)) {off : Fin S.rank → Nat}
    (hz : off = fun _ => 0) (inb : ∀ a, off a + S.size a ≤ S.size a) (w : Vec F S e) (L : List (View.Piece (Elt F) S e)) :
    View.read (Elt F) m.view (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

/-! ## The five kinds of point -/

set_option maxHeartbeats 1000000 in
/-- The very first point: both scratch buffers are reset, then the point's credit is added to the reset accumulator. -/
private theorem run_first (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : c2_1 i) (h2 : c2_2 i) (h3 : ¬c2_3 i) (h4 : ¬c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [out7, if_neg h4]; exact harg7.read_unread _
  isplitl [H8]
  · iexists _; isplitr; swap; · iexact H8
    ipureintro
    sl_unfold_run_names
    rw [st_whole _ _ hz2, acc', if_pos h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  rw [st_whole _ _ hz2, glob', if_neg h3, glob0, if_pos h1]

set_option maxHeartbeats 1000000 in
/-- The first edge tile of a later node tile: the accumulator is reset, then the point's credit is added to it. -/
private theorem run_reset (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : ¬c2_1 i) (h2 : c2_2 i) (h3 : ¬c2_3 i) (h4 : ¬c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [out7, if_neg h4]; exact harg7.read_unread _
  isplitl [H8]
  · iexists _; isplitr; swap; · iexact H8
    ipureintro
    sl_unfold_run_names
    rw [st_whole _ _ hz2, acc', if_pos h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  rw [glob', if_neg h3, glob0, if_neg h1]; exact harg9.read_unread _

set_option maxHeartbeats 1000000 in
/-- A middle edge tile: the point's credit is added to the accumulator as found; nothing else changes. -/
private theorem run_mid (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : ¬c2_1 i) (h2 : ¬c2_2 i) (h3 : ¬c2_3 i) (h4 : ¬c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [out7, if_neg h4]; exact harg7.read_unread _
  isplitl [H8]
  · iexists _; isplitr; swap; · iexact H8
    ipureintro
    rw [st_whole _ _ hz2, acc', if_neg h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  rw [glob', if_neg h3, glob0, if_neg h1]; exact harg9.read_unread _

set_option maxHeartbeats 1000000 in
/-- The last edge tile of a node tile other than the last: after the credit, the tile's masked rectified row sum is added to the row-sum scratch. -/
private theorem run_finish (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : ¬c2_1 i) (h2 : ¬c2_2 i) (h3 : c2_3 i) (h4 : ¬c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [out7, if_neg h4]; exact harg7.read_unread _
  isplitl [H8]
  · iexists _; isplitr; swap; · iexact H8
    ipureintro
    sl_unfold_run_names
    rw [st_whole _ _ hz2, acc', if_neg h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  sl_unfold_run_names
  rw [st_whole _ _ hz2, glob', if_pos h3, glob0, if_neg h1, acc', if_neg h2]
  simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]

set_option maxHeartbeats 1000000 in
/-- The very last point: as at a finish, and then the row-sum scratch is stored as the result. -/
private theorem run_last (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (h1 : ¬c2_1 i) (h2 : ¬c2_2 i) (h3 : c2_3 i) (h4 : c2_4 i)
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    sl_unfold_run_names
    rw [st_whole _ _ hz1, out7, if_pos h4, glob', if_pos h3, glob0, if_neg h1, acc', if_neg h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  isplitl [H8]
  · iexists _; isplitr; swap; · iexact H8
    ipureintro
    sl_unfold_run_names
    rw [st_whole _ _ hz2, acc', if_neg h2]
    simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]
  iexists _; isplitr; swap; · iexact H9
  ipureintro
  sl_unfold_run_names
  rw [st_whole _ _ hz2, glob', if_pos h3, glob0, if_neg h1, acc', if_neg h2]
  simp only [ld_whole (S := S1024x128) _ _ _ hz2, ld_whole (S := S4000x128) _ _ _ hz2, ld_whole (S := S4000x1) _ _ _ hz2,
      ld_whole (S := S128x128) _ _ _ hz2, ld_whole (S := S1x128) _ _ _ hz2, ld_whole (S := S128) _ _ _ hz1,
      View.readCov_unit_zero (S := S1024x128) _ hz2, View.readCov_unit_zero (S := S1x128) _ hz2]

/-! ## Any reachable point -/

/-- One run of the body, at any reachable point: whatever the eight buffers hold, the run leaves the inputs as they were,
    and the result buffer, the accumulator and the row-sum scratch at `out7`, `acc'` and `glob'` of what it found.
    The four conditions decide which of the five kinds of point this is; each kind is one of the runs above. -/
theorem sound_kernel2 (c : Dev nD) (E : Set ℕ) (i : grid2.Coords)
    (arg2 : Memref sig .tc .vmem S1024x128 .bf16) (harg2 : arg2.IsWhole) (arg3 : Memref sig .tc .vmem S4000x128 .bf16) (harg3 : arg3.IsWhole)
    (arg4 : Memref sig .tc .vmem S4000x1 .i32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S128 .f32) (harg7 : arg7.IsWhole)
    (arg8 : Memref sig .tc .vmem S1024x128 .f32) (harg8 : arg8.IsWhole) (arg9 : Memref sig .tc .vmem S1x128 .f32) (harg9 : arg9.IsWhole)
    (hreach : (c2_1 i → c2_2 i) ∧ (c2_4 i → c2_3 i) ∧ ¬(c2_2 i ∧ c2_3 i))
    (x0 : Vec F S1024x128 .bf16) (x1 : Vec F S4000x128 .bf16) (x2 : Vec F S4000x1 .i32) (x3 x4 : Vec F S128x128 .f32)
    (d7 : Vec F S128 .f32) (a0 : Vec F S1024x128 .f32) (g0 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d7
        ∗ owns (c : Thread nD τ) arg8 fullShare a0 ∗ owns (c : Thread nD τ) arg9 fullShare g0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out7 i x0 x1 x2 x3 x4 d7 a0 g0)
            ∗ owns (c : Thread nD τ) arg8 fullShare (acc' i x1 x2 a0)
            ∗ owns (c : Thread nD τ) arg9 fullShare (glob' i x0 x1 x2 x3 x4 a0 g0)) -∗ K ⟨⟩))
      ⊢ wp frame (wpE (defs₀ (F := F)) Variants.none c none) E (cc2__combine_kernel i arg2 harg2 arg3 harg3 arg4 harg4 arg5 harg5 arg6 harg6 arg7 harg7 arg8 harg8 arg9 harg9) K := by
  obtain ⟨hr1, hr4, hr23⟩ := hreach
  by_cases h2 : c2_2 i
  · have h3 : ¬c2_3 i := fun h3 => hr23 ⟨h2, h3⟩
    have h4 : ¬c2_4 i := fun h4 => h3 (hr4 h4)
    by_cases h1 : c2_1 i
    · exact run_first c E i arg2 harg2 arg3 harg3 arg4 harg4 arg5 harg5 arg6 harg6 arg7 harg7 arg8 harg8 arg9 harg9 h1 h2 h3 h4 x0 x1 x2 x3 x4 d7 a0 g0 K
    · exact run_reset c E i arg2 harg2 arg3 harg3 arg4 harg4 arg5 harg5 arg6 harg6 arg7 harg7 arg8 harg8 arg9 harg9 h1 h2 h3 h4 x0 x1 x2 x3 x4 d7 a0 g0 K
  · have h1 : ¬c2_1 i := fun h1 => h2 (hr1 h1)
    by_cases h3 : c2_3 i
    · by_cases h4 : c2_4 i
      · exact run_last c E i arg2 harg2 arg3 harg3 arg4 harg4 arg5 harg5 arg6 harg6 arg7 harg7 arg8 harg8 arg9 harg9 h1 h2 h3 h4 x0 x1 x2 x3 x4 d7 a0 g0 K
      · exact run_finish c E i arg2 harg2 arg3 harg3 arg4 harg4 arg5 harg5 arg6 harg6 arg7 harg7 arg8 harg8 arg9 harg9 h1 h2 h3 h4 x0 x1 x2 x3 x4 d7 a0 g0 K
    · have h4 : ¬c2_4 i := fun h4 => h3 (hr4 h4)
      exact run_mid c E i arg2 harg2 arg3 harg3 arg4 harg4 arg5 harg5 arg6 harg6 arg7 harg7 arg8 harg8 arg9 harg9 h1 h2 h3 h4 x0 x1 x2 x3 x4 d7 a0 g0 K

end Cert.KernelIdeal.Run

end
-- ==== Proof.Reg2.lean ====
/-
  The combining stage's half of the run at any entry contents: the body's triple at every grid point, and the
  invariant's two ends.
  The grid's points in closed form (point t is node tile t / 200, edge tile t % 200) give the four branch conditions
  as arithmetic on t; every input window's staging buffer holds its block at every point, fetched there or not; the
  result window is idle and not written back before the last point and live at it; the invariant carries the two
  scratch buffers at what the point before left (the recursion accAt / globAt), and since both are reset at the first
  point, what they hold before it does not matter.
-/
import proofs.«413086_j36112085025448_1_alg».proof.Proof.Reg2Defs
import proofs.«413086_j36112085025448_1_alg».proof.Proof.Reg2Run

set_option maxRecDepth 16384

noncomputable section

namespace Cert.KernelIdeal.Run

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid's coordinates and the branch conditions in closed form -/

/-- Point `t`'s node tile. -/
theorem coords2_0 (t : Fin cfg2.N) : ((grid2.coords t) 0).val = t.val / 200 := by
  have hN : t.val < 10000 := lt_of_lt_of_eq t.isLt N_2
  show t.val / grid2.stride 0 % grid2.bound 0 = _
  have h1 : grid2.stride 0 = 200 := by decide
  have h2 : grid2.bound 0 = 50 := rfl
  rw [h1, h2]; omega

/-- Point `t`'s edge tile. -/
theorem coords2_1 (t : Fin cfg2.N) : ((grid2.coords t) 1).val = t.val % 200 := by
  show t.val / grid2.stride 1 % grid2.bound 1 = _
  have h1 : grid2.stride 1 = 1 := by decide
  have h2 : grid2.bound 1 = 200 := rfl
  rw [h1, h2, Nat.div_one]

/-- A one-bit comparison widened and tested against zero is the comparison. -/
theorem ne_zero_extui (b : Bool) : Scalar.cmpi .ne (Scalar.extui (BitVec.ofBool b)) 0#32 = 1#1 ↔ b = true := by
  cases b <;> decide

/-- Equality of two 32-bit words of small numbers is equality of the numbers. -/
theorem cmpi_eq_ofNat (n m : ℕ) (hn : n < 2 ^ 32) (hm : m < 2 ^ 32) :
    Scalar.cmpi .eq (BitVec.ofNat 32 n) (BitVec.ofNat 32 m) = BitVec.ofBool (decide (n = m)) := by
  show BitVec.ofBool (BitVec.ofNat 32 n == BitVec.ofNat 32 m) = _
  congr 1
  rw [Bool.eq_iff_iff, beq_iff_eq, decide_eq_true_iff]
  constructor
  · intro h
    have := congrArg BitVec.toNat h
    rwa [BitVec.toNat_ofNat, BitVec.toNat_ofNat, Nat.mod_eq_of_lt hn, Nat.mod_eq_of_lt hm] at this
  · intro h; rw [h]

theorem andi_ofBool (a b : Bool) : Scalar.andi (BitVec.ofBool a) (BitVec.ofBool b) = BitVec.ofBool (a && b) := by
  cases a <;> cases b <;> decide

theorem hcond2_2 (t : Fin cfg2.N) : c2_2 (grid2.coords t) ↔ t.val % 200 = 0 := by
  unfold c2_2
  rw [coords2_1, show (0#32 : BitVec 32) = BitVec.ofNat 32 0 from rfl, cmpi_eq_ofNat _ _ (by omega) (by omega), ne_zero_extui, decide_eq_true_iff]

theorem hcond2_3 (t : Fin cfg2.N) : c2_3 (grid2.coords t) ↔ t.val % 200 = 199 := by
  unfold c2_3
  rw [coords2_1, show (199#32 : BitVec 32) = BitVec.ofNat 32 199 from rfl, cmpi_eq_ofNat _ _ (by omega) (by omega), ne_zero_extui, decide_eq_true_iff]

theorem hcond2_1 (t : Fin cfg2.N) : c2_1 (grid2.coords t) ↔ t.val = 0 := by
  have hN : t.val < 10000 := lt_of_lt_of_eq t.isLt N_2
  unfold c2_1
  rw [coords2_0, coords2_1, show (0#32 : BitVec 32) = BitVec.ofNat 32 0 from rfl, cmpi_eq_ofNat _ _ (by omega) (by omega),
    cmpi_eq_ofNat _ _ (by omega) (by omega), andi_ofBool, ne_zero_extui, Bool.and_eq_true, decide_eq_true_iff, decide_eq_true_iff]
  omega

theorem hcond2_4 (t : Fin cfg2.N) : c2_4 (grid2.coords t) ↔ t.val = 9999 := by
  have hN : t.val < 10000 := lt_of_lt_of_eq t.isLt N_2
  unfold c2_4 k2_cond4
  dsimp only
  rw [coords2_0, coords2_1, show (49#32 : BitVec 32) = BitVec.ofNat 32 49 from rfl, show (199#32 : BitVec 32) = BitVec.ofNat 32 199 from rfl,
    cmpi_eq_ofNat _ _ (by omega) (by omega), cmpi_eq_ofNat _ _ (by omega) (by omega), andi_ofBool, ne_zero_extui, Bool.and_eq_true,
    decide_eq_true_iff, decide_eq_true_iff]
  omega

/-- The branches the body can take at a point: the row-sum reset only with the accumulator's, the store only with the
    finish, and never a reset together with a finish. -/
theorem hreach2 (t : Fin cfg2.N) :
    (c2_1 (grid2.coords t) → c2_2 (grid2.coords t)) ∧ (c2_4 (grid2.coords t) → c2_3 (grid2.coords t))
      ∧ ¬(c2_2 (grid2.coords t) ∧ c2_3 (grid2.coords t)) := by
  rw [hcond2_1, hcond2_2, hcond2_3, hcond2_4]
  refine ⟨fun h => by rw [h], fun h => by rw [h], fun h => by omega⟩

/-! ## Each input window's current staging buffer holds its block at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-! ## The result window: idle and not written back before the last point, live at it -/

theorem idleAt2_5 (t : Fin cfg2.N) (h : ¬c2_4 (grid2.coords t)) : cfg2.idle 5 (grid2.coords t) = true := by
  show (!(k2_cond4 (grid2.coords t) == 1#1)) = true
  rw [Bool.not_eq_true', beq_eq_false_iff_ne]; exact h

theorem liveAt2_5 (t : Fin cfg2.N) (h : c2_4 (grid2.coords t)) : cfg2.idle 5 (grid2.coords t) = false := by
  show (!(k2_cond4 (grid2.coords t) == 1#1)) = false
  rw [Bool.not_eq_false', beq_iff_eq]; exact h

theorem noFlush2_5 (t : Fin cfg2.N) (h : t.val ≠ 9999) : (cfg2.win 5).flush t = false := by
  have hN : t.val < 10000 := lt_of_lt_of_eq t.isLt N_2
  rw [Bool.eq_false_iff]
  intro hf
  have := (flush2_5 t).mp hf
  omega

/-! ## The invariant's forms -/

/-- The class's invariant hands out the two scratch operands as whole memrefs owned at some contents, the other stages'
    staging buffers apart (`∗` reassociated and commuted), -/
theorem PhiA2_split (c : Dev nD) :
    (Pipeline.ΦA spec2 c : sProp 𝕄)
      ⊢ iprop(iprop((∃ d, owns (c : Thread nD τ) scM2_0 fullShare d) ∗ (∃ d, owns (c : Thread nD τ) scM2_1 fullShare d)) ∗ others2 c ∗ (∃ r, prngReg c r)) := by
  unfold Pipeline.ΦA others2; rw [scopedRest2_eq]; simp only [scM2_0, scM2_1, owns_whole]
  iintro ⟨⟨O1, O2, O3, O4, O5, O6, O7, O8, O9, O10, S0, S1⟩, Hg⟩
  isplitl [S0 S1]
  · isplitl [S0]; · iexact S0
    iexact S1
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexact O10
  iexact Hg

/-- and takes them back. -/
theorem PhiA2_join (c : Dev nD) :
    iprop(iprop((∃ d, owns (c : Thread nD τ) scM2_0 fullShare d) ∗ (∃ d, owns (c : Thread nD τ) scM2_1 fullShare d)) ∗ others2 c ∗ (∃ r, prngReg c r))
      ⊢ (Pipeline.ΦA spec2 c : sProp 𝕄) := by
  unfold Pipeline.ΦA others2; rw [scopedRest2_eq]; simp only [scM2_0, scM2_1, owns_whole]
  iintro ⟨⟨S0, S1⟩, ⟨O1, O2, O3, O4, O5, O6, O7, O8, O9, O10⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [S0]; · iexact S0
    iexact S1
  iexact Hg

theorem PhiA2_eq (c : Dev nD) :
    (Pipeline.ΦA spec2 c : sProp 𝕄)
      = iprop(iprop((∃ d, owns (c : Thread nD τ) scM2_0 fullShare d) ∗ (∃ d, owns (c : Thread nD τ) scM2_1 fullShare d)) ∗ others2 c ∗ (∃ r, prngReg c r)) :=
  BI.equiv_iff.mp ⟨PhiA2_split c, PhiA2_join c⟩
theorem PhiS2_zero (c : Dev nD) (n : ℕ) (h : n ≤ cfg2.N) (hz : n = 0) : PhiS2 V c n h = Pipeline.ΦA spec2 c := by
  subst hz; rfl

/-- After point `n` (before point `n + 1`): the two scratch buffers at that point's contents. -/
theorem PhiS2_succ (c : Dev nD) (n : ℕ) (hn : n < cfg2.N) :
    PhiS2 V c (n + 1) hn = iprop(iprop(owns (c : Thread nD τ) scM2_0 fullShare (accAt V c n hn) ∗ owns (c : Thread nD τ) scM2_1 fullShare (globAt V c n hn)) ∗ others2 c ∗ (∃ r, prngReg c r)) := rfl

/-- Before a point that is not the first: the two scratch buffers at what the point before left. -/
theorem PhiS2_pos (c : Dev nD) (n : ℕ) (h : n ≤ cfg2.N) (hz : n ≠ 0) :
    PhiS2 V c n h = iprop(iprop(owns (c : Thread nD τ) scM2_0 fullShare (accAt V c (n - 1) (by omega)) ∗ owns (c : Thread nD τ) scM2_1 fullShare (globAt V c (n - 1) (by omega))) ∗ others2 c ∗ (∃ r, prngReg c r)) := by
  cases n with
  | zero => exact absurd rfl hz
  | succ n => rfl

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The scratch contents after a point, from one run of the body -/

theorem acc'_reset (i : grid2.Coords) (x1 : Vec F S4000x128 .bf16) (x2 : Vec F S4000x1 .i32) (a0 : Vec F S1024x128 .f32) (h : c2_2 i) :
    acc' i x1 x2 a0 = acc' i x1 x2 (k2_pay3 (F := F)) := by
  unfold acc'; rw [if_pos h, if_pos h]

theorem glob'_reset (i : grid2.Coords) (x0 : Vec F S1024x128 .bf16) (x1 : Vec F S4000x128 .bf16) (x2 : Vec F S4000x1 .i32)
    (x3 x4 : Vec F S128x128 .f32) (a0 : Vec F S1024x128 .f32) (g0 : Vec F S1x128 .f32) (h1 : c2_1 i) (h2 : c2_2 i) :
    glob' i x0 x1 x2 x3 x4 a0 g0 = glob' i x0 x1 x2 x3 x4 (k2_pay3 (F := F)) (k2_pay2 (F := F)) := by
  unfold glob' glob0; rw [acc'_reset i x1 x2 a0 h2, if_pos h1, if_pos h1]

/-- At the first point both scratch buffers are reset, so what the body leaves does not depend on what it found. -/
theorem accAt_first (c : Dev nD) (t : Fin cfg2.N) (hz : t.val = 0) (a0 : Vec F S1024x128 .f32) :
    acc' (grid2.coords t) (iblk2 V c 1 t) (iblk2 V c 2 t) a0 = accAt V c t.val t.isLt := by
  obtain ⟨n, hn⟩ := t
  cases n with
  | zero => rw [accAt_zero]; exact acc'_reset _ _ _ _ ((hcond2_2 ⟨0, hn⟩).mpr (Nat.zero_mod _))
  | succ n => exact absurd hz (Nat.succ_ne_zero n)

theorem globAt_first (c : Dev nD) (t : Fin cfg2.N) (hz : t.val = 0) (a0 : Vec F S1024x128 .f32) (g0 : Vec F S1x128 .f32) :
    glob' (grid2.coords t) (iblk2 V c 0 t) (iblk2 V c 1 t) (iblk2 V c 2 t) (iblk2 V c 3 t) (iblk2 V c 4 t) a0 g0 = globAt V c t.val t.isLt := by
  obtain ⟨n, hn⟩ := t
  cases n with
  | zero => rw [globAt_zero]; exact glob'_reset _ _ _ _ _ _ _ _ ((hcond2_1 ⟨0, hn⟩).mpr rfl) ((hcond2_2 ⟨0, hn⟩).mpr (Nat.zero_mod _))
  | succ n => exact absurd hz (Nat.succ_ne_zero n)

/-- At a later point the body runs over what the point before left. -/
theorem accAt_next (c : Dev nD) (t : Fin cfg2.N) (hz : t.val ≠ 0) :
    acc' (grid2.coords t) (iblk2 V c 1 t) (iblk2 V c 2 t) (accAt V c (t.val - 1) (Nat.lt_of_le_of_lt (Nat.sub_le _ _) t.isLt)) = accAt V c t.val t.isLt := by
  obtain ⟨n, hn⟩ := t
  cases n with
  | zero => exact absurd rfl hz
  | succ n => rfl

theorem globAt_next (c : Dev nD) (t : Fin cfg2.N) (hz : t.val ≠ 0) :
    glob' (grid2.coords t) (iblk2 V c 0 t) (iblk2 V c 1 t) (iblk2 V c 2 t) (iblk2 V c 3 t) (iblk2 V c 4 t)
      (accAt V c (t.val - 1) (Nat.lt_of_le_of_lt (Nat.sub_le _ _) t.isLt)) (globAt V c (t.val - 1) (Nat.lt_of_le_of_lt (Nat.sub_le _ _) t.isLt)) = globAt V c t.val t.isLt := by
  obtain ⟨n, hn⟩ := t
  cases n with
  | zero => exact absurd rfl hz
  | succ n => rfl

/-- The invariant before point `t`, opened: the two scratch buffers at contents from which one run of the body at `t`
    leaves the point's. -/
theorem PhiS2_open (c : Dev nD) (t : Fin cfg2.N) :
    PhiS2 V c t.val (Nat.le_of_lt t.isLt) ⊢ (iprop(∃ (a0 : Vec F S1024x128 .f32) (g0 : Vec F S1x128 .f32),
      ⌜acc' (grid2.coords t) (iblk2 V c 1 t) (iblk2 V c 2 t) a0 = accAt V c t.val t.isLt
        ∧ glob' (grid2.coords t) (iblk2 V c 0 t) (iblk2 V c 1 t) (iblk2 V c 2 t) (iblk2 V c 3 t) (iblk2 V c 4 t) a0 g0 = globAt V c t.val t.isLt⌝
      ∗ iprop(owns (c : Thread nD τ) scM2_0 fullShare a0 ∗ owns (c : Thread nD τ) scM2_1 fullShare g0) ∗ others2 c ∗ (∃ r, prngReg c r)) : sProp 𝕄) := by
  by_cases hz : t.val = 0
  · rw [PhiS2_zero V c _ _ hz, PhiA2_eq]
    iintro ⟨⟨⟨%a0, HS0⟩, ⟨%g0, HS1⟩⟩, Hoth, Hg⟩
    iexists a0, g0
    isplitr
    · ipureintro; exact ⟨accAt_first V c t hz a0, globAt_first V c t hz a0 g0⟩
    isplitl [HS0 HS1]
    · isplitl [HS0]; · iexact HS0
      iexact HS1
    isplitl [Hoth]; · iexact Hoth
    iexact Hg
  · rw [PhiS2_pos V c _ _ hz]
    iintro ⟨⟨HS0, HS1⟩, Hoth, Hg⟩
    iexists _, _
    isplitr
    · ipureintro; exact ⟨accAt_next V c t hz, globAt_next V c t hz⟩
    isplitl [HS0 HS1]
    · isplitl [HS0]; · iexact HS0
      iexact HS1
    isplitl [Hoth]; · iexact Hoth
    iexact Hg

/-! ## The body obligation, at a generic point -/

/-- Each window's current staging memref at point `t`, spelled as the pipeline passes it, and its wholeness. -/
abbrev ms2_0 (t : Fin cfg2.N) : Memref sig .tc .vmem S1024x128 .bf16 := win2_0.stage (cfg2.slots t 0)
abbrev hs2_0 (t : Fin cfg2.N) : (ms2_0 t).IsWhole := Facts₀.hstage2_0 ((cfg2.slots t 0).cast Facts₀.nbuf2_0)
abbrev ms2_1 (t : Fin cfg2.N) : Memref sig .tc .vmem S4000x128 .bf16 := win2_1.stage (cfg2.slots t 1)
abbrev hs2_1 (t : Fin cfg2.N) : (ms2_1 t).IsWhole := Facts₀.hstage2_1 ((cfg2.slots t 1).cast Facts₀.nbuf2_1)
abbrev ms2_2 (t : Fin cfg2.N) : Memref sig .tc .vmem S4000x1 .i32 := win2_2.stage (cfg2.slots t 2)
abbrev hs2_2 (t : Fin cfg2.N) : (ms2_2 t).IsWhole := Facts₀.hstage2_2 ((cfg2.slots t 2).cast Facts₀.nbuf2_2)
abbrev ms2_3 (t : Fin cfg2.N) : Memref sig .tc .vmem S128x128 .f32 := win2_3.stage (cfg2.slots t 3)
abbrev hs2_3 (t : Fin cfg2.N) : (ms2_3 t).IsWhole := Facts₀.hstage2_3 ((cfg2.slots t 3).cast Facts₀.nbuf2_3)
abbrev ms2_4 (t : Fin cfg2.N) : Memref sig .tc .vmem S128x128 .f32 := win2_4.stage (cfg2.slots t 4)
abbrev hs2_4 (t : Fin cfg2.N) : (ms2_4 t).IsWhole := Facts₀.hstage2_4 ((cfg2.slots t 4).cast Facts₀.nbuf2_4)
abbrev ms2_5 (t : Fin cfg2.N) : Memref sig .tc .vmem S128 .f32 := win2_5.stage (cfg2.slots t 5)
abbrev hs2_5 (t : Fin cfg2.N) : (ms2_5 t).IsWhole := Facts₀.hstage2_5 ((cfg2.slots t 5).cast Facts₀.nbuf2_5)

/-- What the result window's buffer holds after the body is what the obligation asks of it: before the last point the
    window is idle and not written back, and the buffer is as found; at the last point it is the row-sum scratch. -/
theorem leaves2_5 (c : Dev nD) (t : Fin cfg2.N) (d) (a0 : Vec F S1024x128 .f32) (g0 : Vec F S1x128 .f32)
    (hg : glob' (grid2.coords t) (iblk2 V c 0 t) (iblk2 V c 1 t) (iblk2 V c 2 t) (iblk2 V c 3 t) (iblk2 V c 4 t) a0 g0 = globAt V c t.val t.isLt) :
    owns (c : Thread nD τ) (ms2_5 t) fullShare (out7 (grid2.coords t) (iblk2 V c 0 t) (iblk2 V c 1 t) (iblk2 V c 2 t) (iblk2 V c 3 t) (iblk2 V c 4 t) ((dat2 V c).before 5 t d) a0 g0)
      ⊢ ((dat2 V c).leavesExact 5 t : sProp 𝕄) := by
  by_cases h4 : c2_4 (grid2.coords t)
  · rw [show (dat2 V c).leavesExact 5 t = owns (c : Thread nD τ) (ms2_5 t) fullShare ((dat2 V c).after 5 t) from by
      unfold Dat.leavesExact; rw [liveAt2_5 t h4], after2_5]
    unfold out7; rw [if_pos h4, hg]
  · rw [Dat.leavesExact_idle (dat2 V c) 5 t (idleAt2_5 t h4) (noFlush2_5 t (fun h => h4 ((hcond2_4 t).mpr h)))]
    unfold out7; rw [if_neg h4]
    iintro H; iexists d; iexact H

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the invariant hands the body the two scratch buffers at
    what the point before left (at anything at the first point, where both are reset); the body's triple applies; the
    invariant takes the scratch buffers back at this point's contents, the inputs are as found, and the result buffer is
    what the obligation asks; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from rfl, after2_0]
  rw [show (dat2 V c).leavesExact 1 t = owns (c : Thread nD τ) (ms2_1 t) fullShare ((dat2 V c).after 1 t) from rfl, after2_1]
  rw [show (dat2 V c).leavesExact 2 t = owns (c : Thread nD τ) (ms2_2 t) fullShare ((dat2 V c).after 2 t) from rfl, after2_2]
  rw [show (dat2 V c).leavesExact 3 t = owns (c : Thread nD τ) (ms2_3 t) fullShare ((dat2 V c).after 3 t) from rfl, after2_3]
  rw [show (dat2 V c).leavesExact 4 t = owns (c : Thread nD τ) (ms2_4 t) fullShare ((dat2 V c).after 4 t) from rfl, after2_4]
  rw [PhiS2_castSucc V c t]
  refine BIBase.Entails.trans (sep_mono_left (PhiS2_open V c t)) ?_
  iintro ⟨⟨%a0, %g0, %hag, ⟨HS0, HS1⟩, Hoth, Hg⟩, Ho, ⟨%d0, H0⟩, ⟨%d1, H1⟩, ⟨%d2, H2⟩, ⟨%d3, H3⟩, ⟨%d4, H4⟩, ⟨%d5, H5⟩⟩
  iapply (sound_kernel2 c Set.univ (grid2.coords t) (ms2_0 t) (hs2_0 t) (ms2_1 t) (hs2_1 t) (ms2_2 t) (hs2_2 t) (ms2_3 t) (hs2_3 t)
    (ms2_4 t) (hs2_4 t) (ms2_5 t) (hs2_5 t) scM2_0 (Memref.isWhole_whole _) scM2_1 (Memref.isWhole_whole _) (hreach2 t)
    (iblk2 V c 0 t) (iblk2 V c 1 t) (iblk2 V c 2 t) (iblk2 V c 3 t) (iblk2 V c 4 t) ((dat2 V c).before 5 t d5) a0 g0 _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  rw [hag.1, hag.2]
  isplitl [HS0 HS1 Hoth Hg]
  · isplitl [HS0 HS1]
    · isplitl [HS0]; · iexact HS0
      iexact HS1
    isplitl [Hoth]; · iexact Hoth
    iexact Hg
  isplitl [Ho]; · iexact Ho
  isplitl [H0]; · iexact H0
  isplitl [H1]; · iexact H1
  isplitl [H2]; · iexact H2
  isplitl [H3]; · iexact H3
  isplitl [H4]; · iexact H4
  iapply (leaves2_5 V c t d5 a0 g0 hag.2)
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the stage is its invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HS1⟩, Hoth, Hg⟩
  isplitl [HS0 HS1]
  · isplitl [HS0]
    · iexists _; iexact HS0
    iexists _; iexact HS1
  isplitl [Hoth]; · iexact Hoth
  iexact Hg

/-- After the last point the invariant gives the class's back: the scratch contents are forgotten. -/
theorem hout2 (c : Dev nD) : (dat2 V c).Φ (Fin.last cfg2.N) ⊢ (Pipeline.ΦA spec2 c : sProp 𝕄) :=
  Phi_out2 V c _ (by rw [Fin.val_last]; have : cfg2.N = 10000 := N_2; omega)

end Cert.KernelIdeal.Run

end
-- ==== Proof.Run.lean ====
/-
  The run of the whole program: five short host stretches (a zero constant, the padding of the table to 10240 rows,
  its rounding to bf16, the padding of the node index words to 51200, three reshapes), the two row-take stages and
  the combining stage back to back, and the closing host stretch (the softmax of the 128 row sums). This module
  gives the buffer contents at each boundary as a fold from the launch memory, the three stages' proof data at the
  contents each is entered from, each stretch and stage as a segment over one thread state, and the run itself: every
  execution terminates with every unscoped buffer at the fold's last contents, the six arguments as launched.
-/
import proofs.«413086_j36112085025448_1_alg».proof.Proof.Reg0
import proofs.«413086_j36112085025448_1_alg».proof.Proof.Reg1
import proofs.«413086_j36112085025448_1_alg».proof.Proof.Reg2
import proofs.«413086_j36112085025448_1_alg».proof.Proof.Gen.KernelIdeal.Launch
import proofs.«413086_j36112085025448_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the zero constant. -/
abbrev W1 : Dev nD → Valuation τ sig (Elt F) := fun c => StableHlo.after hostOps0 (W0 m ρ c)
/-- After the table is padded to 10240 rows. -/
abbrev W2 : Dev nD → Valuation τ sig (Elt F) := fun c => StableHlo.after hostOps0_1 (W1 m ρ c)
/-- After the padded table is rounded to bf16 (and a second zero constant). -/
abbrev W3 : Dev nD → Valuation τ sig (Elt F) := fun c => StableHlo.after hostOps0_2 (W2 m ρ c)
/-- After the node index words are padded to 51200. -/
abbrev W4 : Dev nD → Valuation τ sig (Elt F) := fun c => StableHlo.after hostOps0_3 (W3 m ρ c)
/-- After the three index arrays are reshaped to columns: what the first stage is entered from. -/
abbrev W5 : Dev nD → Valuation τ sig (Elt F) := fun c => StableHlo.after hostOps0_4 (W4 m ρ c)
/-- The same read at the core's own references: the first stage's entry contents. -/
abbrev Vin0 : (c : Dev nD) → (b : Ref sig .tc) → Buf (Elt F) ((c : Thread nD τ).loc b) := fun c b => W5 m ρ c b

/-- At stage 0's exit: its arrays at what the stage leaves (an input as entered, an output's write-backs folded in),
    every other buffer as entered. -/
def W6 (c : Dev nD) : Valuation τ sig (Elt F) :=
  Pipeline.withArrays spec0 c (W5 m ρ c) fun w => (dat0 (Vin0 m ρ) c).arrAt w cfg0.N
theorem W6_arr (c : Dev nD) (w : Fin cfg0.W) :
    W6 m ρ c (Proc.devRef .tc (Pipeline.arrRef spec0 w)) = (dat0 (Vin0 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the core's own references (stage 0's exit contents). -/
abbrev Vout0 : (c : Dev nD) → (b : Ref sig .tc) → Buf (Elt F) ((c : Thread nD τ).loc b) := fun c b => W6 m ρ c b
/-- At the exit each array of the stage holds what the stage leaves, and every other buffer what it held at entry. -/
theorem hF0 (c : Dev nD) (w : Fin cfg0.W) : (dat0 (Vin0 m ρ) c).arrAt w cfg0.N = Vout0 m ρ c (Pipeline.arrRef spec0 w) :=
  (W6_arr m ρ c w).symm
theorem hrest0 (c : Dev nD) : ∀ b, b ∉ Finset.univ.image (Pipeline.arrRef spec0) → Vout0 m ρ c b = Vin0 m ρ c b :=
  fun b hb => W6_of_ne m ρ c b fun w e => hb (Finset.mem_image.mpr ⟨w, Finset.mem_univ _, e⟩)

/-- The second stage is entered from the first's exit contents. -/
abbrev Vin1 : (c : Dev nD) → (b : Ref sig .tc) → Buf (Elt F) ((c : Thread nD τ).loc b) := fun c b => W6 m ρ c b

/-- At stage 1's exit: its arrays at what the stage leaves (an input as entered, an output's write-backs folded in),
    every other buffer as entered. -/
def W7 (c : Dev nD) : Valuation τ sig (Elt F) :=
  Pipeline.withArrays spec1 c (W6 m ρ c) fun w => (dat1 (Vin1 m ρ) c).arrAt w cfg1.N
theorem W7_arr (c : Dev nD) (w : Fin cfg1.W) :
    W7 m ρ c (Proc.devRef .tc (Pipeline.arrRef spec1 w)) = (dat1 (Vin1 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the core's own references (stage 1's exit contents). -/
abbrev Vout1 : (c : Dev nD) → (b : Ref sig .tc) → Buf (Elt F) ((c : Thread nD τ).loc b) := fun c b => W7 m ρ c b
/-- At the exit each array of the stage holds what the stage leaves, and every other buffer what it held at entry. -/
theorem hF1 (c : Dev nD) (w : Fin cfg1.W) : (dat1 (Vin1 m ρ) c).arrAt w cfg1.N = Vout1 m ρ c (Pipeline.arrRef spec1 w) :=
  (W7_arr m ρ c w).symm
theorem hrest1 (c : Dev nD) : ∀ b, b ∉ Finset.univ.image (Pipeline.arrRef spec1) → Vout1 m ρ c b = Vin1 m ρ c b :=
  fun b hb => W7_of_ne m ρ c b fun w e => hb (Finset.mem_image.mpr ⟨w, Finset.mem_univ _, e⟩)

/-- The combining stage is entered from the second's exit contents. -/
abbrev Vin2 : (c : Dev nD) → (b : Ref sig .tc) → Buf (Elt F) ((c : Thread nD τ).loc b) := fun c b => W7 m ρ c b

/-- At stage 2's exit: its arrays at what the stage leaves (an input as entered, an output's write-backs folded in),
    every other buffer as entered. -/
def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the core's own references (stage 2's exit contents). -/
abbrev Vout2 : (c : Dev nD) → (b : Ref sig .tc) → Buf (Elt F) ((c : Thread nD τ).loc b) := fun c b => W8 m ρ c b
/-- At the exit each array of the stage holds what the stage leaves, and every other buffer what it held at entry. -/
theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)

/-- After the closing host stretch (the softmax): the last contents. -/
abbrev Wfin : Dev nD → Valuation τ sig (Elt F) := fun c => StableHlo.after hostOps3 (W8 m ρ c)
abbrev W9 : Dev nD → Valuation τ sig (Elt F) := Wfin m ρ

/-! ### The arguments end as launched: the fold at an argument's buffer walks back to the launch memory -/

/-- Argument 0 ends as launched: no host stretch writes it and no stage stores into it. -/
theorem Wfin_main_arg0 (c : Dev nD) : Wfin m ρ c (Proc.devRef .tc main_arg0) = m ((c : Thread nD τ).loc main_arg0) :=
  calc Wfin m ρ c (Proc.devRef .tc main_arg0)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- Argument 1 ends as launched: no host stretch writes it and no stage stores into it. -/
theorem Wfin_main_arg1 (c : Dev nD) : Wfin m ρ c (Proc.devRef .tc main_arg1) = m ((c : Thread nD τ).loc main_arg1) :=
  calc Wfin m ρ c (Proc.devRef .tc main_arg1)
    _ = W8 m ρ c (Proc.devRef .tc main_arg1) := StableHlo.after_of_writes_sub hostOps3 _ hostOps3_writes (by decide)
    _ = W7 m ρ c (Proc.devRef .tc main_arg1) := (W8_arr m ρ c 3).trans (((dat2 (Vin2 m ρ) c).arrAt_in 3 rfl _).trans (A_eq2 (Vin2 m ρ) c 3))
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- Argument 2 ends as launched: no host stretch writes it and no stage stores into it. -/
theorem Wfin_main_arg2 (c : Dev nD) : Wfin m ρ c (Proc.devRef .tc main_arg2) = m ((c : Thread nD τ).loc main_arg2) :=
  calc Wfin m ρ c (Proc.devRef .tc main_arg2)
    _ = W8 m ρ c (Proc.devRef .tc main_arg2) := StableHlo.after_of_writes_sub hostOps3 _ hostOps3_writes (by decide)
    _ = W7 m ρ c (Proc.devRef .tc main_arg2) := (W8_arr m ρ c 4).trans (((dat2 (Vin2 m ρ) c).arrAt_in 4 rfl _).trans (A_eq2 (Vin2 m ρ) c 4))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- Argument 3 ends as launched: no host stretch writes it and no stage stores into it. -/
theorem Wfin_main_arg3 (c : Dev nD) : Wfin m ρ c (Proc.devRef .tc main_arg3) = m ((c : Thread nD τ).loc main_arg3) :=
  calc Wfin m ρ c (Proc.devRef .tc main_arg3)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- Argument 4 ends as launched: no host stretch writes it and no stage stores into it. -/
theorem Wfin_main_arg4 (c : Dev nD) : Wfin m ρ c (Proc.devRef .tc main_arg4) = m ((c : Thread nD τ).loc main_arg4) :=
  calc Wfin m ρ c (Proc.devRef .tc main_arg4)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- Argument 5 ends as launched: no host stretch writes it and no stage stores into it. -/
theorem Wfin_main_arg5 (c : Dev nD) : Wfin m ρ c (Proc.devRef .tc main_arg5) = m ((c : Thread nD τ).loc main_arg5) :=
  calc Wfin m ρ c (Proc.devRef .tc main_arg5)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-! ## The proof data family and the thread state -/

/-- Every stage's proof data, each at its entry contents. -/
def pdats : (p : Fin 3) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's effect on `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (Wfin m ρ c) ∗ ∃ r, prngReg c r)

/-! ## The stages as segments -/

set_option backward.isDefEq.respectTransparency.types false in
/-- Stage 0 over the thread state: entered from every unscoped buffer at `W5`, left at `W6`. Its arrays are split
    out of the unscoped buffers at entry and put back at the exit contents; the generator register goes into the
    stage's invariant and comes back; nothing is owed; the stage has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered from every unscoped buffer at `W6`, left at `W7`. Its arrays are split
    out of the unscoped buffers at entry and put back at the exit contents; the generator register goes into the
    stage's invariant and comes back; nothing is owed; the stage has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 over the thread state: entered from every unscoped buffer at `W7`, left at `W8`. Its arrays are split
    out of the unscoped buffers at entry and put back at the exit contents; the generator register goes into the
    stage's invariant and comes back; nothing is owed; the stage has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (Pipeline.ΦA spec2 c : sProp 𝕄) ⊢ (pdats m ρ 2 c).Φ 0 := hin2 (Vin2 m ρ) c
    refine BIBase.Entails.trans ?_ h2
    unfold Pipeline.ΦA
    iintro ⟨Hp, -, Hr⟩
    isplitl [Hr]; · iexact Hr
    iexact Hp
  hout c := by
    rw [Pipeline.ownSems0_none]
    have h2 : (pdats m ρ 2 c).Φ (Fin.last _) ⊢ (Pipeline.ΦA spec2 c : sProp 𝕄) := hout2 (Vin2 m ρ) c
    refine BIBase.Entails.trans h2 ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order: a host segment per stretch from its boundary's contents, a stage per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .region (reg2 m ρ),
    .host (hseg hostOps3 hostOps3_sub hostOps3_fresh (W8 m ρ)) ]
/-- The program is the run of the segments: it is the chain of its items, and so is the segments' run. -/
theorem main_run (c : Dev nD) : main (F := F) c = Pipeline.Seg.run (segs m ρ) := (main_chain c).trans (by chain_rfl)

set_option backward.isDefEq.respectTransparency.types false in
/-- THE RUN: from any memory with zero counters every weakly fair execution of the program on the cores terminates,
    nothing faulting, and in every final state each core's unscoped buffers hold the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => (show (iprop(StableHlo.held (c : Thread nD τ) (Pipeline.ucRefs τ sig) (Wfin m ρ c)
            ∗ ((∃ r, prngReg c r) ∗ ∃ W, owes (c : Thread nD τ) (0 : CellTallies nD τ sig Unit) W)) : sProp 𝕄)
          ⊢ iprop((StableHlo.held (c : Thread nD τ) (Pipeline.ucRefs τ sig) (Wfin m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun _ h => h)

/-- THE FRAME: every execution terminates and each of the six argument arrays ends holding what it held at launch:
    the run's last contents read at each argument, which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Wfin_main_arg0 m ρ c),
     (h c _ (mem_uc main_arg1 (by decide))).trans (Wfin_main_arg1 m ρ c),
     (h c _ (mem_uc main_arg2 (by decide))).trans (Wfin_main_arg2 m ρ c),
     (h c _ (mem_uc main_arg3 (by decide))).trans (Wfin_main_arg3 m ρ c),
     (h c _ (mem_uc main_arg4 (by decide))).trans (Wfin_main_arg4 m ρ c),
     (h c _ (mem_uc main_arg5 (by decide))).trans (Wfin_main_arg5 m ρ c)⟩) (run_all m ρ)

end Cert.KernelIdeal.Run

end
-- ==== Proof.Spec.lean ====
/-
  The mathematics both programs compute, stated once over the extended reals and over 32-bit index words, with no
  program in sight.

  A table `tbl` of `R` rows of 128 numbers is read at a row number `n` as `rowAt tbl n`: the row when `n < R`, the zero
  row otherwise. Reading a table through a one-hot matrix product — the sum over every row `t` of `[id = t] · tbl t` —
  gives exactly `rowAt tbl id.toNat`: an index word matches at most one row number, and a word that is negative as a
  signed integer is at least 2^31 as a natural number, past every row. `take` is that read for a column of index words.

  `combine` is what the last stage leaves: per node `i` (51200 of them, the last 1200 padding) the pre-activation
  `self i · Wᵀ + (Σ_{e : seg e = i} neigh e) · Mᵀ`, its positive part, masked to the first 50000 nodes and summed over
  the nodes, one number per feature.

  `total` is the same quantity written over the six arguments directly: node `i < 50000` reads row `ids i` of the
  table, each edge `e` reads row `nbr e` and is credited to node `seg e`.
-/
import Idealize.ShloMosaic.PureOps.Ideal
import Idealize.ShloMosaic.Lib.ValueIdx

noncomputable section

open scoped BigOperators

namespace Cert.GatherSum

open Idealize.ShloMosaic Idealize.ShloMosaic.ValueIdx

/-- Row `n` of a table of `R` rows, entry `k`; the zero row past the table's end. -/
def rowAt {R : ℕ} (tbl : (⟨2, ![R, 128]⟩ : Shape).Idx → EReal) (n : ℕ) (k : Fin 128) : EReal :=
  if h : n < R then tbl (ix2 ⟨n, h⟩ k) else 0

/-- The rows of `tbl` named by a column of `N` index words (an index word past the table reads the zero row). -/
def take {N R : ℕ} (ids : (⟨2, ![N, 1]⟩ : Shape).Idx → BitVec 32) (tbl : (⟨2, ![R, 128]⟩ : Shape).Idx → EReal) :
    (⟨2, ![N, 128]⟩ : Shape).Idx → EReal :=
  fun j => rowAt tbl (ids (ix2 ⟨(j 0).val, idx2_lt0 j⟩ ⟨0, Nat.one_pos⟩)).toNat ⟨(j 1).val, idx2_lt1 j⟩

/-- What edges credit to node number `i`, feature `k`: the sum of the edge features `neigh e k` over the edges whose
    segment word is `i`. -/
def credited (neigh : (⟨2, ![800000, 128]⟩ : Shape).Idx → EReal) (seg : (⟨2, ![800000, 1]⟩ : Shape).Idx → BitVec 32)
    (i : ℕ) (k : Fin 128) : EReal :=
  ∑ e : Fin 800000, if (seg (ix2 e ⟨0, Nat.one_pos⟩)).toNat = i then neigh (ix2 e k) else 0

/-- Node `i`'s pre-activation at feature `d`: `self i · W d + credited i · M d` (both weight matrices read
    transposed: entry `(d, k)`). -/
def preAct (self : (⟨2, ![51200, 128]⟩ : Shape).Idx → EReal) (neigh : (⟨2, ![800000, 128]⟩ : Shape).Idx → EReal)
    (seg : (⟨2, ![800000, 1]⟩ : Shape).Idx → BitVec 32) (W M : (⟨2, ![128, 128]⟩ : Shape).Idx → EReal)
    (i : Fin 51200) (d : Fin 128) : EReal :=
  (∑ k : Fin 128, self (ix2 i k) * W (ix2 d k)) + ∑ k : Fin 128, credited neigh seg i.val k * M (ix2 d k)

/-- The last stage's result: the positive parts of the pre-activations, masked to the nodes below 50000, summed over
    the nodes. -/
def combine (self : (⟨2, ![51200, 128]⟩ : Shape).Idx → EReal) (neigh : (⟨2, ![800000, 128]⟩ : Shape).Idx → EReal)
    (seg : (⟨2, ![800000, 1]⟩ : Shape).Idx → BitVec 32) (W M : (⟨2, ![128, 128]⟩ : Shape).Idx → EReal) :
    (⟨1, ![128]⟩ : Shape).Idx → EReal :=
  fun j => ∑ i : Fin 51200, max (preAct self neigh seg W M i ⟨(j 0).val, (j 0).isLt⟩) 0 * (if i.val < 50000 then 1 else 0)

/-- The quantity over the arguments themselves: node `i < 50000` reads row `ids i` of `tbl`, every edge `e` reads row
    `nbr e` and is credited to node `seg e`; positive parts of `self · Wᵀ + credited · Mᵀ`, summed over the nodes. -/
def total (tbl : (⟨2, ![10000, 128]⟩ : Shape).Idx → EReal) (W M : (⟨2, ![128, 128]⟩ : Shape).Idx → EReal)
    (ids : (⟨1, ![50000]⟩ : Shape).Idx → BitVec 32) (nbr seg : (⟨1, ![800000]⟩ : Shape).Idx → BitVec 32) :
    (⟨1, ![128]⟩ : Shape).Idx → EReal :=
  fun j => ∑ i : Fin 50000,
    max ((∑ k : Fin 128, rowAt tbl (ids (ix1 i)).toNat k * W (ix2 ⟨(j 0).val, (j 0).isLt⟩ k))
      + ∑ k : Fin 128, (∑ e : Fin 800000, if (seg (ix1 e)).toNat = i.val then rowAt tbl (nbr (ix1 e)).toNat k else 0)
          * M (ix2 ⟨(j 0).val, (j 0).isLt⟩ k)) 0

end Cert.GatherSum

end
-- ==== Proof.Alg.lean ====
/-
  Algebra over the extended reals and 32-bit index words behind the gather-and-sum: a one-hot weighted sum reads one
  row (or nothing), a 0/1-weighted sum is a conditional sum, a sum over a padded range masked to its first part is the
  sum over that part, and with these the masked padded form `combine` of the taken rows is the plain form `total`.
-/
import proofs.«413086_j36112085025448_1_alg».proof.Proof.Spec
import Mathlib.Algebra.BigOperators.Fin

noncomputable section

open scoped BigOperators

namespace Cert.GatherSum

open Idealize.ShloMosaic Idealize.ShloMosaic.ValueIdx

/-- A sum weighted by 0/1 indicators is the conditional sum: `1 * x = x` and `0 * x = 0` for every extended real. -/
theorem sum_ite_mul {n : ℕ} (p : Fin n → Prop) [DecidablePred p] (b f : Fin n → EReal)
    (hb : ∀ e, b e = if p e then 1 else 0) :
    ∑ e : Fin n, b e * f e = ∑ e : Fin n, if p e then f e else 0 := by
  refine Finset.sum_congr rfl fun e _ => ?_
  rw [hb e]
  by_cases h : p e
  · rw [if_pos h, if_pos h, one_mul]
  · rw [if_neg h, if_neg h, zero_mul]

/-- An index word equals the word of a row number below 2^31 exactly when its value is that number. -/
theorem eq_ofNat_iff {R : ℕ} (hR : R ≤ 2 ^ 31) (id : BitVec 32) (t : Fin R) :
    id = BitVec.ofNat 32 t.val ↔ id.toNat = t.val := by
  have ht : t.val < 2 ^ 32 := by have := t.isLt; omega
  constructor
  · intro h
    rw [h, BitVec.toNat_ofNat, Nat.mod_eq_of_lt ht]
  · intro h
    apply BitVec.eq_of_toNat_eq
    rw [BitVec.toNat_ofNat, Nat.mod_eq_of_lt ht, h]

/-- The one-hot read: at most one row number matches an index word, so the weighted sum is that row, or zero when the
    word is past the table. -/
theorem onehot_sum {R : ℕ} (hR : R ≤ 2 ^ 31) (f : Fin R → EReal) (b : Fin R → EReal) (id : BitVec 32)
    (hb : ∀ t : Fin R, b t = if id = BitVec.ofNat 32 t.val then 1 else 0) :
    ∑ t : Fin R, b t * f t = if h : id.toNat < R then f ⟨id.toNat, h⟩ else 0 := by
  rw [sum_ite_mul (fun t : Fin R => id = BitVec.ofNat 32 t.val) b f hb]
  by_cases h : id.toNat < R
  · rw [dif_pos h, Finset.sum_eq_single (⟨id.toNat, h⟩ : Fin R)]
    · exact if_pos ((eq_ofNat_iff hR id ⟨id.toNat, h⟩).2 rfl)
    · intro t _ ht
      refine if_neg fun h' => ht ?_
      exact Fin.ext ((eq_ofNat_iff hR id t).1 h').symm
    · intro h'
      exact absurd (Finset.mem_univ _) h'
  · rw [dif_neg h]
    refine Finset.sum_eq_zero fun t _ => if_neg fun h' => h ?_
    rw [(eq_ofNat_iff hR id t).1 h']
    exact t.isLt

/-- A sum over `N` terms masked to the first `m` is the sum of the first `m` terms: the range splits as `m + k`, the
    mask is `1` on the first part (`x * 1 = x`) and `0` on the second (`x * 0 = 0`). -/
theorem sum_mask_castLE {m N : ℕ} (h : m ≤ N) (g : Fin N → EReal) :
    ∑ i : Fin N, g i * (if i.val < m then 1 else 0) = ∑ i : Fin m, g (Fin.castLE h i) := by
  obtain ⟨k, rfl⟩ := Nat.exists_eq_add_of_le h
  rw [Fin.sum_univ_add]
  have h2 : ∑ i : Fin k, g (Fin.natAdd m i) * (if (Fin.natAdd m i).val < m then 1 else 0) = 0 := by
    refine Finset.sum_eq_zero fun i _ => ?_
    rw [if_neg (by rw [Fin.coe_natAdd]; omega), mul_zero]
  rw [h2, add_zero]
  refine Finset.sum_congr rfl fun i _ => ?_
  rw [if_pos (by rw [Fin.coe_castAdd]; exact i.isLt), mul_one]
  rfl

/-- A taken row, entry by entry. -/
theorem take_apply {N R : ℕ} (ids : (⟨2, ![N, 1]⟩ : Shape).Idx → BitVec 32)
    (tbl : (⟨2, ![R, 128]⟩ : Shape).Idx → EReal) (a : Fin N) (k : Fin 128) :
    take ids tbl (ix2 a k) = rowAt tbl (ids (ix2 a ⟨0, Nat.one_pos⟩)).toNat k := rfl

/-- The masked padded form over the taken rows is the plain form over the arguments: the mask cuts the node sum to
    the first 50000 nodes, and there each taken row is the table's row named by the index word. -/
theorem combine_take
    (tbl : (⟨2, ![10000, 128]⟩ : Shape).Idx → EReal) (tblPad : (⟨2, ![10240, 128]⟩ : Shape).Idx → EReal)
    (W M : (⟨2, ![128, 128]⟩ : Shape).Idx → EReal)
    (ids : (⟨1, ![50000]⟩ : Shape).Idx → BitVec 32) (nbr seg : (⟨1, ![800000]⟩ : Shape).Idx → BitVec 32)
    (idsPad : (⟨2, ![51200, 1]⟩ : Shape).Idx → BitVec 32) (nbr2 seg2 : (⟨2, ![800000, 1]⟩ : Shape).Idx → BitVec 32)
    (htbl : ∀ (n : ℕ) (k : Fin 128), rowAt tblPad n k = rowAt tbl n k)
    (hids : ∀ i : Fin 50000, idsPad (ix2 ⟨i.val, by omega⟩ ⟨0, Nat.one_pos⟩) = ids (ix1 i))
    (hnbr : ∀ e : Fin 800000, nbr2 (ix2 e ⟨0, Nat.one_pos⟩) = nbr (ix1 e))
    (hseg : ∀ e : Fin 800000, seg2 (ix2 e ⟨0, Nat.one_pos⟩) = seg (ix1 e)) :
    combine (take idsPad tblPad) (take nbr2 tblPad) seg2 W M = total tbl W M ids nbr seg := by
  have hle : 50000 ≤ 51200 := by norm_num
  have h1 : ∀ (i : Fin 50000) (k : Fin 128),
      take idsPad tblPad (ix2 (Fin.castLE hle i) k) = rowAt tbl (ids (ix1 i)).toNat k := by
    intro i k
    have e1 : take idsPad tblPad (ix2 (Fin.castLE hle i) k)
        = rowAt tblPad (idsPad (ix2 ⟨i.val, by omega⟩ ⟨0, Nat.one_pos⟩)).toNat k := rfl
    rw [e1, hids i, htbl]
  have h2 : ∀ (n : ℕ) (k : Fin 128), credited (take nbr2 tblPad) seg2 n k
      = ∑ e : Fin 800000, if (seg (ix1 e)).toNat = n then rowAt tbl (nbr (ix1 e)).toNat k else 0 := by
    intro n k
    unfold credited
    refine Finset.sum_congr rfl fun e _ => ?_
    rw [take_apply, hseg e, hnbr e, htbl]
  funext j
  unfold combine total
  rw [sum_mask_castLE hle]
  refine Finset.sum_congr rfl fun i _ => ?_
  unfold preAct
  simp only [h1, h2, Fin.coe_castLE]

end Cert.GatherSum

end
-- ==== Proof.Val0.lean ====
/-
  The first row-take stage's output array after the run, at the extended reals, as one function of the arrays the
  stage is entered with: the rows of the table named by the column of index words.

  A tile's product at `(r, k)` is `Σ_t [ids r = t] · tbl t k`: the left factor of the matrix product is the one-hot
  matrix of the tile's index words (a comparison of the broadcast column with the column numbers, widened and converted:
  `1` where equal and `0` elsewhere; the two roundings are the identity here), the accumulator is zero, and the product
  is the exact sum over the contracted axis. At most one weight is `1`, so the sum is the row the word names, or the
  zero row when the word is past the table. Point `t` of the 100 writes back tile `t` (512 rows) of the output, computed
  from tile `t` of the column and the whole table, and the 100 tiles cover the output's 51200 rows.
-/
import proofs.«413086_j36112085025448_1_alg».proof.Proof.Reg0
import proofs.«413086_j36112085025448_1_alg».proof.Proof.Alg
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Run Cert.KernelIdeal.Facts₀ Cert.KernelIdeal.Facts
open Idealize.ShloMosaic Idealize.ShloMosaic.TcCoe Idealize.ShloMosaic.ValueIdx
open Idealize.ShloMosaic.Pipeline (Dat)
open scoped BigOperators

/-! ## The one-hot product at an index -/

/-- The operand indices of the product at result index `j` and contraction position `q`, axis by axis: the left
    operand is read at row `j 0`, column `q`; the right operand at row `q`, column `j 1`. -/
theorem lhs0_0 (j : S512x128.Idx) (q : dot_S512x10240_S10240x128_S512x128_1_0_0_1_n_n.contr.Idx) :
    (dot_S512x10240_S10240x128_S512x128_1_0_0_1_n_n.lhsIdx j q 0 : ℕ) = j 0 := by
  simp [DotDims.lhsIdx, dot_S512x10240_S10240x128_S512x128_1_0_0_1_n_n]; rfl
theorem lhs0_1 (j : S512x128.Idx) (q : dot_S512x10240_S10240x128_S512x128_1_0_0_1_n_n.contr.Idx) :
    (dot_S512x10240_S10240x128_S512x128_1_0_0_1_n_n.lhsIdx j q 1 : ℕ) = q ⟨0, by decide⟩ := by
  simp [DotDims.lhsIdx, dot_S512x10240_S10240x128_S512x128_1_0_0_1_n_n]; rfl
theorem rhs0_0 (j : S512x128.Idx) (q : dot_S512x10240_S10240x128_S512x128_1_0_0_1_n_n.contr.Idx) :
    (dot_S512x10240_S10240x128_S512x128_1_0_0_1_n_n.rhsIdx j q 0 : ℕ) = q ⟨0, by decide⟩ := by
  simp [DotDims.rhsIdx, dot_S512x10240_S10240x128_S512x128_1_0_0_1_n_n]; rfl
theorem rhs0_1 (j : S512x128.Idx) (q : dot_S512x10240_S10240x128_S512x128_1_0_0_1_n_n.contr.Idx) :
    (dot_S512x10240_S10240x128_S512x128_1_0_0_1_n_n.rhsIdx j q 1 : ℕ) = j 1 := by
  simp [DotDims.rhsIdx, dot_S512x10240_S10240x128_S512x128_1_0_0_1_n_n]; rfl

/-- A column `[a, 1]` broadcast along the rows of `[a, b]` reads, at `(p, c)`, the column's entry `p`. -/
theorem bcast_col0_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p ⟨0, Nat.one_pos⟩) := by
  refine broadcastTo_apply v h (ix2 p c) (ix2 p ⟨0, Nat.one_pos⟩) fun ax => ?_
  match ax with
  | ⟨0, _⟩ =>
    show p.val = if a = 1 then 0 else p.val
    split
    · have := p.isLt; omega
    · rfl
  | ⟨1, _⟩ => rfl

/-- The integer-to-float conversion of a widened comparison bit: `1` when the two words are equal, `0` otherwise. -/
theorem onehot_bit0 (x y : BitVec 32) :
    (FloatOps.sitofp (F := Ideal) .f32 ((IntOp.cmpi .eq x y).setWidth 32) : EReal) = if x = y then 1 else 0 := by
  by_cases h : x = y
  · subst h
    rw [if_pos rfl]
    have e : IntOp.cmpi .eq x x = 1#1 := by
      show BitVec.ofBool (x == x) = 1#1
      rw [beq_self_eq_true]; rfl
    rw [e]
    show (((BitVec.setWidth 32 1#1).toInt : ℝ) : EReal) = 1
    rw [show (BitVec.setWidth 32 1#1).toInt = 1 from by decide]
    simp
  · rw [if_neg h]
    have e : IntOp.cmpi .eq x y = 0#1 := by
      show BitVec.ofBool (x == y) = 0#1
      rw [beq_eq_false_iff_ne.mpr h]; rfl
    rw [e]
    show (((BitVec.setWidth 32 0#1).toInt : ℝ) : EReal) = 0
    rw [show (BitVec.setWidth 32 0#1).toInt = 0 from by decide]
    simp

/-- The product at `(r, k)` is the sum over the table's rows `t` of `[ids r = t] · tbl t k`. -/
theorem pay0_sum (ids : Vec Ideal S512x1 .i32) (tbl : Vec Ideal S10240x128 .bf16) (r : Fin 512) (k : Fin 128) :
    k0_pay1 (F := Ideal) ids tbl (ix2 r k)
      = ∑ t : Fin 10240, (if ids (ix2 r ⟨0, Nat.one_pos⟩) = BitVec.ofNat 32 t.val then (1 : EReal) else 0) * tbl (ix2 t k) := by
  unfold k0_pay1
  rw [truncf_apply]
  refine (Ideal.matmul_constant_zero_apply dot_S512x10240_S10240x128_S512x128_1_0_0_1_n_n none _ _ (ix2 r k)).trans ?_
  rw [← Equiv.sum_comp (contrEquiv1 dot_S512x10240_S10240x128_S512x128_1_0_0_1_n_n 10240 rfl rfl).symm]
  refine Finset.sum_congr rfl fun t _ => ?_
  have ct := contrEquiv1_symm_val dot_S512x10240_S10240x128_S512x128_1_0_0_1_n_n 10240 rfl rfl t
  have hl : dot_S512x10240_S10240x128_S512x128_1_0_0_1_n_n.lhsIdx (ix2 r k)
      ((contrEquiv1 dot_S512x10240_S10240x128_S512x128_1_0_0_1_n_n 10240 rfl rfl).symm t) = ix2 r t := by
    funext ax; apply Fin.ext
    match ax with
    | ⟨0, _⟩ => exact lhs0_0 _ _
    | ⟨1, _⟩ => exact (lhs0_1 _ _).trans ct
  have hr : dot_S512x10240_S10240x128_S512x128_1_0_0_1_n_n.rhsIdx (ix2 r k)
      ((contrEquiv1 dot_S512x10240_S10240x128_S512x128_1_0_0_1_n_n 10240 rfl rfl).symm t) = ix2 t k := by
    funext ax; apply Fin.ext
    match ax with
    | ⟨0, _⟩ => exact (rhs0_0 _ _).trans ct
    | ⟨1, _⟩ => exact rhs0_1 _ _
  rw [hl, hr, truncf_apply, sitofp_apply, extui_apply, shapeCast_self, shapeCast_self]
  show FloatOps.sitofp (F := Ideal) .f32 ((IntOp.cmpi .eq
      (broadcastTo S512x10240 ids _ (ix2 r t))
      (iota .tc S512x10240 32 [1] _ (ix2 r t))).setWidth 32) * tbl (ix2 t k) = _
  rw [bcast_col0_apply, iota_single_apply, onehot_bit0]

/-- The product at `(r, k)` is row `ids r` of the table at `k`, the zero row when the word is past the table: of the
    one-hot weights at most one is `1`. -/
theorem pay0_apply (ids : Vec Ideal S512x1 .i32) (tbl : Vec Ideal S10240x128 .bf16) (r : Fin 512) (k : Fin 128) :
    k0_pay1 (F := Ideal) ids tbl (ix2 r k) = Cert.GatherSum.rowAt tbl (ids (ix2 r ⟨0, Nat.one_pos⟩)).toNat k := by
  rw [pay0_sum]
  exact Cert.GatherSum.onehot_sum (R := 10240) (by norm_num) (fun t => tbl (ix2 t k)) _ (ids (ix2 r ⟨0, Nat.one_pos⟩))
    (fun _ => rfl)

/-! ## From the tiles to the array -/

variable (V : (c : Dev nD) → (b : Ref sig .tc) → Buf (Elt Ideal) ((c : Thread nD τ).loc b))

theorem zeros0 : (![0, 0] : Fin 2 → Nat) = fun _ => 0 := funext fun a => by fin_cases a <;> rfl

/-- The printed index maps over the 100 grid points: at point `t` the tile of index words and the output tile are
    tile `(t, 0)` of their arrays, the table's block is `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A tile's product at `(r, k)`, when the tile's word `r` is word `n · 512 + r` of the column and the table is whole,
    is the taken array at `(n · 512 + r, k)`. -/
theorem tile0_eq (ids : S51200x1.Idx → BitVec 32) (tbl : S10240x128.Idx → EReal)
    (x0 : Vec Ideal S512x1 .i32) (x1 : Vec Ideal S10240x128 .bf16) (n : ℕ) (r : Fin 512) (k : Fin 128)
    (hn : n * 512 + r.val < 51200)
    (h0 : x0 (ix2 r ⟨0, Nat.one_pos⟩) = ids (ix2 ⟨n * 512 + r.val, hn⟩ ⟨0, Nat.one_pos⟩)) (h1 : x1 = tbl) :
    k0_pay1 (F := Ideal) x0 x1 (ix2 r k) = Cert.GatherSum.take ids tbl (ix2 ⟨n * 512 + r.val, hn⟩ k) := by
  rw [pay0_apply, Cert.GatherSum.take_apply, h0, h1]

/-- What point `t` writes back is tile `t` of the taken array. -/
theorem flushed0_eq (c : Dev nD) (t : Fin cfg0.N) :
    (dat0 (F := Ideal) V c).flushed 2 t = ((cfg0.win 2).blk t).view.read (Elt Ideal)
      (Cert.GatherSum.take (V c main_v3 : S51200x1.Idx → BitVec 32) (V c main_v1 : S10240x128.Idx → EReal)) := by
  show (cfg0.win 2).cut (grid0.coords t) ((dat0 (F := Ideal) V c).after 2 t) = _
  rw [after0_2]
  unfold out0_2
  rw [View.canon_unit_zero zeros0]
  simp only [View.ld_unit_zero (S := S512x1) zeros0, View.ld_unit_zero (S := S10240x128) zeros0]
  obtain ⟨e00, e01, e10, e11, e20, e21⟩ := idx_facts0 t
  have hN : t.val < 100 := lt_of_lt_of_eq t.isLt N_0
  funext j
  have hj0 : (j 0).val < 512 := (j 0).isLt
  have hj1 : (j 1).val < 128 := (j 1).isLt
  have hn : t.val * 512 + (j 0).val < 51200 := by omega
  have hx : (cfg0.win 2).xinj (grid0.coords t) j = ix2 (⟨(j 0).val, hj0⟩ : Fin 512) (⟨(j 1).val, hj1⟩ : Fin 128) :=
    funext fun a => by match a with | ⟨0, _⟩ => rfl | ⟨1, _⟩ => rfl
  have hy : ((cfg0.win 2).blk t).view.emb j = ix2 (⟨t.val * 512 + (j 0).val, hn⟩ : Fin 51200) (⟨(j 1).val, hj1⟩ : Fin 128) := by
    funext a; apply Fin.ext
    match a with
    | ⟨0, _⟩ => show win0_2.index t (0 : Fin 2) * 512 + 1 * (j 0).val = t.val * 512 + (j 0).val; omega
    | ⟨1, _⟩ => show win0_2.index t (1 : Fin 2) * 128 + 1 * (j 1).val = (j 1).val; omega
  show k0_pay1 (F := Ideal) (iblk0 V c 0 t) (iblk0 V c 1 t) ((cfg0.win 2).xinj (grid0.coords t) j)
    = Cert.GatherSum.take (V c main_v3 : S51200x1.Idx → BitVec 32) (V c main_v1 : S10240x128.Idx → EReal)
        (((cfg0.win 2).blk t).view.emb j)
  rw [hx, hy]
  refine tile0_eq _ _ _ _ t.val _ _ hn ?_ ?_
  · show V c main_v3 (((cfg0.win 0).blk t).view.emb (ix2 (⟨(j 0).val, hj0⟩ : Fin 512) ⟨0, Nat.one_pos⟩)) = _
    refine congrArg (V c main_v3) (funext fun a => Fin.ext ?_)
    match a with
    | ⟨0, _⟩ => show win0_0.index t (0 : Fin 2) * 512 + 1 * (j 0).val = t.val * 512 + (j 0).val; omega
    | ⟨1, _⟩ => show win0_0.index t (1 : Fin 2) * 1 + 1 * 0 = 0; omega
  · funext y
    show V c main_v1 (((cfg0.win 1).blk t).view.emb y) = V c main_v1 y
    refine congrArg (V c main_v1) (funext fun a => Fin.ext ?_)
    match a with
    | ⟨0, _⟩ => show win0_1.index t (0 : Fin 2) * 10240 + 1 * (y 0).val = (y 0).val; omega
    | ⟨1, _⟩ => show win0_1.index t (1 : Fin 2) * 128 + 1 * (y 1).val = (y 1).val; omega

/-- An index of the output array is in point `t`'s tile iff each coordinate is in the tile's range on its axis. -/
theorem mem_blk0 (t : Fin cfg0.N) (i : S51200x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v6).slice (win0_2.rect t)).set ↔ _
  rw [View.set_slice_whole, Rect.mem_set_unit]
  exact Iff.rfl

/-- Every index of the output array is in a tile some point writes back: row `r` is in point `r / 512`'s. -/
theorem cover0 (i : S51200x128.Idx) :
    ∃ t : Fin cfg0.N, (cfg0.win 2).flush t = true ∧ i ∈ ((cfg0.win 2).blk t).view.set := by
  have hi0 : (i 0).val < 51200 := (i 0).isLt
  have hi1 : (i 1).val < 128 := (i 1).isLt
  have hN : cfg0.N = 100 := N_0
  have hlt : (i 0).val / 512 < cfg0.N := by rw [hN]; omega
  obtain ⟨-, -, -, -, e20, e21⟩ := idx_facts0 ⟨(i 0).val / 512, hlt⟩
  have e20' : win0_2.index ⟨(i 0).val / 512, hlt⟩ (0 : Fin 2) = (i 0).val / 512 := e20
  refine ⟨⟨(i 0).val / 512, hlt⟩, flush0_2 _, ?_⟩
  rw [mem_blk0]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    omega
  | ⟨1, _⟩ =>
    show win0_2.index ⟨(i 0).val / 512, hlt⟩ (1 : Fin 2) * 128 ≤ (i 1).val
      ∧ (i 1).val < win0_2.index ⟨(i 0).val / 512, hlt⟩ (1 : Fin 2) * 128 + 128
    omega

/-- The output array after the stage is the taken array: the rows of the table named by the column of index words. -/
theorem arr0_eq (c : Dev nD) :
    ((dat0 (F := Ideal) V c).arrAt 2 cfg0.N : S51200x128.Idx → EReal)
      = Cert.GatherSum.take (V c main_v3 : S51200x1.Idx → BitVec 32) (V c main_v1 : S10240x128.Idx → EReal) :=
  (dat0 (F := Ideal) V c).arrAt_eq_of_cover 2
    (Cert.GatherSum.take (V c main_v3 : S51200x1.Idx → BitVec 32) (V c main_v1 : S10240x128.Idx → EReal))
    (fun t _ => flushed0_eq V c t) cover0

end Cert.KernelIdeal.Val

end
-- ==== Proof.Val1.lean ====
/-
  The second row-take stage's output array after the run, at the extended reals, as one function of the arrays the
  stage is entered with: the rows of the table named by the column of index words.

  A tile's product at `(r, k)` is `Σ_t [ids r = t] · tbl t k`: the left factor of the matrix product is the one-hot
  matrix of the tile's index words (a comparison of the broadcast column with the column numbers, widened and converted:
  `1` where equal and `0` elsewhere; the two roundings are the identity here), the accumulator is zero, and the product
  is the exact sum over the contracted axis. At most one weight is `1`, so the sum is the row the word names, or the
  zero row when the word is past the table. Point `t` of the 3125 writes back tile `t` (256 rows) of the output, computed
  from tile `t` of the column and the whole table, and the 3125 tiles cover the output's 800000 rows.
-/
import proofs.«413086_j36112085025448_1_alg».proof.Proof.Reg1
import proofs.«413086_j36112085025448_1_alg».proof.Proof.Alg
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Run Cert.KernelIdeal.Facts₀ Cert.KernelIdeal.Facts
open Idealize.ShloMosaic Idealize.ShloMosaic.TcCoe Idealize.ShloMosaic.ValueIdx
open Idealize.ShloMosaic.Pipeline (Dat)
open scoped BigOperators

/-! ## The one-hot product at an index -/

/-- The operand indices of the product at result index `j` and contraction position `q`, axis by axis: the left
    operand is read at row `j 0`, column `q`; the right operand at row `q`, column `j 1`. -/
theorem lhs1_0 (j : S256x128.Idx) (q : dot_S256x10240_S10240x128_S256x128_1_0_0_1_n_n.contr.Idx) :
    (dot_S256x10240_S10240x128_S256x128_1_0_0_1_n_n.lhsIdx j q 0 : ℕ) = j 0 := by
  simp [DotDims.lhsIdx, dot_S256x10240_S10240x128_S256x128_1_0_0_1_n_n]; rfl
theorem lhs1_1 (j : S256x128.Idx) (q : dot_S256x10240_S10240x128_S256x128_1_0_0_1_n_n.contr.Idx) :
    (dot_S256x10240_S10240x128_S256x128_1_0_0_1_n_n.lhsIdx j q 1 : ℕ) = q ⟨0, by decide⟩ := by
  simp [DotDims.lhsIdx, dot_S256x10240_S10240x128_S256x128_1_0_0_1_n_n]; rfl
theorem rhs1_0 (j : S256x128.Idx) (q : dot_S256x10240_S10240x128_S256x128_1_0_0_1_n_n.contr.Idx) :
    (dot_S256x10240_S10240x128_S256x128_1_0_0_1_n_n.rhsIdx j q 0 : ℕ) = q ⟨0, by decide⟩ := by
  simp [DotDims.rhsIdx, dot_S256x10240_S10240x128_S256x128_1_0_0_1_n_n]; rfl
theorem rhs1_1 (j : S256x128.Idx) (q : dot_S256x10240_S10240x128_S256x128_1_0_0_1_n_n.contr.Idx) :
    (dot_S256x10240_S10240x128_S256x128_1_0_0_1_n_n.rhsIdx j q 1 : ℕ) = j 1 := by
  simp [DotDims.rhsIdx, dot_S256x10240_S10240x128_S256x128_1_0_0_1_n_n]; rfl

/-- A column `[a, 1]` broadcast along the rows of `[a, b]` reads, at `(p, c)`, the column's entry `p`. -/
theorem bcast_col1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p ⟨0, Nat.one_pos⟩) := by
  refine broadcastTo_apply v h (ix2 p c) (ix2 p ⟨0, Nat.one_pos⟩) fun ax => ?_
  match ax with
  | ⟨0, _⟩ =>
    show p.val = if a = 1 then 0 else p.val
    split
    · have := p.isLt; omega
    · rfl
  | ⟨1, _⟩ => rfl

/-- The integer-to-float conversion of a widened comparison bit: `1` when the two words are equal, `0` otherwise. -/
theorem onehot_bit1 (x y : BitVec 32) :
    (FloatOps.sitofp (F := Ideal) .f32 ((IntOp.cmpi .eq x y).setWidth 32) : EReal) = if x = y then 1 else 0 := by
  by_cases h : x = y
  · subst h
    rw [if_pos rfl]
    have e : IntOp.cmpi .eq x x = 1#1 := by
      show BitVec.ofBool (x == x) = 1#1
      rw [beq_self_eq_true]; rfl
    rw [e]
    show (((BitVec.setWidth 32 1#1).toInt : ℝ) : EReal) = 1
    rw [show (BitVec.setWidth 32 1#1).toInt = 1 from by decide]
    simp
  · rw [if_neg h]
    have e : IntOp.cmpi .eq x y = 0#1 := by
      show BitVec.ofBool (x == y) = 0#1
      rw [beq_eq_false_iff_ne.mpr h]; rfl
    rw [e]
    show (((BitVec.setWidth 32 0#1).toInt : ℝ) : EReal) = 0
    rw [show (BitVec.setWidth 32 0#1).toInt = 0 from by decide]
    simp

/-- The product at `(r, k)` is the sum over the table's rows `t` of `[ids r = t] · tbl t k`. -/
theorem pay1_sum (ids : Vec Ideal S256x1 .i32) (tbl : Vec Ideal S10240x128 .bf16) (r : Fin 256) (k : Fin 128) :
    k1_pay1 (F := Ideal) ids tbl (ix2 r k)
      = ∑ t : Fin 10240, (if ids (ix2 r ⟨0, Nat.one_pos⟩) = BitVec.ofNat 32 t.val then (1 : EReal) else 0) * tbl (ix2 t k) := by
  unfold k1_pay1
  rw [truncf_apply]
  refine (Ideal.matmul_constant_zero_apply dot_S256x10240_S10240x128_S256x128_1_0_0_1_n_n none _ _ (ix2 r k)).trans ?_
  rw [← Equiv.sum_comp (contrEquiv1 dot_S256x10240_S10240x128_S256x128_1_0_0_1_n_n 10240 rfl rfl).symm]
  refine Finset.sum_congr rfl fun t _ => ?_
  have ct := contrEquiv1_symm_val dot_S256x10240_S10240x128_S256x128_1_0_0_1_n_n 10240 rfl rfl t
  have hl : dot_S256x10240_S10240x128_S256x128_1_0_0_1_n_n.lhsIdx (ix2 r k)
      ((contrEquiv1 dot_S256x10240_S10240x128_S256x128_1_0_0_1_n_n 10240 rfl rfl).symm t) = ix2 r t := by
    funext ax; apply Fin.ext
    match ax with
    | ⟨0, _⟩ => exact lhs1_0 _ _
    | ⟨1, _⟩ => exact (lhs1_1 _ _).trans ct
  have hr : dot_S256x10240_S10240x128_S256x128_1_0_0_1_n_n.rhsIdx (ix2 r k)
      ((contrEquiv1 dot_S256x10240_S10240x128_S256x128_1_0_0_1_n_n 10240 rfl rfl).symm t) = ix2 t k := by
    funext ax; apply Fin.ext
    match ax with
    | ⟨0, _⟩ => exact (rhs1_0 _ _).trans ct
    | ⟨1, _⟩ => exact rhs1_1 _ _
  rw [hl, hr, truncf_apply, sitofp_apply, extui_apply, shapeCast_self, shapeCast_self]
  show FloatOps.sitofp (F := Ideal) .f32 ((IntOp.cmpi .eq
      (broadcastTo S256x10240 ids _ (ix2 r t))
      (iota .tc S256x10240 32 [1] _ (ix2 r t))).setWidth 32) * tbl (ix2 t k) = _
  rw [bcast_col1_apply, iota_single_apply, onehot_bit1]

/-- The product at `(r, k)` is row `ids r` of the table at `k`, the zero row when the word is past the table: of the
    one-hot weights at most one is `1`. -/
theorem pay1_apply (ids : Vec Ideal S256x1 .i32) (tbl : Vec Ideal S10240x128 .bf16) (r : Fin 256) (k : Fin 128) :
    k1_pay1 (F := Ideal) ids tbl (ix2 r k) = Cert.GatherSum.rowAt tbl (ids (ix2 r ⟨0, Nat.one_pos⟩)).toNat k := by
  rw [pay1_sum]
  exact Cert.GatherSum.onehot_sum (R := 10240) (by norm_num) (fun t => tbl (ix2 t k)) _ (ids (ix2 r ⟨0, Nat.one_pos⟩))
    (fun _ => rfl)

/-! ## From the tiles to the array -/

variable (V : (c : Dev nD) → (b : Ref sig .tc) → Buf (Elt Ideal) ((c : Thread nD τ).loc b))

theorem zeros1 : (![0, 0] : Fin 2 → Nat) = fun _ => 0 := funext fun a => by fin_cases a <;> rfl

/-- The printed index maps over the 3125 grid points: at point `t` the tile of index words and the output tile are
    tile `(t, 0)` of their arrays, the table's block is `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A tile's product at `(r, k)`, when the tile's word `r` is word `n · 256 + r` of the column and the table is whole,
    is the taken array at `(n · 256 + r, k)`. -/
theorem tile1_eq (ids : S800000x1.Idx → BitVec 32) (tbl : S10240x128.Idx → EReal)
    (x0 : Vec Ideal S256x1 .i32) (x1 : Vec Ideal S10240x128 .bf16) (n : ℕ) (r : Fin 256) (k : Fin 128)
    (hn : n * 256 + r.val < 800000)
    (h0 : x0 (ix2 r ⟨0, Nat.one_pos⟩) = ids (ix2 ⟨n * 256 + r.val, hn⟩ ⟨0, Nat.one_pos⟩)) (h1 : x1 = tbl) :
    k1_pay1 (F := Ideal) x0 x1 (ix2 r k) = Cert.GatherSum.take ids tbl (ix2 ⟨n * 256 + r.val, hn⟩ k) := by
  rw [pay1_apply, Cert.GatherSum.take_apply, h0, h1]

/-- What point `t` writes back is tile `t` of the taken array. -/
theorem flushed1_eq (c : Dev nD) (t : Fin cfg1.N) :
    (dat1 (F := Ideal) V c).flushed 2 t = ((cfg1.win 2).blk t).view.read (Elt Ideal)
      (Cert.GatherSum.take (V c main_v4 : S800000x1.Idx → BitVec 32) (V c main_v1 : S10240x128.Idx → EReal)) := by
  show (cfg1.win 2).cut (grid1.coords t) ((dat1 (F := Ideal) V c).after 2 t) = _
  rw [after1_2]
  unfold out1_2
  rw [View.canon_unit_zero zeros1]
  simp only [View.ld_unit_zero (S := S256x1) zeros1, View.ld_unit_zero (S := S10240x128) zeros1]
  obtain ⟨e00, e01, e10, e11, e20, e21⟩ := idx_facts1 t
  have hN : t.val < 3125 := lt_of_lt_of_eq t.isLt N_1
  funext j
  have hj0 : (j 0).val < 256 := (j 0).isLt
  have hj1 : (j 1).val < 128 := (j 1).isLt
  have hn : t.val * 256 + (j 0).val < 800000 := by omega
  have hx : (cfg1.win 2).xinj (grid1.coords t) j = ix2 (⟨(j 0).val, hj0⟩ : Fin 256) (⟨(j 1).val, hj1⟩ : Fin 128) :=
    funext fun a => by match a with | ⟨0, _⟩ => rfl | ⟨1, _⟩ => rfl
  have hy : ((cfg1.win 2).blk t).view.emb j = ix2 (⟨t.val * 256 + (j 0).val, hn⟩ : Fin 800000) (⟨(j 1).val, hj1⟩ : Fin 128) := by
    funext a; apply Fin.ext
    match a with
    | ⟨0, _⟩ => show win1_2.index t (0 : Fin 2) * 256 + 1 * (j 0).val = t.val * 256 + (j 0).val; omega
    | ⟨1, _⟩ => show win1_2.index t (1 : Fin 2) * 128 + 1 * (j 1).val = (j 1).val; omega
  show k1_pay1 (F := Ideal) (iblk1 V c 0 t) (iblk1 V c 1 t) ((cfg1.win 2).xinj (grid1.coords t) j)
    = Cert.GatherSum.take (V c main_v4 : S800000x1.Idx → BitVec 32) (V c main_v1 : S10240x128.Idx → EReal)
        (((cfg1.win 2).blk t).view.emb j)
  rw [hx, hy]
  refine tile1_eq _ _ _ _ t.val _ _ hn ?_ ?_
  · show V c main_v4 (((cfg1.win 0).blk t).view.emb (ix2 (⟨(j 0).val, hj0⟩ : Fin 256) ⟨0, Nat.one_pos⟩)) = _
    refine congrArg (V c main_v4) (funext fun a => Fin.ext ?_)
    match a with
    | ⟨0, _⟩ => show win1_0.index t (0 : Fin 2) * 256 + 1 * (j 0).val = t.val * 256 + (j 0).val; omega
    | ⟨1, _⟩ => show win1_0.index t (1 : Fin 2) * 1 + 1 * 0 = 0; omega
  · funext y
    show V c main_v1 (((cfg1.win 1).blk t).view.emb y) = V c main_v1 y
    refine congrArg (V c main_v1) (funext fun a => Fin.ext ?_)
    match a with
    | ⟨0, _⟩ => show win1_1.index t (0 : Fin 2) * 10240 + 1 * (y 0).val = (y 0).val; omega
    | ⟨1, _⟩ => show win1_1.index t (1 : Fin 2) * 128 + 1 * (y 1).val = (y 1).val; omega

/-- An index of the output array is in point `t`'s tile iff each coordinate is in the tile's range on its axis. -/
theorem mem_blk1 (t : Fin cfg1.N) (i : S800000x128.Idx) :
    i ∈ ((cfg1.win 2).blk t).view.set ↔ ∀ a : Fin 2, win1_2.index t a * S256x128.size a ≤ (i a).val
      ∧ (i a).val < win1_2.index t a * S256x128.size a + S256x128.size a := by
  show i ∈ ((View.whole main_v7).slice (win1_2.rect t)).set ↔ _
  rw [View.set_slice_whole, Rect.mem_set_unit]
  exact Iff.rfl

/-- Every index of the output array is in a tile some point writes back: row `r` is in point `r / 256`'s. -/
theorem cover1 (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 3125 := N_1
  have hlt : (i 0).val / 256 < cfg1.N := by rw [hN]; omega
  obtain ⟨-, -, -, -, e20, e21⟩ := idx_facts1 ⟨(i 0).val / 256, hlt⟩
  have e20' : win1_2.index ⟨(i 0).val / 256, hlt⟩ (0 : Fin 2) = (i 0).val / 256 := e20
  refine ⟨⟨(i 0).val / 256, hlt⟩, flush1_2 _, ?_⟩
  rw [mem_blk1]
  intro a
  match a with
  | ⟨0, _⟩ =>
    show win1_2.index ⟨(i 0).val / 256, hlt⟩ (0 : Fin 2) * 256 ≤ (i 0).val
      ∧ (i 0).val < win1_2.index ⟨(i 0).val / 256, hlt⟩ (0 : Fin 2) * 256 + 256
    omega
  | ⟨1, _⟩ =>
    show win1_2.index ⟨(i 0).val / 256, hlt⟩ (1 : Fin 2) * 128 ≤ (i 1).val
      ∧ (i 1).val < win1_2.index ⟨(i 0).val / 256, hlt⟩ (1 : Fin 2) * 128 + 128
    omega

/-- The output array after the stage is the taken array: the rows of the table named by the column of index words. -/
theorem arr1_eq (c : Dev nD) :
    ((dat1 (F := Ideal) V c).arrAt 2 cfg1.N : S800000x128.Idx → EReal)
      = Cert.GatherSum.take (V c main_v4 : S800000x1.Idx → BitVec 32) (V c main_v1 : S10240x128.Idx → EReal) :=
  (dat1 (F := Ideal) V c).arrAt_eq_of_cover 2
    (Cert.GatherSum.take (V c main_v4 : S800000x1.Idx → BitVec 32) (V c main_v1 : S10240x128.Idx → EReal))
    (fun t _ => flushed1_eq V c t) cover1

end Cert.KernelIdeal.Val

end
-- ==== Proof.Pay2.lean ====
/-
  The combining stage's five stored values read at an index, at the exact (extended real) values: the two resets are
  zero; the result row is the row-sum scratch; a point's accumulator update adds, to row q of the node tile, the edge
  features of the point's edges whose segment word names node 1024·(tile) + q (a one-hot product contracted over the
  edges); the tile's finish adds to the row-sum scratch the masked positive parts of self·Wᵀ + acc·Mᵀ summed over the
  tile's rows.
-/
import proofs.«413086_j36112085025448_1_alg».proof.Proof.Gen.KernelIdeal.Skeleton
import proofs.«413086_j36112085025448_1_alg».proof.Proof.Alg
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.ValueIdx Cert.KernelIdeal Cert.KernelIdeal.Gen

/-- The zero literal at the exact values. -/
theorem scalar_zero_f32 : (Scalar.ofBits .f32 0x00000000#32 : Ideal .f32) = 0 := Ideal.ofBits_zero_f32

/-- The accumulator's reset is zero everywhere. -/
theorem stage2_pay3_apply (j : S1024x128.Idx) : k2_pay3 (F := Ideal) j = 0 := by
  unfold k2_pay3
  simp only [shapeCast_self, broadcast_apply]
  exact scalar_zero_f32

/-- The row-sum scratch's reset is zero everywhere. -/
theorem stage2_pay2_apply (j : S1x128.Idx) : k2_pay2 (F := Ideal) j = 0 := by
  unfold k2_pay2
  simp only [shapeCast_self, broadcast_apply]
  exact scalar_zero_f32

/-- The stored result is the row-sum scratch's one row. -/
theorem stage2_pay1_apply (g : Vec Ideal S1x128 .f32) (d : Fin 128) : k2_pay1 (F := Ideal) g (ix1 d) = g (ix2 ⟨0, Nat.one_pos⟩ d) := by
  unfold k2_pay1
  exact shapeCast_1a_a_apply g shapeCasts_S1x128_S128 d

/-! ## Layout and index words -/

/-- A column broadcast over the lanes: a [a,1] array broadcast to [a,b] reads, at (p, c), row p's one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p ⟨0, Nat.one_pos⟩) := by
  refine broadcastTo_apply v h (ix2 p c) (ix2 p ⟨0, Nat.one_pos⟩) fun ax => ?_
  match ax with
  | ⟨0, _⟩ =>
    show p.val = if a = 1 then 0 else p.val
    split
    · have := p.isLt; omega
    · rfl
  | ⟨1, _⟩ => rfl

/-- The word of node 1024·t + q, as the lane number plus the tile's base: no wrap for t < 50, q < 1024. -/
theorem node_word (t q : ℕ) (ht : t < 50) (hq : q < 1024) :
    IntOp.addi (BitVec.ofNat 32 q) (Scalar.muli (BitVec.ofNat 32 t) 1024#32) = BitVec.ofNat 32 (1024 * t + q) := by
  unfold IntOp.addi Scalar.muli IntOp.muli
  apply BitVec.eq_of_toNat_eq
  simp only [BitVec.toNat_add, BitVec.toNat_mul, BitVec.toNat_ofNat]
  omega

/-- The same word with the summands in the other order. -/
theorem node_word' (t q : ℕ) (ht : t < 50) (hq : q < 1024) :
    IntOp.addi (Scalar.muli (BitVec.ofNat 32 t) 1024#32) (BitVec.ofNat 32 q) = BitVec.ofNat 32 (1024 * t + q) := by
  rw [← node_word t q ht hq]
  unfold IntOp.addi
  exact BitVec.add_comm _ _

/-- A 32-bit word is the word of a number below 2^32 exactly when its value is that number. -/
theorem eq_ofNat_iff_toNat (s : BitVec 32) (n : ℕ) (hn : n < 2 ^ 32) : s = BitVec.ofNat 32 n ↔ s.toNat = n := by
  constructor
  · intro h
    rw [h, BitVec.toNat_ofNat, Nat.mod_eq_of_lt hn]
  · intro h
    apply BitVec.eq_of_toNat_eq
    rw [BitVec.toNat_ofNat, Nat.mod_eq_of_lt hn, h]

/-- The one-hot entry at the exact values: the equality test widened and converted is 1 or 0. -/
theorem onehot_word (s w : BitVec 32) :
    (FloatOps.sitofp (F := Ideal) .f32 ((IntOp.cmpi .eq s w).setWidth 32) : Ideal .f32) = if s = w then 1 else 0 := by
  show ((((IntOp.cmpi .eq s w).setWidth 32).toInt : ℝ) : EReal) = _
  unfold IntOp.cmpi
  by_cases h : s = w
  · rw [if_pos h]; subst h; simp
  · rw [if_neg h]
    have hb : (s == w) = false := by simpa using h
    simp [hb]

/-- The mask entry at the exact values: the signed test of a word below 2^31 against 50000, widened and converted. -/
theorem mask_word (n : ℕ) (hn : n < 2 ^ 31) :
    (FloatOps.sitofp (F := Ideal) .f32 ((IntOp.cmpi .slt (BitVec.ofNat 32 n) 50000#32).setWidth 32) : Ideal .f32)
      = if n < 50000 then 1 else 0 := by
  show ((((IntOp.cmpi .slt (BitVec.ofNat 32 n) 50000#32).setWidth 32).toInt : ℝ) : EReal) = _
  unfold IntOp.cmpi
  have hs : (BitVec.ofNat 32 n).slt 50000#32 = decide (n < 50000) := by
    unfold BitVec.slt
    have h1 : (BitVec.ofNat 32 n).toInt = (n : ℤ) := by
      rw [BitVec.toInt_eq_toNat_of_lt (by rw [BitVec.toNat_ofNat]; omega), BitVec.toNat_ofNat, Nat.mod_eq_of_lt (by omega)]
    rw [h1]
    have h2 : (50000#32 : BitVec 32).toInt = 50000 := by decide
    rw [h2]
    simp
  simp only [hs]
  by_cases h : n < 50000
  · simp [h]
  · simp [h]

/-! ## The one-hot product: both operands contracted over the edges -/

/-- On the left operand's contracted axis the index is the contraction's coordinate. -/
theorem lhs4_0 (j : S1024x128.Idx) (c : dot_S4000x1024_S4000x128_S1024x128_0_0_1_1_n_n.contr.Idx) :
    (dot_S4000x1024_S4000x128_S1024x128_0_0_1_1_n_n.lhsIdx j c 0).val = (c ⟨0, Nat.one_pos⟩).val :=
  DotDims.lhsIdx_val_of_single _ rfl j c

/-- On the left operand's kept axis the index is the result's row. -/
theorem lhs4_1 (j : S1024x128.Idx) (c : dot_S4000x1024_S4000x128_S1024x128_0_0_1_1_n_n.contr.Idx) :
    (dot_S4000x1024_S4000x128_S1024x128_0_0_1_1_n_n.lhsIdx j c 1).val = (j 0).val := by
  unfold DotDims.lhsIdx
  rw [dif_neg (show ¬(1 : Fin S4000x1024.rank) ∈ dot_S4000x1024_S4000x128_S1024x128_0_0_1_1_n_n.lhsBatch by decide),
    dif_pos (show (1 : Fin S4000x1024.rank) ∈ dot_S4000x1024_S4000x128_S1024x128_0_0_1_1_n_n.lhsNonContracting by decide)]
  rfl

/-- On the right operand's contracted axis the index is the contraction's coordinate. -/
theorem rhs4_0 (j : S1024x128.Idx) (c : dot_S4000x1024_S4000x128_S1024x128_0_0_1_1_n_n.contr.Idx) :
    (dot_S4000x1024_S4000x128_S1024x128_0_0_1_1_n_n.rhsIdx j c 0).val = (c ⟨0, Nat.one_pos⟩).val :=
  DotDims.rhsIdx_val_of_single _ rfl j c

/-- On the right operand's kept axis the index is the result's lane. -/
theorem rhs4_1 (j : S1024x128.Idx) (c : dot_S4000x1024_S4000x128_S1024x128_0_0_1_1_n_n.contr.Idx) :
    (dot_S4000x1024_S4000x128_S1024x128_0_0_1_1_n_n.rhsIdx j c 1).val = (j 1).val := by
  unfold DotDims.rhsIdx
  rw [dif_neg (show ¬(1 : Fin S4000x128.rank) ∈ dot_S4000x1024_S4000x128_S1024x128_0_0_1_1_n_n.rhsBatch by decide),
    dif_pos (show (1 : Fin S4000x128.rank) ∈ dot_S4000x1024_S4000x128_S1024x128_0_0_1_1_n_n.rhsNonContracting by decide)]
  rfl

/-- The product into the zero accumulator at (q, k): the sum over the edges e of left (e, q) times right (e, k). -/
theorem matmul4_apply (A : FVec Ideal S4000x1024 .bf16) (B : FVec Ideal S4000x128 .bf16) (q : Fin 1024) (k : Fin 128) :
    matmul dot_S4000x1024_S4000x128_S1024x128_0_0_1_1_n_n none A B (constant (F := Ideal) S1024x128 .f32 0x00000000#32) (ix2 q k)
      = ∑ e : Fin 4000, A (ix2 e q) * B (ix2 e k) := by
  show FloatOps.matmul _ none A B _ (ix2 q k) = _
  rw [Ideal.matmul_constant_zero_apply,
    ← Equiv.sum_comp (contrEquiv1 dot_S4000x1024_S4000x128_S1024x128_0_0_1_1_n_n 4000 rfl rfl).symm]
  refine Finset.sum_congr rfl fun e _ => ?_
  have c := contrEquiv1_symm_val dot_S4000x1024_S4000x128_S1024x128_0_0_1_1_n_n 4000 rfl rfl e
  have l : dot_S4000x1024_S4000x128_S1024x128_0_0_1_1_n_n.lhsIdx (ix2 q k) ((contrEquiv1 _ 4000 rfl rfl).symm e) = ix2 e q := by
    funext ax; apply Fin.ext
    match ax with
    | ⟨0, _⟩ => exact (lhs4_0 _ _).trans c
    | ⟨1, _⟩ => exact lhs4_1 _ _
  have r : dot_S4000x1024_S4000x128_S1024x128_0_0_1_1_n_n.rhsIdx (ix2 q k) ((contrEquiv1 _ 4000 rfl rfl).symm e) = ix2 e k := by
    funext ax; apply Fin.ext
    match ax with
    | ⟨0, _⟩ => exact (rhs4_0 _ _).trans c
    | ⟨1, _⟩ => exact rhs4_1 _ _
  rw [l, r]

/-- The point's credit added to what the accumulator held: row q of node tile (i 0) collects the edges e of the tile whose
    segment word is node 1024·(i 0) + q. -/
theorem stage2_pay4_apply (i : grid2.Coords) (hi : (i 0).val < 50) (seg : Vec Ideal S4000x1 .i32) (x : Vec Ideal S4000x128 .bf16) (a : Vec Ideal S1024x128 .f32)
    (q : Fin 1024) (k : Fin 128) :
    k2_pay4 (F := Ideal) i seg x a (ix2 q k)
      = a (ix2 q k) + ∑ e : Fin 4000, if (seg (ix2 e ⟨0, Nat.one_pos⟩)).toNat = 1024 * (i 0).val + q.val then x (ix2 e k) else 0 := by
  unfold k2_pay4
  simp only [shapeCast_self]
  rw [addf_apply, matmul4_apply]
  refine congrArg (a (ix2 q k) + ·) ?_
  refine Cert.GatherSum.sum_ite_mul (fun e : Fin 4000 => (seg (ix2 e ⟨0, Nat.one_pos⟩)).toNat = 1024 * (i 0).val + q.val) _ _ fun e => ?_
  rw [truncf_apply, sitofp_apply, extui_apply]
  show FloatOps.sitofp .f32 ((IntOp.cmpi .eq (broadcastTo S4000x1024 seg broadcasts_S4000x1_S4000x1024 (ix2 e q))
    (IntOp.addi (iota .tc S4000x1024 32 [1] iota_S4000x1024_d1_w32 (ix2 e q)) (Scalar.muli (BitVec.ofNat 32 (i 0).val) 1024#32))).setWidth 32) = _
  rw [broadcastTo_a1_ab_apply, iota_single_apply]
  show FloatOps.sitofp .f32 ((IntOp.cmpi .eq (seg (ix2 e ⟨0, Nat.one_pos⟩))
    (IntOp.addi (BitVec.ofNat 32 q.val) (Scalar.muli (BitVec.ofNat 32 (i 0).val) 1024#32))).setWidth 32) = _
  rw [node_word (i 0).val q.val hi q.isLt, onehot_word]
  have hn : 1024 * (i 0).val + q.val < 2 ^ 32 := by have := q.isLt; omega
  by_cases h : (seg (ix2 e ⟨0, Nat.one_pos⟩)).toNat = 1024 * (i 0).val + q.val
  · rw [if_pos h, if_pos ((eq_ofNat_iff_toNat _ _ hn).2 h)]
  · rw [if_neg h, if_neg fun h' => h ((eq_ofNat_iff_toNat _ _ hn).1 h')]

/-! ## The two plain products against the transposed weights -/

/-- On the left operand's kept axis the index is the result's row. -/
theorem lhs5_0 (j : S1024x128.Idx) (c : dot_S1024x128_S128x128_S1024x128_1_0_0_1_n_n.contr.Idx) :
    (dot_S1024x128_S128x128_S1024x128_1_0_0_1_n_n.lhsIdx j c 0).val = (j 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl

/-- On the left operand's contracted axis the index is the contraction's coordinate. -/
theorem lhs5_1 (j : S1024x128.Idx) (c : dot_S1024x128_S128x128_S1024x128_1_0_0_1_n_n.contr.Idx) :
    (dot_S1024x128_S128x128_S1024x128_1_0_0_1_n_n.lhsIdx j c 1).val = (c ⟨0, Nat.one_pos⟩).val :=
  DotDims.lhsIdx_val_of_single _ rfl j c

/-- On the right operand's contracted axis the index is the contraction's coordinate. -/
theorem rhs5_0 (j : S1024x128.Idx) (c : dot_S1024x128_S128x128_S1024x128_1_0_0_1_n_n.contr.Idx) :
    (dot_S1024x128_S128x128_S1024x128_1_0_0_1_n_n.rhsIdx j c 0).val = (c ⟨0, Nat.one_pos⟩).val :=
  DotDims.rhsIdx_val_of_single _ rfl j c

/-- On the right operand's kept axis the index is the result's lane. -/
theorem rhs5_1 (j : S1024x128.Idx) (c : dot_S1024x128_S128x128_S1024x128_1_0_0_1_n_n.contr.Idx) :
    (dot_S1024x128_S128x128_S1024x128_1_0_0_1_n_n.rhsIdx j c 1).val = (j 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The product into the zero accumulator at (q, d): the sum over k of left (q, k) times right (k, d). -/
theorem matmul5_apply (A : FVec Ideal S1024x128 .bf16) (B : FVec Ideal S128x128 .bf16) (q : Fin 1024) (d : Fin 128) :
    matmul dot_S1024x128_S128x128_S1024x128_1_0_0_1_n_n none A B (constant (F := Ideal) S1024x128 .f32 0x00000000#32) (ix2 q d)
      = ∑ k : Fin 128, A (ix2 q k) * B (ix2 k d) := by
  show FloatOps.matmul _ none A B _ (ix2 q d) = _
  rw [Ideal.matmul_constant_zero_apply,
    ← Equiv.sum_comp (contrEquiv1 dot_S1024x128_S128x128_S1024x128_1_0_0_1_n_n 128 rfl rfl).symm]
  refine Finset.sum_congr rfl fun k _ => ?_
  have c := contrEquiv1_symm_val dot_S1024x128_S128x128_S1024x128_1_0_0_1_n_n 128 rfl rfl k
  have l : dot_S1024x128_S128x128_S1024x128_1_0_0_1_n_n.lhsIdx (ix2 q d) ((contrEquiv1 _ 128 rfl rfl).symm k) = ix2 q k := by
    funext ax; apply Fin.ext
    match ax with
    | ⟨0, _⟩ => exact lhs5_0 _ _
    | ⟨1, _⟩ => exact (lhs5_1 _ _).trans c
  have r : dot_S1024x128_S128x128_S1024x128_1_0_0_1_n_n.rhsIdx (ix2 q d) ((contrEquiv1 _ 128 rfl rfl).symm k) = ix2 k d := by
    funext ax; apply Fin.ext
    match ax with
    | ⟨0, _⟩ => exact (rhs5_0 _ _).trans c
    | ⟨1, _⟩ => exact rhs5_1 _ _
  rw [l, r]

/-- The product against a transposed weight matrix: entry (d, k) of the weights is read. -/
theorem matmul5_transpose_apply (A : FVec Ideal S1024x128 .bf16) (W : FVec Ideal S128x128 .bf16) (q : Fin 1024) (d : Fin 128) :
    matmul dot_S1024x128_S128x128_S1024x128_1_0_0_1_n_n none A (transpose S128x128 [1, 0] W transposes_S128x128_p1_0_S128x128)
        (constant (F := Ideal) S1024x128 .f32 0x00000000#32) (ix2 q d)
      = ∑ k : Fin 128, A (ix2 q k) * W (ix2 d k) := by
  rw [matmul5_apply]
  refine Finset.sum_congr rfl fun k _ => ?_
  rw [transpose_ix2_apply]

/-! ## The sum over a tile's rows -/

/-- The sum over axis 0 of a 1024 by 128 block at lane d is the sum over the rows q of the block at (q, d). -/
theorem rowsum_apply (src : FVec Ideal S1024x128 .f32) (hφ : FKind.Formats .f32)
    (hacc : (0x00000000#32 : BitVec 32) = 0x00000000#32) (d : Fin 128) :
    multiReduction (F := Ideal) .add [0] S128 src 0x00000000#32 reduces_S1024x128_S128 hφ hacc (ix1 d)
      = ∑ q : Fin 1024, src (ix2 q d) := by
  refine (Ideal.multiReduction_add_single src 0x00000000#32 reduces_S1024x128_S128 hφ hacc (ix1 d)).trans ?_
  refine Finset.sum_congr rfl fun q _ => congrArg src ?_
  funext ax; apply Fin.ext
  match ax with
  | ⟨0, _⟩ => rfl
  | ⟨1, _⟩ => rfl

/-! ## The mask and the tile's finish -/

/-- The mask at row q of tile t, broadcast over the lanes: 1 on the nodes below 50000, else 0. -/
theorem mask_apply (t : ℕ) (ht : t < 50) (q : Fin 1024) (d : Fin 128) :
    broadcastTo S1024x128
        (sitofp (F := Ideal) .f32
          (extui 32
            (cmpi .slt
              (addi (broadcast S1024x1 (Scalar.muli (BitVec.ofNat 32 t) 1024#32)) (iota .tc S1024x1 32 [0] iota_S1024x1_d0_w32))
              (broadcast S1024x1 50000#32))
            natLt_1_32))
        broadcasts_S1024x1_S1024x128 (ix2 q d)
      = if 1024 * t + q.val < 50000 then 1 else 0 := by
  rw [broadcastTo_a1_ab_apply, sitofp_apply, extui_apply]
  show FloatOps.sitofp .f32 ((IntOp.cmpi .slt (IntOp.addi (Scalar.muli (BitVec.ofNat 32 t) 1024#32)
    (iota .tc S1024x1 32 [0] iota_S1024x1_d0_w32 (ix2 q ⟨0, Nat.one_pos⟩))) 50000#32).setWidth 32) = _
  rw [iota_single_apply]
  show FloatOps.sitofp .f32 ((IntOp.cmpi .slt (IntOp.addi (Scalar.muli (BitVec.ofNat 32 t) 1024#32)
    (BitVec.ofNat 32 q.val)) 50000#32).setWidth 32) = _
  rw [node_word' t q.val ht q.isLt, mask_word _ (by have := q.isLt; omega)]

/-- The node tile's finish: the positive parts of self·Wᵀ + acc·Mᵀ, masked to the nodes below 50000, summed over the
    tile's 1024 rows, added to what the row-sum scratch held. -/
theorem stage2_pay5_apply (i : grid2.Coords) (hi : (i 0).val < 50) (self : Vec Ideal S1024x128 .bf16) (Wm Mm : Vec Ideal S128x128 .f32)
    (acc : Vec Ideal S1024x128 .f32) (g : Vec Ideal S1x128 .f32) (d : Fin 128) :
    k2_pay5 (F := Ideal) i self Wm Mm acc g (ix2 ⟨0, Nat.one_pos⟩ d)
      = g (ix2 ⟨0, Nat.one_pos⟩ d) + ∑ q : Fin 1024,
          max ((∑ k : Fin 128, self (ix2 q k) * Wm (ix2 d k)) + ∑ k : Fin 128, acc (ix2 q k) * Mm (ix2 d k)) 0
            * (if 1024 * (i 0).val + q.val < 50000 then 1 else 0) := by
  unfold k2_pay5
  simp only [shapeCast_self]
  rw [addf_apply, shapeCast_a_1a_apply, rowsum_apply]
  refine congrArg (g (ix2 ⟨0, Nat.one_pos⟩ d) + ·) ?_
  refine Finset.sum_congr rfl fun q _ => ?_
  rw [mulf_apply, mask_apply (i 0).val hi, maximumf_apply, addf_apply, matmul5_transpose_apply, matmul5_transpose_apply,
    broadcast_apply, scalar_zero_f32]
  simp only [truncf_apply]

end Cert.KernelIdeal.Val
-- ==== Proof.Val2.lean ====
/-
  The combining stage's result array after the run, at the exact (extended real) values: the sum over the 51200 node
  rows of the masked positive parts of self · Wᵀ + credited · Mᵀ.

  Point t of the 50 × 200 grid is node tile t / 200 and edge tile t % 200. By induction on the point, the
  accumulator after point t holds, at row q, what the edges of the tiles 0 … t % 200 credit to node 1024·(t / 200) + q
  (a sum over the edge numbers below 4000·(t % 200 + 1)); at the last edge tile that is the node's whole credit. The
  row-sum scratch after point t holds the sum of the shares of the nodes of the tiles finished so far (the node numbers
  below 1024·((t + 1) / 200)); after the last point that is every node. The result array is written back once, at
  the last point, whole, with the row-sum scratch's row.
-/
import proofs.«413086_j36112085025448_1_alg».proof.Proof.Reg2Defs
import proofs.«413086_j36112085025448_1_alg».proof.Proof.Pay2
import proofs.«413086_j36112085025448_1_alg».proof.Proof.Alg
import Idealize.ShloMosaic.Lib.ValueIdx
import Idealize.ShloMosaic.Lib.Pipeline.Value
import Mathlib.Algebra.BigOperators.Fin
import Mathlib.Data.Fintype.BigOperators

set_option maxRecDepth 16384

noncomputable section

open scoped BigOperators

namespace Cert.KernelIdeal.Val

open Cert.KernelIdeal Cert.KernelIdeal.Gen Cert.KernelIdeal.Facts₀ Cert.KernelIdeal.Facts Cert.KernelIdeal.Run
open Idealize.ShloMosaic Idealize.ShloMosaic.TcCoe Idealize.ShloMosaic.ValueIdx
open Idealize.ShloMosaic.Pipeline (Dat Cfg Window)
open Cert.GatherSum

/-! ## The two sums by edge number and by node number -/

/-- What edge number n credits to node i at feature k: its feature when its segment word is i, zero otherwise
    and past the edge list. -/
def edgeCredit (neigh : (⟨2, ![800000, 128]⟩ : Shape).Idx → EReal) (seg : (⟨2, ![800000, 1]⟩ : Shape).Idx → BitVec 32)
    (i : ℕ) (k : Fin 128) (n : ℕ) : EReal :=
  if h : n < 800000 then (if (seg (ix2 ⟨n, h⟩ ⟨0, Nat.one_pos⟩)).toNat = i then neigh (ix2 ⟨n, h⟩ k) else 0) else 0

/-- The credit of a node is the sum of the edges' credits over the edge numbers. -/
theorem credited_eq_range (neigh : (⟨2, ![800000, 128]⟩ : Shape).Idx → EReal) (seg : (⟨2, ![800000, 1]⟩ : Shape).Idx → BitVec 32)
    (i : ℕ) (k : Fin 128) :
    credited neigh seg i k = ∑ n ∈ Finset.range 800000, edgeCredit neigh seg i k n := by
  rw [← Fin.sum_univ_eq_sum_range]
  refine Finset.sum_congr rfl fun e _ => ?_
  unfold edgeCredit
  rw [dif_pos e.isLt]

/-- Node number i's share of the result at feature d: the positive part of its pre-activation, masked. -/
def nodeTerm (self : (⟨2, ![51200, 128]⟩ : Shape).Idx → EReal) (neigh : (⟨2, ![800000, 128]⟩ : Shape).Idx → EReal)
    (seg : (⟨2, ![800000, 1]⟩ : Shape).Idx → BitVec 32) (W M : (⟨2, ![128, 128]⟩ : Shape).Idx → EReal) (d : Fin 128) (i : ℕ) : EReal :=
  max ((∑ k : Fin 128, rowAt self i k * W (ix2 d k)) + ∑ k : Fin 128, credited neigh seg i k * M (ix2 d k)) 0
    * (if i < 50000 then 1 else 0)

/-- The result is the sum of the nodes' shares over the node numbers. -/
theorem combine_eq_range (self : (⟨2, ![51200, 128]⟩ : Shape).Idx → EReal) (neigh : (⟨2, ![800000, 128]⟩ : Shape).Idx → EReal)
    (seg : (⟨2, ![800000, 1]⟩ : Shape).Idx → BitVec 32) (W M : (⟨2, ![128, 128]⟩ : Shape).Idx → EReal) (d : Fin 128) :
    combine self neigh seg W M (ix1 d) = ∑ i ∈ Finset.range 51200, nodeTerm self neigh seg W M d i := by
  rw [← Fin.sum_univ_eq_sum_range]
  refine Finset.sum_congr rfl fun i _ => ?_
  unfold nodeTerm preAct
  have e : ∀ k : Fin 128, rowAt self i.val k = self (ix2 i k) := fun k => by unfold rowAt; rw [dif_pos i.isLt]
  simp only [e]

/-- One edge tile's credit to a node, read through the tile's blocks, is the sum of its 4000 edges' credits. -/
theorem tileCredit_eq (neigh : (⟨2, ![800000, 128]⟩ : Shape).Idx → EReal) (seg : (⟨2, ![800000, 1]⟩ : Shape).Idx → BitVec 32)
    (segb : (⟨2, ![4000, 1]⟩ : Shape).Idx → BitVec 32) (xb : (⟨2, ![4000, 128]⟩ : Shape).Idx → EReal)
    (m : ℕ) (hm : m < 200) (node : ℕ) (k : Fin 128)
    (hseg : ∀ e : Fin 4000, segb (ix2 e ⟨0, Nat.one_pos⟩) = seg (ix2 ⟨4000 * m + e.val, by have := e.isLt; omega⟩ ⟨0, Nat.one_pos⟩))
    (hx : ∀ e : Fin 4000, xb (ix2 e k) = neigh (ix2 ⟨4000 * m + e.val, by have := e.isLt; omega⟩ k)) :
    (∑ e : Fin 4000, if (segb (ix2 e ⟨0, Nat.one_pos⟩)).toNat = node then xb (ix2 e k) else 0)
      = ∑ n ∈ Finset.range 4000, edgeCredit neigh seg node k (4000 * m + n) := by
  rw [← Fin.sum_univ_eq_sum_range]
  refine Finset.sum_congr rfl fun e _ => ?_
  unfold edgeCredit
  rw [dif_pos (by have := e.isLt; omega), hseg e, hx e]

/-- One node tile's finish, read through the tile's block, the two weight blocks and the finished accumulator, is the
    sum of its 1024 nodes' shares. -/
theorem tileFinish_eq (self : (⟨2, ![51200, 128]⟩ : Shape).Idx → EReal) (neigh : (⟨2, ![800000, 128]⟩ : Shape).Idx → EReal)
    (seg : (⟨2, ![800000, 1]⟩ : Shape).Idx → BitVec 32) (W M : (⟨2, ![128, 128]⟩ : Shape).Idx → EReal)
    (selfb acc : (⟨2, ![1024, 128]⟩ : Shape).Idx → EReal) (Wb Mb : (⟨2, ![128, 128]⟩ : Shape).Idx → EReal)
    (n : ℕ) (hn : n < 50) (d : Fin 128)
    (hself : ∀ (q : Fin 1024) (k : Fin 128), selfb (ix2 q k) = self (ix2 ⟨1024 * n + q.val, by have := q.isLt; omega⟩ k))
    (hacc : ∀ (q : Fin 1024) (k : Fin 128), acc (ix2 q k) = credited neigh seg (1024 * n + q.val) k)
    (hW : ∀ a b : Fin 128, Wb (ix2 a b) = W (ix2 a b)) (hM : ∀ a b : Fin 128, Mb (ix2 a b) = M (ix2 a b)) :
    (∑ q : Fin 1024, max ((∑ k : Fin 128, selfb (ix2 q k) * Wb (ix2 d k)) + ∑ k : Fin 128, acc (ix2 q k) * Mb (ix2 d k)) 0
        * (if 1024 * n + q.val < 50000 then 1 else 0))
      = ∑ q ∈ Finset.range 1024, nodeTerm self neigh seg W M d (1024 * n + q) := by
  rw [← Fin.sum_univ_eq_sum_range]
  refine Finset.sum_congr rfl fun q _ => ?_
  unfold nodeTerm
  have e : ∀ k : Fin 128, rowAt self (1024 * n + q.val) k = selfb (ix2 q k) := fun k => by
    unfold rowAt; rw [dif_pos (by have := q.isLt; omega), hself q k]
  simp only [e, hacc, hW, hM]

/-- The first tile of a run of tiles: its 4000 terms are the terms below 4000. -/
theorem sum_first_tile (f : ℕ → EReal) (m : ℕ) (h : m = 0) :
    ∑ j ∈ Finset.range 4000, f (4000 * m + j) = ∑ j ∈ Finset.range (4000 * (m + 1)), f j := by
  subst h
  simp only [Nat.mul_zero, Nat.zero_add, Nat.mul_one]

/-! ## The grid's points -/

theorem N2 : cfg2.N = 10000 := N_2

/-- Point number n's node tile. -/
theorem node_tile (n : ℕ) (hn : n < cfg2.N) : (grid2.coords ⟨n, hn⟩ 0).val = n / 200 := by
  have hN : n < 10000 := lt_of_lt_of_eq hn N2
  show n / grid2.stride 0 % grid2.bound 0 = _
  have h1 : grid2.stride 0 = 200 := by decide
  have h2 : grid2.bound 0 = 50 := rfl
  rw [h1, h2]; omega

/-- Point number n's edge tile. -/
theorem edge_tile (n : ℕ) (hn : n < cfg2.N) : (grid2.coords ⟨n, hn⟩ 1).val = n % 200 := by
  show n / grid2.stride 1 % grid2.bound 1 = _
  have h1 : grid2.stride 1 = 1 := by decide
  have h2 : grid2.bound 1 = 200 := rfl
  rw [h1, h2, Nat.div_one]

/-- A one-bit word widened and tested against zero is set exactly when the bit is. -/
theorem bit_test : ∀ A : BitVec 1, Scalar.cmpi .ne (Scalar.extui A) (0#32) = 1#1 ↔ A = 1#1 := by decide
/-- The conjunction of two one-bit words is set exactly when both are. -/
theorem and_test : ∀ A B : BitVec 1, Scalar.andi A B = 1#1 ↔ (A = 1#1 ∧ B = 1#1) := by decide
/-- A tile number's word against the constants the body compares it with. -/
theorem edge_is0 : ∀ v : Fin 200, Scalar.cmpi .eq (BitVec.ofNat 32 v.val) (0#32) = 1#1 ↔ v.val = 0 := by decide +kernel
theorem edge_is199 : ∀ v : Fin 200, Scalar.cmpi .eq (BitVec.ofNat 32 v.val) (199#32) = 1#1 ↔ v.val = 199 := by decide +kernel
theorem node_is0 : ∀ v : Fin 50, Scalar.cmpi .eq (BitVec.ofNat 32 v.val) (0#32) = 1#1 ↔ v.val = 0 := by decide +kernel
theorem node_is49 : ∀ v : Fin 50, Scalar.cmpi .eq (BitVec.ofNat 32 v.val) (49#32) = 1#1 ↔ v.val = 49 := by decide +kernel

/-- The row-sum scratch is reset at the very first point, -/
theorem reset_glob_iff (n : ℕ) (hn : n < cfg2.N) : c2_1 (grid2.coords ⟨n, hn⟩) ↔ n = 0 := by
  have hN : n < 10000 := lt_of_lt_of_eq hn N2
  refine (bit_test _).trans ((and_test _ _).trans
    ((and_congr (node_is0 (grid2.coords ⟨n, hn⟩ 0)) (edge_is0 (grid2.coords ⟨n, hn⟩ 1))).trans ?_))
  rw [node_tile, edge_tile]; omega

/-- the accumulator at the first edge tile of every node tile, -/
theorem reset_acc_iff (n : ℕ) (hn : n < cfg2.N) : c2_2 (grid2.coords ⟨n, hn⟩) ↔ n % 200 = 0 := by
  refine (bit_test _).trans ((edge_is0 (grid2.coords ⟨n, hn⟩ 1)).trans ?_)
  rw [edge_tile]

/-- a node tile is finished at its last edge tile, -/
theorem finish_iff (n : ℕ) (hn : n < cfg2.N) : c2_3 (grid2.coords ⟨n, hn⟩) ↔ n % 200 = 199 := by
  refine (bit_test _).trans ((edge_is199 (grid2.coords ⟨n, hn⟩ 1)).trans ?_)
  rw [edge_tile]

/-- and the result is stored at the very last point. -/
theorem store_iff (n : ℕ) (hn : n < cfg2.N) : c2_4 (grid2.coords ⟨n, hn⟩) ↔ n = 9999 := by
  have hN : n < 10000 := lt_of_lt_of_eq hn N2
  show Scalar.cmpi .ne (Scalar.extui (Scalar.andi (Scalar.cmpi .eq (BitVec.ofNat 32 (grid2.coords ⟨n, hn⟩ 0).val) (49#32))
      (Scalar.cmpi .eq (BitVec.ofNat 32 (grid2.coords ⟨n, hn⟩ 1).val) (199#32)))) (0#32) = 1#1 ↔ _
  refine (bit_test _).trans ((and_test _ _).trans
    ((and_congr (node_is49 (grid2.coords ⟨n, hn⟩ 0)) (edge_is199 (grid2.coords ⟨n, hn⟩ 1))).trans ?_))
  rw [node_tile, edge_tile]; omega

/-- The word of a number below 2^32 reads back as the number. -/
theorem word_toNat (v : ℕ) (hv : v < 10000) : (BitVec.ofNat 32 v).toNat = v := by
  rw [BitVec.toNat_ofNat]; exact Nat.mod_eq_of_lt (by omega)

/-- The windows' block indices: the node rows move with the node tile, the edge rows and segment words with the edge
    tile, the weights and the result stay. -/
theorem self_index (n : ℕ) (hn : n < cfg2.N) :
    win2_0.index ⟨n, hn⟩ (0 : Fin 2) = n / 200 ∧ win2_0.index ⟨n, hn⟩ (1 : Fin 2) = 0 := by
  have hN : n < 10000 := lt_of_lt_of_eq hn N2
  refine ⟨?_, rfl⟩
  show (BitVec.ofNat 32 (grid2.coords ⟨n, hn⟩ 0).val).toNat = _
  rw [node_tile, word_toNat _ (by omega)]
theorem feat_index (n : ℕ) (hn : n < cfg2.N) :
    win2_1.index ⟨n, hn⟩ (0 : Fin 2) = n % 200 ∧ win2_1.index ⟨n, hn⟩ (1 : Fin 2) = 0 := by
  refine ⟨?_, rfl⟩
  show (BitVec.ofNat 32 (grid2.coords ⟨n, hn⟩ 1).val).toNat = _
  rw [edge_tile, word_toNat _ (by omega)]
theorem seg_index (n : ℕ) (hn : n < cfg2.N) :
    win2_2.index ⟨n, hn⟩ (0 : Fin 2) = n % 200 ∧ win2_2.index ⟨n, hn⟩ (1 : Fin 2) = 0 := by
  refine ⟨?_, rfl⟩
  show (BitVec.ofNat 32 (grid2.coords ⟨n, hn⟩ 1).val).toNat = _
  rw [edge_tile, word_toNat _ (by omega)]
theorem W_index (t : Fin cfg2.N) : win2_3.index t (0 : Fin 2) = 0 ∧ win2_3.index t (1 : Fin 2) = 0 := ⟨rfl, rfl⟩
theorem M_index (t : Fin cfg2.N) : win2_4.index t (0 : Fin 2) = 0 ∧ win2_4.index t (1 : Fin 2) = 0 := ⟨rfl, rfl⟩
theorem out_index (t : Fin cfg2.N) : win2_5.index t (0 : Fin 1) = 0 := rfl

/-! ## The arrays and the blocks, at their literal types -/

variable (V : (c : Dev nD) → (b : Ref sig .tc) → Buf (Elt Ideal) ((c : Thread nD τ).loc b))

/-- The node rows, the edge rows, the segment words and the two weight matrices as the stage finds them. -/
abbrev selfA (c : Dev nD) : S51200x128.Idx → EReal := V c main_v6
abbrev featA (c : Dev nD) : S800000x128.Idx → EReal := V c main_v7
abbrev segA (c : Dev nD) : S800000x1.Idx → BitVec 32 := V c main_v5
abbrev WA (c : Dev nD) : S128x128.Idx → EReal := V c main_arg1
abbrev MA (c : Dev nD) : S128x128.Idx → EReal := V c main_arg2

/-- The five blocks point n reads. -/
abbrev selfB (c : Dev nD) (n : ℕ) (hn : n < cfg2.N) : S1024x128.Idx → EReal := iblk2 (F := Ideal) V c 0 ⟨n, hn⟩
abbrev featB (c : Dev nD) (n : ℕ) (hn : n < cfg2.N) : S4000x128.Idx → EReal := iblk2 (F := Ideal) V c 1 ⟨n, hn⟩
abbrev segB (c : Dev nD) (n : ℕ) (hn : n < cfg2.N) : S4000x1.Idx → BitVec 32 := iblk2 (F := Ideal) V c 2 ⟨n, hn⟩
abbrev WB (c : Dev nD) (n : ℕ) (hn : n < cfg2.N) : S128x128.Idx → EReal := iblk2 (F := Ideal) V c 3 ⟨n, hn⟩
abbrev MB (c : Dev nD) (n : ℕ) (hn : n < cfg2.N) : S128x128.Idx → EReal := iblk2 (F := Ideal) V c 4 ⟨n, hn⟩

/-! ## The blocks read off the arrays: a block's coordinate is its index times its size plus the coordinate inside -/

/-- Row q of node tile n / 200. -/
theorem selfB_apply (c : Dev nD) (n : ℕ) (hn : n < cfg2.N) (q : Fin 1024) (k : Fin 128) :
    selfB V c n hn (ix2 q k)
      = selfA V c (ix2 ⟨1024 * (n / 200) + q.val, by have := q.isLt; have := N2; omega⟩ k) := by
  obtain ⟨e0, e1⟩ := self_index n hn
  show selfA V c (((cfg2.win 0).blk ⟨n, hn⟩).view.emb (ix2 q k)) = _
  refine congrArg (selfA V c) ?_
  funext a; apply Fin.ext
  match a with
  | ⟨0, _⟩ => show win2_0.index ⟨n, hn⟩ (0 : Fin 2) * 1024 + 1 * q.val = 1024 * (n / 200) + q.val; rw [e0]; omega
  | ⟨1, _⟩ => show win2_0.index ⟨n, hn⟩ (1 : Fin 2) * 128 + 1 * k.val = k.val; rw [e1]; omega

/-- Edge e of edge tile n % 200, its features. -/
theorem featB_apply (c : Dev nD) (n : ℕ) (hn : n < cfg2.N) (e : Fin 4000) (k : Fin 128) :
    featB V c n hn (ix2 e k)
      = featA V c (ix2 ⟨4000 * (n % 200) + e.val, by have := e.isLt; omega⟩ k) := by
  obtain ⟨e0, e1⟩ := feat_index n hn
  show featA V c (((cfg2.win 1).blk ⟨n, hn⟩).view.emb (ix2 e k)) = _
  refine congrArg (featA V c) ?_
  funext a; apply Fin.ext
  match a with
  | ⟨0, _⟩ => show win2_1.index ⟨n, hn⟩ (0 : Fin 2) * 4000 + 1 * e.val = 4000 * (n % 200) + e.val; rw [e0]; omega
  | ⟨1, _⟩ => show win2_1.index ⟨n, hn⟩ (1 : Fin 2) * 128 + 1 * k.val = k.val; rw [e1]; omega

/-- Edge e of edge tile n % 200, its segment word. -/
theorem segB_apply (c : Dev nD) (n : ℕ) (hn : n < cfg2.N) (e : Fin 4000) :
    segB V c n hn (ix2 e ⟨0, Nat.one_pos⟩)
      = segA V c (ix2 ⟨4000 * (n % 200) + e.val, by have := e.isLt; omega⟩ ⟨0, Nat.one_pos⟩) := by
  obtain ⟨e0, e1⟩ := seg_index n hn
  show segA V c (((cfg2.win 2).blk ⟨n, hn⟩).view.emb (ix2 e ⟨0, Nat.one_pos⟩)) = _
  refine congrArg (segA V c) ?_
  funext a; apply Fin.ext
  match a with
  | ⟨0, _⟩ => show win2_2.index ⟨n, hn⟩ (0 : Fin 2) * 4000 + 1 * e.val = 4000 * (n % 200) + e.val; rw [e0]; omega
  | ⟨1, _⟩ => show win2_2.index ⟨n, hn⟩ (1 : Fin 2) * 1 + 1 * 0 = 0; rw [e1]

/-- The first weight matrix, whole. -/
theorem WB_apply (c : Dev nD) (n : ℕ) (hn : n < cfg2.N) (a b : Fin 128) :
    WB V c n hn (ix2 a b) = WA V c (ix2 a b) := by
  obtain ⟨e0, e1⟩ := W_index ⟨n, hn⟩
  show WA V c (((cfg2.win 3).blk ⟨n, hn⟩).view.emb (ix2 a b)) = _
  refine congrArg (WA V c) ?_
  funext x; apply Fin.ext
  match x with
  | ⟨0, _⟩ => show win2_3.index ⟨n, hn⟩ (0 : Fin 2) * 128 + 1 * a.val = a.val; rw [e0]; omega
  | ⟨1, _⟩ => show win2_3.index ⟨n, hn⟩ (1 : Fin 2) * 128 + 1 * b.val = b.val; rw [e1]; omega

/-- The second weight matrix, whole. -/
theorem MB_apply (c : Dev nD) (n : ℕ) (hn : n < cfg2.N) (a b : Fin 128) :
    MB V c n hn (ix2 a b) = MA V c (ix2 a b) := by
  obtain ⟨e0, e1⟩ := M_index ⟨n, hn⟩
  show MA V c (((cfg2.win 4).blk ⟨n, hn⟩).view.emb (ix2 a b)) = _
  refine congrArg (MA V c) ?_
  funext x; apply Fin.ext
  match x with
  | ⟨0, _⟩ => show win2_4.index ⟨n, hn⟩ (0 : Fin 2) * 128 + 1 * a.val = a.val; rw [e0]; omega
  | ⟨1, _⟩ => show win2_4.index ⟨n, hn⟩ (1 : Fin 2) * 128 + 1 * b.val = b.val; rw [e1]; omega

/-! ## One run of the body, read at an index -/

theorem coord0_lt (n : ℕ) (hn : n < cfg2.N) : (grid2.coords ⟨n, hn⟩ 0).val < 50 := (grid2.coords ⟨n, hn⟩ 0).isLt

/-- The accumulator after point n's body: what it held (nothing at the first edge tile) plus the credit of the
    point's 4000 edges. -/
theorem acc'_apply (c : Dev nD) (n : ℕ) (hn : n < cfg2.N) (a0 : S1024x128.Idx → EReal) (q : Fin 1024) (k : Fin 128) :
    acc' (F := Ideal) (grid2.coords ⟨n, hn⟩) (featB V c n hn) (segB V c n hn) a0 (ix2 q k)
      = (if n % 200 = 0 then 0 else a0 (ix2 q k))
        + ∑ j ∈ Finset.range 4000, edgeCredit (featA V c) (segA V c) (1024 * (n / 200) + q.val) k (4000 * (n % 200) + j) := by
  have e0 := node_tile n hn
  have h2 := reset_acc_iff n hn
  unfold acc'
  refine (stage2_pay4_apply (grid2.coords ⟨n, hn⟩) (coord0_lt n hn) (segB V c n hn) (featB V c n hn)
    (if c2_2 (grid2.coords ⟨n, hn⟩) then k2_pay3 (F := Ideal) else a0) q k).trans ?_
  refine congrArg₂ (· + ·) ?_ ?_
  · by_cases h : n % 200 = 0
    · rw [if_pos h, if_pos (h2.mpr h)]; exact stage2_pay3_apply _
    · rw [if_neg h, if_neg (mt h2.mp h)]
  · rw [e0]
    exact tileCredit_eq (featA V c) (segA V c) (segB V c n hn) (featB V c n hn) (n % 200) (Nat.mod_lt n (by norm_num))
      (1024 * (n / 200) + q.val) k (fun e => segB_apply V c n hn e) (fun e => featB_apply V c n hn e k)

/-- The row-sum scratch the finish finds. -/
theorem glob0_apply (n : ℕ) (hn : n < cfg2.N) (g0 : S1x128.Idx → EReal) (d : Fin 128) :
    glob0 (F := Ideal) (grid2.coords ⟨n, hn⟩) g0 (ix2 ⟨0, Nat.one_pos⟩ d) = if n = 0 then 0 else g0 (ix2 ⟨0, Nat.one_pos⟩ d) := by
  have h1 := reset_glob_iff n hn
  unfold glob0
  by_cases h : n = 0
  · rw [if_pos h, if_pos (h1.mpr h)]; exact stage2_pay2_apply _
  · rw [if_neg h, if_neg (mt h1.mp h)]

/-- The row-sum scratch after point n's body: what it held (nothing at the first point) plus, at the last edge tile,
    the shares of the node tile's 1024 nodes — given that the accumulator then holds the nodes' whole credit. -/
theorem glob'_apply (c : Dev nD) (n : ℕ) (hn : n < cfg2.N) (a0 : S1024x128.Idx → EReal) (g0 : S1x128.Idx → EReal) (d : Fin 128)
    (hacc : n % 200 = 199 → ∀ (q : Fin 1024) (k : Fin 128),
      acc' (F := Ideal) (grid2.coords ⟨n, hn⟩) (featB V c n hn) (segB V c n hn) a0 (ix2 q k)
        = credited (featA V c) (segA V c) (1024 * (n / 200) + q.val) k) :
    glob' (F := Ideal) (grid2.coords ⟨n, hn⟩) (selfB V c n hn) (featB V c n hn) (segB V c n hn) (WB V c n hn) (MB V c n hn) a0 g0
        (ix2 ⟨0, Nat.one_pos⟩ d)
      = (if n = 0 then 0 else g0 (ix2 ⟨0, Nat.one_pos⟩ d))
        + (if n % 200 = 199 then
            ∑ q ∈ Finset.range 1024, nodeTerm (selfA V c) (featA V c) (segA V c) (WA V c) (MA V c) d (1024 * (n / 200) + q)
          else 0) := by
  have e0 := node_tile n hn
  have h3 := finish_iff n hn
  unfold glob'
  by_cases h : n % 200 = 199
  · rw [if_pos (h3.mpr h), if_pos h]
    refine (stage2_pay5_apply (grid2.coords ⟨n, hn⟩) (coord0_lt n hn) (selfB V c n hn) (WB V c n hn) (MB V c n hn)
      (acc' (F := Ideal) (grid2.coords ⟨n, hn⟩) (featB V c n hn) (segB V c n hn) a0)
      (glob0 (F := Ideal) (grid2.coords ⟨n, hn⟩) g0) d).trans ?_
    refine congrArg₂ (· + ·) (glob0_apply n hn g0 d) ?_
    rw [e0]
    exact tileFinish_eq (selfA V c) (featA V c) (segA V c) (WA V c) (MA V c) (selfB V c n hn)
      (acc' (F := Ideal) (grid2.coords ⟨n, hn⟩) (featB V c n hn) (segB V c n hn) a0) (WB V c n hn) (MB V c n hn)
      (n / 200) (by have := N2; omega) d (fun q k => selfB_apply V c n hn q k) (hacc h)
      (fun a b => WB_apply V c n hn a b) (fun a b => MB_apply V c n hn a b)
  · rw [if_neg (mt h3.mp h), if_neg h, add_zero]
    exact glob0_apply n hn g0 d

/-! ## The two scratch buffers after every point -/

/-- The accumulator after point n: at row q, what the edges below 4000·(n % 200 + 1) credit to node
    1024·(n / 200) + q. -/
theorem accAt_eq (c : Dev nD) : ∀ (n : ℕ) (hn : n < cfg2.N) (q : Fin 1024) (k : Fin 128),
    (accAt (F := Ideal) V c n hn : S1024x128.Idx → EReal) (ix2 q k)
      = ∑ j ∈ Finset.range (4000 * (n % 200 + 1)), edgeCredit (featA V c) (segA V c) (1024 * (n / 200) + q.val) k j
  | 0, hn, q, k => by
    rw [accAt_zero]
    refine (acc'_apply V c 0 hn (k2_pay3 (F := Ideal)) q k).trans ?_
    rw [if_pos (Nat.zero_mod 200), zero_add]
    exact sum_first_tile _ (0 % 200) (Nat.zero_mod 200)
  | n + 1, hn, q, k => by
    rw [accAt_succ]
    refine (acc'_apply V c (n + 1) hn (accAt (F := Ideal) V c n (Nat.lt_of_succ_lt hn)) q k).trans ?_
    by_cases h : (n + 1) % 200 = 0
    · rw [if_pos h, zero_add]
      exact sum_first_tile _ ((n + 1) % 200) h
    · rw [if_neg h, accAt_eq c n (Nat.lt_of_succ_lt hn) q k]
      have h1 : (n + 1) / 200 = n / 200 := by omega
      have h2 : (n + 1) % 200 = n % 200 + 1 := by omega
      have h3 : 4000 * (n % 200 + 1 + 1) = 4000 * (n % 200 + 1) + 4000 := by omega
      rw [h1, h2, h3, Finset.sum_range_add]

/-- At the last edge tile the accumulator holds each node's whole credit. -/
theorem accAt_last (c : Dev nD) (n : ℕ) (hn : n < cfg2.N) (h : n % 200 = 199) (q : Fin 1024) (k : Fin 128) :
    (accAt (F := Ideal) V c n hn : S1024x128.Idx → EReal) (ix2 q k)
      = credited (featA V c) (segA V c) (1024 * (n / 200) + q.val) k := by
  have e8 : 4000 * (199 + 1) = 800000 := by norm_num
  rw [accAt_eq V c n hn q k, h, e8, credited_eq_range]

/-- The row-sum scratch after point n: the sum of the shares of the nodes of the tiles finished so far. -/
theorem globAt_eq (c : Dev nD) : ∀ (n : ℕ) (hn : n < cfg2.N) (d : Fin 128),
    (globAt (F := Ideal) V c n hn : S1x128.Idx → EReal) (ix2 ⟨0, Nat.one_pos⟩ d)
      = ∑ i ∈ Finset.range (1024 * ((n + 1) / 200)), nodeTerm (selfA V c) (featA V c) (segA V c) (WA V c) (MA V c) d i
  | 0, hn, d => by
    rw [globAt_zero]
    refine (glob'_apply V c 0 hn (k2_pay3 (F := Ideal)) (k2_pay2 (F := Ideal)) d (fun h => absurd h (by norm_num))).trans ?_
    rw [if_pos rfl, if_neg (by norm_num), add_zero]
    have h0 : (0 + 1) / 200 = 0 := by norm_num
    rw [h0, Nat.mul_zero, Finset.range_zero, Finset.sum_empty]
  | n + 1, hn, d => by
    rw [globAt_succ]
    refine (glob'_apply V c (n + 1) hn (accAt (F := Ideal) V c n (Nat.lt_of_succ_lt hn))
      (globAt (F := Ideal) V c n (Nat.lt_of_succ_lt hn)) d (fun h q k => ?_)).trans ?_
    · exact (congrFun (accAt_succ (F := Ideal) V c n hn) (ix2 q k)).symm.trans (accAt_last V c (n + 1) hn h q k)
    · rw [if_neg (Nat.succ_ne_zero n), globAt_eq c n (Nat.lt_of_succ_lt hn) d]
      by_cases h : (n + 1) % 200 = 199
      · rw [if_pos h]
        have h1 : 1024 * ((n + 1 + 1) / 200) = 1024 * ((n + 1) / 200) + 1024 := by omega
        rw [h1, Finset.sum_range_add]
      · rw [if_neg h, add_zero]
        have h1 : (n + 1 + 1) / 200 = (n + 1) / 200 := by omega
        rw [h1]

/-! ## From the last point's write-back to the array -/

/-- After the last point the row-sum scratch holds the final sum. -/
theorem globAt_final (c : Dev nD) (n : ℕ) (hn : n < cfg2.N) (h : n = 9999) (d : Fin 128) :
    (globAt (F := Ideal) V c n hn : S1x128.Idx → EReal) (ix2 ⟨0, Nat.one_pos⟩ d)
      = combine (selfA V c) (featA V c) (segA V c) (WA V c) (MA V c) (ix1 d) := by
  have e : 1024 * ((9999 + 1) / 200) = 51200 := by norm_num
  rw [globAt_eq V c n hn d, combine_eq_range, h, e]

/-- An index of the result array is in point t's block iff its coordinate is in the block's range. -/
theorem mem_blk5 (t : Fin cfg2.N) (i : S128.Idx) :
    i ∈ ((cfg2.win 5).blk t).view.set
      ↔ ∀ a : Fin 1, win2_5.index t a * S128.size a ≤ (i a).val ∧ (i a).val < win2_5.index t a * S128.size a + S128.size a := by
  show i ∈ ((View.whole main_v8).slice (win2_5.rect t)).set ↔ _
  rw [View.set_slice_whole, Rect.mem_set_unit]
  exact Iff.rfl

/-- What the one point that writes the result back writes is the whole of what the row-sum scratch then holds: any
    function G of the feature that the scratch's row agrees with after the last point. -/
theorem flushed5_eq (c : Dev nD) (G : S128.Idx → EReal)
    (hG : ∀ (n : ℕ) (hn : n < cfg2.N), n = 9999 → ∀ d : Fin 128,
      (globAt (F := Ideal) V c n hn : S1x128.Idx → EReal) (ix2 ⟨0, Nat.one_pos⟩ d) = G (ix1 d))
    (t : Fin cfg2.N) (hf : (cfg2.win 5).flush t = true) :
    (dat2 (F := Ideal) V c).flushed 5 t = ((cfg2.win 5).blk t).view.read (Elt Ideal) G := by
  have ht : t.val = 9999 := by
    have h1 := (flush2_5 t).mp hf
    have h2 := t.isLt
    have h3 := N2
    omega
  have e5 := out_index t
  show (cfg2.win 5).cut (grid2.coords t) ((dat2 (F := Ideal) V c).after 5 t) = _
  rw [after2_5]
  funext y
  have hlt : (y 0).val < 128 := (y 0).isLt
  have hy : (cfg2.win 5).xinj (grid2.coords t) y = ix1 (⟨(y 0).val, hlt⟩ : Fin 128) := by
    funext a
    match a with
    | ⟨0, _⟩ => rfl
  have he : ((cfg2.win 5).blk t).view.emb y = ix1 (⟨(y 0).val, hlt⟩ : Fin 128) := by
    funext a; apply Fin.ext
    match a with
    | ⟨0, _⟩ => show win2_5.index t (0 : Fin 1) * 128 + 1 * (y 0).val = (y 0).val; rw [e5]; omega
  show k2_pay1 (F := Ideal) (globAt (F := Ideal) V c t.val t.isLt) ((cfg2.win 5).xinj (grid2.coords t) y)
    = G (((cfg2.win 5).blk t).view.emb y)
  refine (congrArg (k2_pay1 (F := Ideal) (globAt (F := Ideal) V c t.val t.isLt)) hy).trans ?_
  refine Eq.trans ?_ (congrArg G he).symm
  refine (stage2_pay1_apply (globAt (F := Ideal) V c t.val t.isLt) ⟨(y 0).val, hlt⟩).trans ?_
  exact hG t.val t.isLt ht ⟨(y 0).val, hlt⟩

/-- The last point's block is the whole result array. -/
theorem cover5 (i : S128.Idx) : ∃ t : Fin cfg2.N, (cfg2.win 5).flush t = true ∧ i ∈ ((cfg2.win 5).blk t).view.set := by
  have hN : (9999 : ℕ) < cfg2.N := by rw [N2]; norm_num
  have e5 := out_index ⟨9999, hN⟩
  refine ⟨⟨9999, hN⟩, (flush2_5 ⟨9999, hN⟩).mpr (by norm_num), ?_⟩
  rw [mem_blk5]
  intro a
  match a with
  | ⟨0, _⟩ =>
    show win2_5.index ⟨9999, hN⟩ (0 : Fin 1) * 128 ≤ (i 0).val ∧ (i 0).val < win2_5.index ⟨9999, hN⟩ (0 : Fin 1) * 128 + 128
    have hi : (i 0).val < 128 := (i 0).isLt
    rw [e5]; omega

/-- The result array after the run is the final sum. -/
theorem arr2_eq (c : Dev nD) :
    ((dat2 (F := Ideal) V c).arrAt 5 cfg2.N : S128.Idx → EReal)
      = Cert.GatherSum.combine (V c main_v6 : S51200x128.Idx → EReal) (V c main_v7 : S800000x128.Idx → EReal)
          (V c main_v5 : S800000x1.Idx → BitVec 32) (V c main_arg1 : S128x128.Idx → EReal) (V c main_arg2 : S128x128.Idx → EReal) :=
  (dat2 (F := Ideal) V c).arrAt_eq_of_cover 5
    (combine (selfA V c) (featA V c) (segA V c) (WA V c) (MA V c))
    (fun t hf => flushed5_eq V c (combine (selfA V c) (featA V c) (segA V c) (WA V c) (MA V c))
      (fun n hn h d => globAt_final V c n hn h d) t hf)
    (fun i => cover5 i)

end Cert.KernelIdeal.Val

end
-- ==== Proof.KVal.lean ====
/-
  The value of the whole program over the extended reals, as one equation: after the run the result buffer holds the
  closing function (each exponential of an entry's difference from the maximum, over the exponentials' total) of the
  gather-and-sum `total` of the six argument arrays.

  The buffer contents at each boundary of the run are a fold. Read from the end: the closing stretch applies the
  closing function to the last stage's output; that output is `combine` of the five arrays the stage is entered with;
  of those, two are the first two stages' outputs — the rows of the padded table taken by the padded column of node
  words and by the column of neighbour words —, one is the column of segment words, two are the weight matrices as
  launched. The opening stretches make the padded table (zero rows from 10000 to 10239: its rows are the table's, a row
  past the end being zero either way), the padded column of node words (word `i` at row `i < 50000`), and the two
  columns (word `e` at row `e`). With these readings the masked padded form is the plain form (`combine_take`).
-/
import proofs.«413086_j36112085025448_1_alg».proof.Proof.Run
import proofs.«413086_j36112085025448_1_alg».proof.Proof.Val0
import proofs.«413086_j36112085025448_1_alg».proof.Proof.Val1
import proofs.«413086_j36112085025448_1_alg».proof.Proof.Val2
import proofs.«413086_j36112085025448_1_alg».proof.Proof.Alg
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.ShloMosaic.ValueIdx

/-! ## The closing stretch as one function -/

/-- The exponentials of the entries' differences from their maximum. -/
def tailE (x : Vec Ideal S128 .f32) : Vec Ideal S128 .f32 :=
  Host.exp (F := Ideal) (subf (F := Ideal) x
    (broadcastInDim S128 ![0] bcast_S1_S128_0 (broadcastInDim S1 ![] bcast_S_S1
      (maximumf (F := Ideal) (constant (F := Ideal) S_ .f32 0xFF800000#32)
        (Host.reduce (FloatOps.maximumf (F := Ideal)) x (constant (F := Ideal) S_ .f32 0xFF800000#32) reducesTo_S128_S_d0 h_S_)))))

/-- The closing stretch as one function of the 128 sums: each exponential over the exponentials' total. -/
def tailK (x : Vec Ideal S128 .f32) : Vec Ideal S128 .f32 :=
  Host.divf (F := Ideal) (tailE x) (broadcastInDim S128 ![0] bcast_S1_S128_0 (broadcastInDim S1 ![] bcast_S_S1
      (Host.reduceAdd (F := Ideal) (tailE x) (constant (F := Ideal) S_ .f32 0x00000000#32) reducesTo_S128_S_d0 h_S_)))

/-- The result buffer after the closing stretch, from any contents: the closing function of the 128 sums found there. -/
theorem tail_read (V : Valuation τ sig (Elt Ideal)) :
    (StableHlo.after (hostOps3 (F := Ideal)) V (Proc.devRef .tc main_v18) : S128.Idx → EReal)
      = tailK (V (Proc.devRef .tc main_v8)) := by
  after_results
  rfl

/-! ## The opening stretches: the arrays the stages are entered with -/

/-- The five opening stretches in order, from contents `V`. -/
abbrev hostFold (V : Valuation τ sig (Elt Ideal)) : Valuation τ sig (Elt Ideal) :=
  StableHlo.after hostOps0_4 (StableHlo.after hostOps0_3 (StableHlo.after hostOps0_2 (StableHlo.after hostOps0_1 (StableHlo.after hostOps0 V))))

/-- The table zero-padded to 10240 rows (the rounding to the narrower format is the identity over the extended reals). -/
def tblPadOf (tbl : Vec Ideal S10000x128 .f32) : Vec Ideal S10240x128 .bf16 :=
  truncf (F := Ideal) .bf16 (pad S10240x128 ![0, 0] ![240, 0] ![0, 0] tbl (sitofp (F := Ideal) .f32 (constantI S_ 32 0#32))
    pads_S10000x128_S10240x128_02400_000 h_S_) bitsLt_bf16_f32

/-- The node index words zero-padded to 51200 and set as a column. -/
def idsPadOf (ids : Vec Ideal S50000 .i32) : Vec Ideal S51200x1 .i32 :=
  shapeCast S51200x1 (pad S51200 ![0] ![1200] ![0] ids (id (constantI S_ 32 0#32)) pads_S50000_S51200_012000 h_S_) shapeCasts_S51200_S51200x1

/-- An array of 800000 index words set as a column. -/
def colOf (x : Vec Ideal S800000 .i32) : Vec Ideal S800000x1 .i32 :=
  shapeCast S800000x1 x shapeCasts_S800000_S800000x1

theorem fold_v1 (V : Valuation τ sig (Elt Ideal)) :
    (hostFold V (Proc.devRef .tc main_v1) : S10240x128.Idx → EReal) = tblPadOf (V (Proc.devRef .tc main_arg0)) := by
  after_results
  rfl

theorem fold_v3 (V : Valuation τ sig (Elt Ideal)) :
    (hostFold V (Proc.devRef .tc main_v3) : S51200x1.Idx → BitVec 32) = idsPadOf (V (Proc.devRef .tc main_arg3)) := by
  after_results
  rfl

theorem fold_v4 (V : Valuation τ sig (Elt Ideal)) :
    (hostFold V (Proc.devRef .tc main_v4) : S800000x1.Idx → BitVec 32) = colOf (V (Proc.devRef .tc main_arg4)) := by
  after_results
  rfl

theorem fold_v5 (V : Valuation τ sig (Elt Ideal)) :
    (hostFold V (Proc.devRef .tc main_v5) : S800000x1.Idx → BitVec 32) = colOf (V (Proc.devRef .tc main_arg5)) := by
  after_results
  rfl

theorem fold_arg1 (V : Valuation τ sig (Elt Ideal)) :
    hostFold V (Proc.devRef .tc main_arg1) = V (Proc.devRef .tc main_arg1) := by
  after_results

theorem fold_arg2 (V : Valuation τ sig (Elt Ideal)) :
    hostFold V (Proc.devRef .tc main_arg2) = V (Proc.devRef .tc main_arg2) := by
  after_results

/-! ## The host-made arrays read at an index -/

/-- The padded column of node index words at row `i < 50000` is word `i`: the reshape keeps row-major positions, and
    position `i` is inside the padded array's operand. -/
theorem idsPadOf_apply (ids : Vec Ideal S50000 .i32) (i : Fin 50000) (h : i.val < 51200) :
    idsPadOf ids (ix2 ⟨i.val, h⟩ ⟨0, Nat.one_pos⟩) = ids (ix1 i) := by
  unfold idsPadOf
  refine (shapeCast_apply _ shapeCasts_S51200_S51200x1 _ (ix1 ⟨i.val, h⟩) ?_).trans ?_
  · rw [Shape.rowMajor_val_one, Shape.rowMajor_val_two]
    show i.val = i.val * 1 + 0
    omega
  · exact pad_apply_of_inside _ _ _ _ _ pads_S50000_S51200_012000 h_S_ _ (ix1 i) (fun a => by
      match a with
      | ⟨0, _⟩ => show i.val = 0 + i.val * (0 + 1); omega)

/-- A column of 800000 index words at row `e` is word `e`. -/
theorem colOf_apply (x : Vec Ideal S800000 .i32) (e : Fin 800000) :
    colOf x (ix2 e ⟨0, Nat.one_pos⟩) = x (ix1 e) := by
  unfold colOf
  refine shapeCast_apply _ shapeCasts_S800000_S800000x1 _ (ix1 e) ?_
  rw [Shape.rowMajor_val_one, Shape.rowMajor_val_two]
  show e.val = e.val * 1 + 0
  omega

/-- The padded table's rows are the table's: a row below 10000 is the operand's, a row from 10000 to 10239 is the
    padding value, the integer zero converted, which is zero, as is every row past a table's end. -/
theorem rowAt_tblPadOf (tbl : Vec Ideal S10000x128 .f32) (n : ℕ) (k : Fin 128) :
    Cert.GatherSum.rowAt (tblPadOf tbl) n k = Cert.GatherSum.rowAt tbl n k := by
  unfold Cert.GatherSum.rowAt tblPadOf
  by_cases h1 : n < 10000
  · have h2 : n < 10240 := by omega
    rw [dif_pos h1, dif_pos h2]
    refine (truncf_apply (φ := .f32) (ψ := .bf16) _ bitsLt_bf16_f32 _).trans ?_
    exact pad_apply_of_inside _ _ _ _ _ pads_S10000x128_S10240x128_02400_000 h_S_ _ (ix2 ⟨n, h1⟩ k) (fun a => by
      match a with
      | ⟨0, _⟩ => show n = 0 + n * (0 + 1); omega
      | ⟨1, _⟩ => show k.val = 0 + k.val * (0 + 1); omega)
  · rw [dif_neg h1]
    by_cases h2 : n < 10240
    · rw [dif_pos h2]
      refine (truncf_apply (φ := .f32) (ψ := .bf16) _ bitsLt_bf16_f32 _).trans ?_
      refine (pad_apply_of_not_inside _ _ _ _ _ pads_S10000x128_S10240x128_02400_000 h_S_ _ ⟨0, by decide⟩ ?_).trans ?_
      · intro hc
        have h3 : (n - 0) / (0 + 1) < 10000 := hc.2.2
        omega
      · show ((((0#32 : BitVec 32).toInt : ℝ)) : EReal) = 0
        simp
    · rw [dif_neg h2]

/-! ## The stages' arrays, walked back through the fold to the arguments -/

section Walk

open Cert.KernelIdeal.Run
open Idealize.ShloMosaic.Pipeline (Dat)

variable (m : (ℓ : Loc nD τ sig) → Buf (Elt Ideal) ℓ) (ρ : Dev nD → PrngReg)

/-- The first stage is entered with the padded table. -/
theorem Vin0_v1 (c : Dev nD) :
    (Vin0 m ρ c main_v1 : S10240x128.Idx → EReal) = tblPadOf (m ((c : Thread nD τ).loc main_arg0)) :=
  fold_v1 (W0 m ρ c)

/-- The first stage is entered with the padded column of node index words. -/
theorem Vin0_v3 (c : Dev nD) :
    (Vin0 m ρ c main_v3 : S51200x1.Idx → BitVec 32) = idsPadOf (m ((c : Thread nD τ).loc main_arg3)) :=
  fold_v3 (W0 m ρ c)

/-- The second stage finds the padded table as the first was entered with it: an input array of the first stage. -/
theorem Vin1_v1 (c : Dev nD) :
    (Vin1 m ρ c main_v1 : S10240x128.Idx → EReal) = tblPadOf (m ((c : Thread nD τ).loc main_arg0)) :=
  ((W6_arr m ρ c 1).trans (((dat0 (Vin0 m ρ) c).arrAt_in 1 rfl _).trans (A_eq0 (Vin0 m ρ) c 1))).trans (Vin0_v1 m ρ c)

/-- The second stage is entered with the column of neighbour index words: no array of the first stage. -/
theorem Vin1_v4 (c : Dev nD) :
    (Vin1 m ρ c main_v4 : S800000x1.Idx → BitVec 32) = colOf (m ((c : Thread nD τ).loc main_arg4)) :=
  (W6_of_ne m ρ c main_v4 (by decide)).trans (fold_v4 (W0 m ρ c))

/-- The last stage is entered with the column of segment words: no array of the first two stages. -/
theorem Vin2_v5 (c : Dev nD) :
    (Vin2 m ρ c main_v5 : S800000x1.Idx → BitVec 32) = colOf (m ((c : Thread nD τ).loc main_arg5)) :=
  ((W7_of_ne m ρ c main_v5 (by decide)).trans (W6_of_ne m ρ c main_v5 (by decide))).trans (fold_v5 (W0 m ρ c))

/-- The last stage is entered with the first weight matrix as launched. -/
theorem Vin2_arg1 (c : Dev nD) : Vin2 m ρ c main_arg1 = m ((c : Thread nD τ).loc main_arg1) :=
  ((W7_of_ne m ρ c main_arg1 (by decide)).trans (W6_of_ne m ρ c main_arg1 (by decide))).trans (fold_arg1 (W0 m ρ c))

/-- The last stage is entered with the second weight matrix as launched. -/
theorem Vin2_arg2 (c : Dev nD) : Vin2 m ρ c main_arg2 = m ((c : Thread nD τ).loc main_arg2) :=
  ((W7_of_ne m ρ c main_arg2 (by decide)).trans (W6_of_ne m ρ c main_arg2 (by decide))).trans (fold_arg2 (W0 m ρ c))

/-- The last stage is entered with the first stage's output: the padded table's rows named by the padded node words. -/
theorem Vin2_v6 (c : Dev nD) :
    (Vin2 m ρ c main_v6 : S51200x128.Idx → EReal)
      = Cert.GatherSum.take (idsPadOf (m ((c : Thread nD τ).loc main_arg3))) (tblPadOf (m ((c : Thread nD τ).loc main_arg0))) :=
  ((W7_of_ne m ρ c main_v6 (by decide)).trans (W6_arr m ρ c 2)).trans
    ((arr0_eq (Vin0 m ρ) c).trans (congrArg₂ Cert.GatherSum.take (Vin0_v3 m ρ c) (Vin0_v1 m ρ c)))

/-- The last stage is entered with the second stage's output: the padded table's rows named by the neighbour words. -/
theorem Vin2_v7 (c : Dev nD) :
    (Vin2 m ρ c main_v7 : S800000x128.Idx → EReal)
      = Cert.GatherSum.take (colOf (m ((c : Thread nD τ).loc main_arg4))) (tblPadOf (m ((c : Thread nD τ).loc main_arg0))) :=
  (W7_arr m ρ c 2).trans
    ((arr1_eq (Vin1 m ρ) c).trans (congrArg₂ Cert.GatherSum.take (Vin1_v4 m ρ c) (Vin1_v1 m ρ c)))

/-- The combined sums depend on the five arrays only. -/
theorem combine_congr {a a' : S51200x128.Idx → EReal} {b b' : S800000x128.Idx → EReal} {s s' : S800000x1.Idx → BitVec 32}
    {W W' M M' : S128x128.Idx → EReal} (ha : a = a') (hb : b = b') (hs : s = s') (hW : W = W') (hM : M = M') :
    Cert.GatherSum.combine a b s W M = Cert.GatherSum.combine a' b' s' W' M' := by
  subst ha hb hs hW hM; rfl

/-- THE VALUE: after the run the result buffer holds the closing function of the gather-and-sum of the six arguments. -/
theorem kernel_value (c : Dev nD) :
    (Wfin (F := Ideal) m ρ c (Proc.devRef .tc main_v18) : S128.Idx → EReal)
      = tailK (Cert.GatherSum.total (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))) := by
  refine (tail_read (W8 m ρ c)).trans (congrArg tailK ?_)
  refine ((W8_arr m ρ c 5).trans (arr2_eq (Vin2 m ρ) c)).trans ?_
  refine (combine_congr (Vin2_v6 m ρ c) (Vin2_v7 m ρ c) (Vin2_v5 m ρ c) (Vin2_arg1 m ρ c) (Vin2_arg2 m ρ c)).trans ?_
  exact Cert.GatherSum.combine_take (m ((c : Thread nD τ).loc main_arg0)) (tblPadOf (m ((c : Thread nD τ).loc main_arg0)))
    (m ((c : Thread nD τ).loc main_arg1)) (m ((c : Thread nD τ).loc main_arg2))
    (m ((c : Thread nD τ).loc main_arg3)) (m ((c : Thread nD τ).loc main_arg4)) (m ((c : Thread nD τ).loc main_arg5))
    (idsPadOf (m ((c : Thread nD τ).loc main_arg3))) (colOf (m ((c : Thread nD τ).loc main_arg4))) (colOf (m ((c : Thread nD τ).loc main_arg5)))
    (rowAt_tblPadOf _) (fun i => idsPadOf_apply _ i _) (fun e => colOf_apply _ e) (fun e => colOf_apply _ e)

end Walk

end Cert.KernelIdeal.Val

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.LibWrapTake.lean ====
/-
  Two facts about words, for reading an index range out of a printed predicate and into a printed range mask.

  numpy's wrap of a negative index: for a table of N rows an index x with −N ≤ x < N is sent to x + N when x < 0 and left
  alone otherwise, and the result lies in [0, N − 1]. On 32-bit words read as signed integers, for N up to 2³⁰, the sum
  does not wrap around, so the word computed by "select (x < 0) (x + N) x" has that signed value.
  An and-reduction of one-bit words that are all 1, from an initial value 1, is 1 at every result index.
-/
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

/-- The wrapped index lies in the table: from −N ≤ x < N (signed), the word "x + N if x < 0, else x" is in [0, N − 1]. -/
theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- An and-reduction of an array of 1s from the initial value 1 is 1 everywhere. -/
theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.LibScatterGather.lean ====
/-
  A scatter that adds rows into a table, and a take from a vector, read at an index.

  `jax.ops.segment_sum(u, seg, num_segments = N)` over n update rows is a `stablehlo.scatter` with an `add` body whose
  scatter indices are the [n × 1] column of segment numbers: the table's axis 0 is the inserted, scatter-indexed axis
  (and, for a rank-2 table, its axis 1 is the update's one window axis), and the index vector lies on axis 1 of the
  scatter indices. At the extended reals its entry (v, j) is the table's entry plus the sum of the update entries
  (e, j) over the rows e whose segment number, read signed, is v; a row whose number is not a row of the table is
  dropped. `vec[idx]` over a vector of length N and n positions is the `stablehlo.gather` with the same index column,
  the vector's one axis collapsed and start-indexed: entry p is the vector at position p's index read signed and
  clamped into 0 … N − 1.
-/
import Idealize.ShloMosaic.Lib.ValueIdx
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

/-- WHERE AN UPDATE LANDS. Update index `j` lands at operand index `i` exactly when on every operand axis the start
    (read signed) plus the window coordinate is `i`'s coordinate; a sum outside the operand lands nowhere. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

/-- A rank-1 index set is its one coordinate's range. -/
def idxFin1 {n : Nat} : (⟨1, ![n]⟩ : Shape).Idx ≃ Fin n where
  toFun i := i 0
  invFun a := ix1 a
  left_inv i := (eq_ix1 i).symm
  right_inv _ := rfl

/-- The start of update (e, c)'s window on the table's axis 0 is row e's scatter index read signed. -/
theorem rows_start0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (e : Fin n) (c : Fin C) :
    d.start (ix2 e c) idx 0 = (idx (ix2 e (0 : Fin 1))).toInt := by
  -- the update's axis 1 is its window axis, so each of its scatter axes is axis 0
  have hAll : ∀ y ∈ d.uScatter, y = 0 := by
    intro y hy
    have h1 : y ∉ d.updateWindowDims := by have h0 := (List.mem_filter.1 hy).2; simpa using h0
    rw [huw] at h1
    have h2 : y ≠ 1 := fun e => h1 (List.mem_singleton.2 e)
    apply Fin.ext
    have h3 : y.val ≠ 1 := fun e => h2 (Fin.ext e)
    have := y.isLt
    show y.val = 0
    change y.val < 2 at this
    omega
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

/-- Update (e, c) lands at entry (v, j) of the table exactly when row e's scatter index, read signed, is v and its
    column c is j: axis 0 of the table is inserted (start only), axis 1 carries the window coordinate (no start). -/
theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [rows_start0 d huw hsd hivd, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [rows_start0 d huw hsd hivd, hw0, h]
      simp
    | ⟨1, _⟩ =>
      show d.start (ix2 e c) idx 1 + (d.window (ix2 e c) 1 : ℤ) = (c.val : ℤ)
      rw [hs1, hw1]
      simp

/-- ROWS ADDED INTO A TABLE. An accumulating scatter into an [N × C] table of n update rows [n × C] at an [n × 1]
    column of row numbers (`huw` … `hivd`: the printed dimension numbers, each by `rfl`), at the extended reals:
    entry (v, j) is the table's plus the sum over the update rows e whose number, read signed, is v, of the update's
    entry (e, j). -/
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1
  -- the filtered sum as a sum over all update entries, row by row
  rw [Finset.sum_filter, sum_idx2]
  refine Finset.sum_congr rfl (fun e _ => ?_)
  by_cases hc : (idx (ix2 e (0 : Fin 1))).toInt = (v.val : ℤ)
  · -- a row whose number is v gives its entry in column j and nothing else
    rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  · -- a row whose number is not v gives nothing
    rw [if_neg hc]
    apply Finset.sum_eq_zero
    intro c _
    rw [if_neg (fun h => hc ((rows_lands d huw hiw hsd hivd idx e c v j).1 h).1)]

/-- The start of update e's window on the vector's axis is its scatter index read signed. -/
theorem vec_start {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (e : Fin n) :
    d.start (ix1 e) idx 0 = (idx (ix2 e (0 : Fin 1))).toInt := by
  -- the update has one axis, so each of its scatter axes is axis 0
  have hAll : ∀ y ∈ d.uScatter, y = 0 := by
    intro y _
    apply Fin.ext
    have := y.isLt
    change y.val < 1 at this
    show y.val = 0
    omega
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 1) d.scatterDimsToOperandDims = 0
    rw [hsd]; simp

/-- Update e lands at position v of the vector exactly when its scatter index, read signed, is v. -/
theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  rw [resultIdx?_eq_some_iff]
  -- the vector's axis is inserted: no window coordinate on it
  have hk : (0 : Fin 1) ∉ d.sKept := by
    intro h
    have h0 := (List.mem_filter.1 h).2
    rw [hiw] at h0
    simp at h0
  have hw : d.window (ix1 e) 0 = 0 := by unfold ScatterDims.window; rw [dif_neg hk]
  constructor
  · intro h
    have h0 : d.start (ix1 e) idx 0 + (d.window (ix1 e) 0 : ℤ) = (v.val : ℤ) := h 0
    rw [vec_start d hsd hivd, hw] at h0
    simpa using h0
  · intro h a
    match a with
    | ⟨0, _⟩ =>
      show d.start (ix1 e) idx 0 + (d.window (ix1 e) 0 : ℤ) = _
      rw [vec_start d hsd hivd, hw, h]
      simp

/-- ENTRIES ADDED INTO A VECTOR. The same for a vector of length N and n scalar updates (no window axis). -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]
  -- the update indices are the numbers of the updates
  refine Fintype.sum_equiv idxFin1 _ _ (fun j => ?_)
  obtain ⟨e, rfl⟩ : ∃ e : Fin n, j = ix1 e := ⟨j 0, eq_ix1 j⟩
  change _ = if (idx (ix2 e (0 : Fin 1))).toInt = (v.val : ℤ) then upd (ix1 e) else 0
  by_cases hc : (idx (ix2 e (0 : Fin 1))).toInt = (v.val : ℤ)
  · rw [if_pos hc, if_pos ((vec_lands d hiw hsd hivd idx e v).2 hc)]
  · rw [if_neg hc, if_neg (fun h => hc ((vec_lands d hiw hsd hivd idx e v).1 h))]

/-- A TAKE FROM A VECTOR. A gather from a vector of length N at an [n × 1] column of start indices, the vector's
    axis collapsed and start-indexed, no offset and no batching axes, the index vector on axis 1: entry p is the
    vector at position p's start index read SIGNED and CLAMPED into 0 … N − 1. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  -- the result has one axis, so each of its batch axes is axis 0
  have hbatchAll : ∀ y ∈ d.batchDims, y = 0 := by
    intro y _
    apply Fin.ext
    have := y.isLt
    change y.val < 1 at this
    show y.val = 0
    omega
  have hb : ∀ a : Fin 1, a ∉ d.operandBatchingDims := by intro a; rw [hob]; exact List.not_mem_nil
  funext a
  apply Fin.ext
  match a with
  | ⟨0, _⟩ =>
    -- the vector's one axis: the clamped start index; no batching and no offset coordinate
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show (d.operandIdx (ix1 p) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 1) d.startIndexMap = 0
      rw [hsim]; simp

end Cert.Lib

end
-- ==== Proof.RefLemmas.lean ====
/-
  Index-level facts for reading the plain program: a row take at a wrapped non-negative index word is the table's row
  of that number; rows added into a zero table give, per row number, the conditional sum over the update rows whose
  word has that value; and the node sum of the positive parts of `self · Wᵀ + credited · Mᵀ`, written entry by entry,
  is `total`.
-/
import proofs.«413086_j36112085025448_1_alg».proof.Proof.Spec
import proofs.«413086_j36112085025448_1_alg».proof.Proof.Alg
import proofs.«413086_j36112085025448_1_alg».proof.Proof.LibGatherRows
import proofs.«413086_j36112085025448_1_alg».proof.Proof.LibWrapTake
import proofs.«413086_j36112085025448_1_alg».proof.Proof.LibScatterGather

noncomputable section

open scoped BigOperators

namespace Cert.GatherSum

open Idealize.ShloMosaic Idealize.ShloMosaic.ValueIdx

/-- A word that is non-negative as a signed integer has that integer as its value. -/
theorem toInt_toNat_of_nonneg (x : BitVec 32) (hlo : 0 ≤ x.toInt) : x.toInt.toNat = x.toNat := by
  have h := BitVec.toInt_eq_toNat_cond x
  have hx := x.isLt
  split_ifs at h <;> omega

/-- Below 2^31 the signed reading and the value of a word name the same number. -/
theorem toInt_eq_iff_toNat_eq (x : BitVec 32) (v : ℕ) (hv : v < 2 ^ 31) : x.toInt = (v : ℤ) ↔ x.toNat = v := by
  have h := BitVec.toInt_eq_toNat_cond x
  have hx := x.isLt
  split_ifs at h <;> omega

/-- The wrap "x + N if x < 0, else x" leaves a non-negative word alone. -/
theorem wrap_of_nonneg (Nw x : BitVec 32) (hlo : 0 ≤ x.toInt) :
    Scalar.select (IntOp.cmpi .slt x 0#32) (IntOp.addi x Nw) x = x := by
  have h0 : (0#32 : BitVec 32).toInt = 0 := by decide
  have hc : IntOp.cmpi .slt x 0#32 = 0#1 :=
    ValueIdx.eq_zero_of_ne_one (fun h => by have h1 := IntOp.cmpi_slt.1 h; rw [h0] at h1; omega)
  rw [hc, ValueIdx.select_zero]

/-- The row take at a column entry holding the word `x`, for `0 ≤ x < N` signed: the clamp `min x (N − 1)` is `x`, so
    the entry is row `x` of the table. -/
theorem gather_row_of_word {N n : ℕ} (hN0 : 0 < N) (d : GatherDims ⟨2, ![N, 128]⟩ ⟨2, ![n, 1]⟩ ⟨2, ![n, 128]⟩)
    (hoff : d.offsetDims = [1]) (hcoll : d.collapsedSliceDims = [0]) (hob : d.operandBatchingDims = [])
    (hsim : d.startIndexMap = [0]) (hivd : d.indexVectorDim = 1)
    (tbl : (⟨2, ![N, 128]⟩ : Shape).Idx → EReal) (col : IVec ⟨2, ![n, 1]⟩ 32) (x : BitVec 32)
    (p : Fin n) (c : Fin 1) (k : Fin 128) (hcol : col (ix2 p c) = x)
    (hlo : 0 ≤ x.toInt) (hhi : x.toInt < N) :
    Host.gather d tbl col (ix2 p k) = rowAt tbl x.toNat k := by
  have hc : c = 0 := Subsingleton.elim _ _
  subst hc
  have hnat : x.toInt.toNat = x.toNat := toInt_toNat_of_nonneg x hlo
  have hlt : x.toNat < N := by omega
  have hrow : min (col (ix2 p 0)).toInt.toNat (N - 1) = x.toNat := by rw [hcol, hnat]; omega
  rw [Cert.Lib.gather_rows d hoff hcoll hob hsim hivd tbl col p k hN0]
  unfold rowAt
  rw [dif_pos hlt]
  exact congrArg (fun r => tbl (ix2 r k)) (Fin.ext hrow)

/-- The same with the column entry given as the wrapped word of `x`: for `0 ≤ x` the wrap is `x` itself. -/
theorem gather_row_wrapped {N n : ℕ} (hN0 : 0 < N) (d : GatherDims ⟨2, ![N, 128]⟩ ⟨2, ![n, 1]⟩ ⟨2, ![n, 128]⟩)
    (hoff : d.offsetDims = [1]) (hcoll : d.collapsedSliceDims = [0]) (hob : d.operandBatchingDims = [])
    (hsim : d.startIndexMap = [0]) (hivd : d.indexVectorDim = 1)
    (tbl : (⟨2, ![N, 128]⟩ : Shape).Idx → EReal) (col : IVec ⟨2, ![n, 1]⟩ 32) (x Nw : BitVec 32)
    (p : Fin n) (c : Fin 1) (k : Fin 128)
    (hcol : col (ix2 p c) = Scalar.select (IntOp.cmpi .slt x 0#32) (IntOp.addi x Nw) x)
    (hlo : 0 ≤ x.toInt) (hhi : x.toInt < N) :
    Host.gather d tbl col (ix2 p k) = rowAt tbl x.toNat k :=
  gather_row_of_word hN0 d hoff hcoll hob hsim hivd tbl col x p c k (by rw [hcol, wrap_of_nonneg Nw x hlo]) hlo hhi

/-- Rows added into a zero table of at most 2^31 rows: entry (v, j) is the sum of the update entries (e, j) over the
    rows e whose word has the value v (`0 + s = s`; below 2^31 the signed reading and the value agree). -/
theorem scatter_rows_zero {N n : ℕ} (hN : N ≤ 2 ^ 31) (d : ScatterDims ⟨2, ![N, 128]⟩ ⟨2, ![n, 1]⟩ ⟨2, ![n, 128]⟩)
    (huw : d.updateWindowDims = [1]) (hiw : d.insertedWindowDims = [0]) (hsd : d.scatterDimsToOperandDims = [0])
    (hivd : d.indexVectorDim = 1)
    (x : (⟨2, ![N, 128]⟩ : Shape).Idx → EReal) (hx : ∀ i, x i = 0) (idx : IVec ⟨2, ![n, 1]⟩ 32)
    (upd : (⟨2, ![n, 128]⟩ : Shape).Idx → EReal) (v : Fin N) (j : Fin 128) :
    Host.scatterAdd (F := Ideal) (φ := .f32) d x idx upd (ix2 v j)
      = ∑ e : Fin n, if (idx (ix2 e (0 : Fin 1))).toNat = v.val then upd (ix2 e j) else 0 := by
  rw [Cert.Lib.scatterAdd_rows d huw hiw hsd hivd x idx upd v j, hx, zero_add]
  refine Finset.sum_congr rfl fun e _ => ?_
  have hiff := toInt_eq_iff_toNat_eq (idx (ix2 e (0 : Fin 1))) v.val (by have := v.isLt; omega)
  by_cases h : (idx (ix2 e (0 : Fin 1))).toNat = v.val
  · rw [if_pos h, if_pos (hiff.2 h)]
  · rw [if_neg h, if_neg (fun h' => h (hiff.1 h'))]

/-- The credited rows: the same with the index column and the update rows given entry by entry — the column holds
    the segment words, the update row `e` is the table's row named by the neighbour word `e`. -/
theorem scatter_rows_credited {N n : ℕ} (hN : N ≤ 2 ^ 31)
    (d : ScatterDims ⟨2, ![N, 128]⟩ ⟨2, ![n, 1]⟩ ⟨2, ![n, 128]⟩)
    (huw : d.updateWindowDims = [1]) (hiw : d.insertedWindowDims = [0]) (hsd : d.scatterDimsToOperandDims = [0])
    (hivd : d.indexVectorDim = 1)
    (x : (⟨2, ![N, 128]⟩ : Shape).Idx → EReal) (hx : ∀ i, x i = 0) (idx : IVec ⟨2, ![n, 1]⟩ 32)
    (upd : (⟨2, ![n, 128]⟩ : Shape).Idx → EReal)
    (segw : Fin n → BitVec 32) (row : Fin n → Fin 128 → EReal)
    (hidx : ∀ (e : Fin n) (c : Fin 1), idx (ix2 e c) = segw e) (hupd : ∀ (e : Fin n) (k : Fin 128), upd (ix2 e k) = row e k)
    (v : Fin N) (j : Fin 128) :
    Host.scatterAdd (F := Ideal) (φ := .f32) d x idx upd (ix2 v j)
      = ∑ e : Fin n, if (segw e).toNat = v.val then row e j else 0 := by
  rw [scatter_rows_zero hN d huw hiw hsd hivd x hx idx upd v j]
  refine Finset.sum_congr rfl fun e _ => ?_
  rw [hidx e 0, hupd e j]

/-- The final shape: with the two products given entry by entry — `A i j = self i · W j` and
    `B i j = credited i · M j` over the table's rows — zero plus the node sum of the positive parts of `A + B` is
    `total` (`0 + s = s`). -/
theorem sum_relu_eq_total
    (tbl : (⟨2, ![10000, 128]⟩ : Shape).Idx → EReal) (W M : (⟨2, ![128, 128]⟩ : Shape).Idx → EReal)
    (ids : (⟨1, ![50000]⟩ : Shape).Idx → BitVec 32) (nbr seg : (⟨1, ![800000]⟩ : Shape).Idx → BitVec 32)
    (A B : Fin 50000 → Fin 128 → EReal)
    (hA : ∀ (i : Fin 50000) (j : Fin 128), A i j = ∑ k : Fin 128, rowAt tbl (ids (ix1 i)).toNat k * W (ix2 j k))
    (hB : ∀ (i : Fin 50000) (j : Fin 128), B i j = ∑ k : Fin 128,
      (∑ e : Fin 800000, if (seg (ix1 e)).toNat = i.val then rowAt tbl (nbr (ix1 e)).toNat k else 0) * M (ix2 j k))
    (j : Fin 128) :
    (0 : EReal) + ∑ i : Fin 50000, max (A i j + B i j) 0 = total tbl W M ids nbr seg (ix1 j) := by
  rw [zero_add]
  unfold total
  refine Finset.sum_congr rfl fun i _ => ?_
  rw [hA i j, hB i j]

/-- The same from the two operands of the products: `self` holds the rows named by the node words, `nsum` the
    credited rows; the weights are read transposed (`Wt (k, j) = W (j, k)`), as a product contracting the feature
    axis against the transposed weights does. -/
theorem sum_relu_eq_total_of_rows
    (tbl : (⟨2, ![10000, 128]⟩ : Shape).Idx → EReal) (W M : (⟨2, ![128, 128]⟩ : Shape).Idx → EReal)
    (ids : (⟨1, ![50000]⟩ : Shape).Idx → BitVec 32) (nbr seg : (⟨1, ![800000]⟩ : Shape).Idx → BitVec 32)
    (self nsum : (⟨2, ![50000, 128]⟩ : Shape).Idx → EReal) (Wt Mt : (⟨2, ![128, 128]⟩ : Shape).Idx → EReal)
    (hself : ∀ (i : Fin 50000) (k : Fin 128), self (ix2 i k) = rowAt tbl (ids (ix1 i)).toNat k)
    (hnsum : ∀ (i : Fin 50000) (k : Fin 128), nsum (ix2 i k)
      = ∑ e : Fin 800000, if (seg (ix1 e)).toNat = i.val then rowAt tbl (nbr (ix1 e)).toNat k else 0)
    (hWt : ∀ k j : Fin 128, Wt (ix2 k j) = W (ix2 j k)) (hMt : ∀ k j : Fin 128, Mt (ix2 k j) = M (ix2 j k))
    (j : Fin 128) :
    (0 : EReal) + ∑ i : Fin 50000,
        max ((∑ k : Fin 128, self (ix2 i k) * Wt (ix2 k j)) + ∑ k : Fin 128, nsum (ix2 i k) * Mt (ix2 k j)) 0
      = total tbl W M ids nbr seg (ix1 j) := by
  refine sum_relu_eq_total tbl W M ids nbr seg
    (fun i j => ∑ k : Fin 128, self (ix2 i k) * Wt (ix2 k j)) (fun i j => ∑ k : Fin 128, nsum (ix2 i k) * Mt (ix2 k j))
    (fun i j => ?_) (fun i j => ?_) j
  · exact Finset.sum_congr rfl fun k _ => by rw [hself i k, hWt k j]
  · exact Finset.sum_congr rfl fun k _ => by rw [hnsum i k, hMt k j]

end Cert.GatherSum

end
-- ==== Proof.Ref.lean ====
/-
  The reference's value: its run's result is the shared softmax tail of `total` of the six arguments, under the index
  ranges the precondition states.

  The program's last ten operations are a function `tailR` of the node sum (its value before them): subtract the
  largest entry, exponentiate, divide by the sum of the exponentials. Before them, entry `d` of the node sum is zero
  plus the sum over the 50000 nodes of the positive part of `self · Wᵀ + nsum · Mᵀ`, where `self` is a row take of
  the table at the wrapped node words and `nsum` adds, into a zero table, the row takes at the wrapped neighbour words
  at the rows the segment words name. A word in `[0, 10000)` is its own wrap, so both takes read `rowAt`; rows added
  into zero are the conditional sums of `credited`; and the whole is `total`, entry by entry.
-/
import proofs.«413086_j36112085025448_1_alg».proof.Proof.Gen.ReferenceIdeal.Run
import proofs.«413086_j36112085025448_1_alg».proof.Proof.Gen.ReferenceIdeal.Read
import proofs.«413086_j36112085025448_1_alg».proof.Proof.RefLemmas

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.GatherSum

/-- The largest entry of `x` (never below −∞), as a vector of 128 copies. -/
def peakR (x : FVec Ideal S128 .f32) : FVec Ideal S128 .f32 :=
  broadcastInDim S128 ![0] bcast_S1_S128_0 (broadcastInDim S1 ![] bcast_S_S1
    (maximumf (constant (F := Ideal) S_ .f32 0xFF800000#32)
      (Host.reduce FloatOps.maximumf x (constant (F := Ideal) S_ .f32 0xFF800000#32) reducesTo_S128_S_d0 h_S_)))

/-- The softmax of `x` as the program writes it: `e = exp (x − max x)`, then `e / Σ e`. -/
def tailR (x : FVec Ideal S128 .f32) : FVec Ideal S128 .f32 :=
  Host.divf (F := Ideal) (Host.exp (F := Ideal) (subf x (peakR x)))
    (broadcastInDim S128 ![0] bcast_S1_S128_0 (broadcastInDim S1 ![] bcast_S_S1
      (Host.reduceAdd (F := Ideal) (Host.exp (F := Ideal) (subf x (peakR x))) (constant (F := Ideal) S_ .f32 0x00000000#32)
        reducesTo_S128_S_d0 h_S_)))

/-- The program's value is `tailR` of its node sum: the last ten operations, read off the program's text. -/
theorem value_eq_tail (a0 : FVec Ideal S10000x128 .f32) (a1 a2 : FVec Ideal S128x128 .f32) (a3 : IVec S50000 32)
    (a4 a5 : IVec S800000 32) :
    val_main_v33 (F := Ideal) a0 a1 a2 a3 a4 a5 = tailR (val_main_v23 (F := Ideal) a0 a1 a2 a3 a4 a5) := rfl

/-! ## The composed index maps, as coordinates -/

theorem idx23 (d : Fin 128) (i : Fin 50000) : idx_main_v23 (ix1 d) i = ix2 i d :=
  funext fun a => Fin.ext (by match a with | ⟨0, _⟩ => rfl | ⟨1, _⟩ => rfl)
theorem lidx18 (i : Fin 50000) (d k : Fin 128) : lidx_main_v18 (ix2 i d) k = ix2 i k :=
  funext fun a => Fin.ext (by match a with | ⟨0, _⟩ => rfl | ⟨1, _⟩ => rfl)
theorem ridx18 (i : Fin 50000) (d k : Fin 128) : ridx_main_v18 (ix2 i d) k = ix2 k d :=
  funext fun a => Fin.ext (by match a with | ⟨0, _⟩ => rfl | ⟨1, _⟩ => rfl)
theorem lidx20 (i : Fin 50000) (d k : Fin 128) : lidx_main_v20 (ix2 i d) k = ix2 i k :=
  funext fun a => Fin.ext (by match a with | ⟨0, _⟩ => rfl | ⟨1, _⟩ => rfl)
theorem ridx20 (i : Fin 50000) (d k : Fin 128) : ridx_main_v20 (ix2 i d) k = ix2 k d :=
  funext fun a => Fin.ext (by match a with | ⟨0, _⟩ => rfl | ⟨1, _⟩ => rfl)
theorem idx17 (k j : Fin 128) : idx_main_v17 (ix2 k j) = ix2 j k :=
  funext fun a => Fin.ext (by match a with | ⟨0, _⟩ => rfl | ⟨1, _⟩ => rfl)
theorem idx19 (k j : Fin 128) : idx_main_v19 (ix2 k j) = ix2 j k :=
  funext fun a => Fin.ext (by match a with | ⟨0, _⟩ => rfl | ⟨1, _⟩ => rfl)
theorem idx5 (i : Fin 50000) (c : Fin 1) : idx_main_v5 (ix2 i c) = ix1 i :=
  funext fun a => Fin.ext (by match a with | ⟨0, _⟩ => rfl)
theorem idx12 (e : Fin 800000) (c : Fin 1) : idx_main_v12 (ix2 e c) = ix1 e :=
  funext fun a => Fin.ext (by match a with | ⟨0, _⟩ => rfl)
theorem idx15 (e : Fin 800000) (c : Fin 1) : idx_main_v15 (ix2 e c) = ix1 e :=
  funext fun a => Fin.ext (by match a with | ⟨0, _⟩ => rfl)

/-! ## The operands of the two products -/

/-- The start column of the node take holds each node word's wrap. -/
theorem col5 (a3 : IVec S50000 32) (i : Fin 50000) (c : Fin 1) :
    val_main_v5 (F := Ideal) a3 (ix2 i c)
      = Scalar.select (IntOp.cmpi .slt (a3 (ix1 i)) 0#32) (IntOp.addi (a3 (ix1 i)) 10000#32) (a3 (ix1 i)) := by
  rw [val_main_v5_apply, idx5, val_main_v4_apply, val_main_v1_apply, val_main_v3_apply, val_main_v0_apply,
    val_main_v2_apply, val_main_c_apply, val_main_c_0_apply]

/-- The start column of the edge take holds each neighbour word's wrap. -/
theorem col12 (a4 : IVec S800000 32) (e : Fin 800000) (c : Fin 1) :
    val_main_v12 (F := Ideal) a4 (ix2 e c)
      = Scalar.select (IntOp.cmpi .slt (a4 (ix1 e)) 0#32) (IntOp.addi (a4 (ix1 e)) 10000#32) (a4 (ix1 e)) := by
  rw [val_main_v12_apply, idx12, val_main_v11_apply, val_main_v8_apply, val_main_v10_apply, val_main_v7_apply,
    val_main_v9_apply, val_main_c_1_apply, val_main_c_2_apply]

/-- The node take: node `i` reads the table's row named by its word. -/
theorem self_row (a0 : FVec Ideal S10000x128 .f32) (a3 : IVec S50000 32)
    (h3 : ∀ i : Fin 50000, 0 ≤ (a3 (ix1 i)).toInt ∧ (a3 (ix1 i)).toInt < 10000) (i : Fin 50000) (k : Fin 128) :
    val_main_v6 (F := Ideal) a0 a3 (ix2 i k) = rowAt a0 (a3 (ix1 i)).toNat k := by
  unfold val_main_v6
  exact gather_row_wrapped (N := 10000) (n := 50000) (by omega) _ rfl rfl rfl rfl rfl a0 (val_main_v5 (F := Ideal) a3)
    (a3 (ix1 i)) 10000#32 i 0 k (col5 a3 i 0) (h3 i).1 (by have := (h3 i).2; omega)

/-- The edge take: edge `e` reads the table's row named by its neighbour word. -/
theorem nbr_row (a0 : FVec Ideal S10000x128 .f32) (a4 : IVec S800000 32)
    (h4 : ∀ e : Fin 800000, 0 ≤ (a4 (ix1 e)).toInt ∧ (a4 (ix1 e)).toInt < 10000) (e : Fin 800000) (k : Fin 128) :
    val_main_v13 (F := Ideal) a0 a4 (ix2 e k) = rowAt a0 (a4 (ix1 e)).toNat k := by
  unfold val_main_v13
  exact gather_row_wrapped (N := 10000) (n := 800000) (by omega) _ rfl rfl rfl rfl rfl a0 (val_main_v12 (F := Ideal) a4)
    (a4 (ix1 e)) 10000#32 e 0 k (col12 a4 e 0) (h4 e).1 (by have := (h4 e).2; omega)

/-- The zero word reads zero. -/
theorem zero_word : (FloatOps.ofBits .f32 0x00000000#32 : Ideal .f32) = 0 := Ideal.ofBits_zero_f32

/-- The table the edge rows are added into is zero. -/
theorem zero14 (i : S50000x128.Idx) : val_main_v14 (F := Ideal) i = 0 := by
  rw [val_main_v14_apply, val_main_cst_apply]; exact zero_word

/-- The credited rows: node `i` holds the sum of the edge rows whose segment word is `i`. -/
theorem nsum_row (a0 : FVec Ideal S10000x128 .f32) (a4 a5 : IVec S800000 32)
    (h4 : ∀ e : Fin 800000, 0 ≤ (a4 (ix1 e)).toInt ∧ (a4 (ix1 e)).toInt < 10000) (i : Fin 50000) (k : Fin 128) :
    val_main_v16 (F := Ideal) a0 a4 a5 (ix2 i k)
      = ∑ e : Fin 800000, if (a5 (ix1 e)).toNat = i.val then rowAt a0 (a4 (ix1 e)).toNat k else 0 := by
  unfold val_main_v16
  exact scatter_rows_credited (N := 50000) (n := 800000) (by norm_num) _ rfl rfl rfl rfl (val_main_v14 (F := Ideal)) zero14
    (val_main_v15 (F := Ideal) a5) (val_main_v13 (F := Ideal) a0 a4) (fun e => a5 (ix1 e))
    (fun e k => rowAt a0 (a4 (ix1 e)).toNat k)
    (fun e c => by rw [val_main_v15_apply, idx15]) (fun e k => nbr_row a0 a4 h4 e k) i k

/-- The weights are read transposed. -/
theorem wt17 (a1 : FVec Ideal S128x128 .f32) (k j : Fin 128) : val_main_v17 (F := Ideal) a1 (ix2 k j) = a1 (ix2 j k) := by
  rw [val_main_v17_apply, idx17]
theorem wt19 (a2 : FVec Ideal S128x128 .f32) (k j : Fin 128) : val_main_v19 (F := Ideal) a2 (ix2 k j) = a2 (ix2 j k) := by
  rw [val_main_v19_apply, idx19]

/-! ## The node sum is `total` -/

/-- The value before the softmax tail, entry by entry: zero plus the node sum of the positive parts. -/
theorem sum_eq_total (a0 : FVec Ideal S10000x128 .f32) (a1 a2 : FVec Ideal S128x128 .f32) (a3 : IVec S50000 32)
    (a4 a5 : IVec S800000 32)
    (h3 : ∀ i : Fin 50000, 0 ≤ (a3 (ix1 i)).toInt ∧ (a3 (ix1 i)).toInt < 10000)
    (h4 : ∀ e : Fin 800000, 0 ≤ (a4 (ix1 e)).toInt ∧ (a4 (ix1 e)).toInt < 10000) :
    val_main_v23 (F := Ideal) a0 a1 a2 a3 a4 a5 = total a0 a1 a2 a3 a4 a5 := by
  funext j
  obtain ⟨d, rfl⟩ : ∃ d : Fin 128, j = ix1 d := ⟨j 0, eq_ix1 j⟩
  rw [val_main_v23_apply, val_main_cst_3_apply, zero_word]
  rw [← sum_relu_eq_total_of_rows a0 a1 a2 a3 a4 a5 (val_main_v6 (F := Ideal) a0 a3) (val_main_v16 (F := Ideal) a0 a4 a5)
    (val_main_v17 (F := Ideal) a1) (val_main_v19 (F := Ideal) a2) (self_row a0 a3 h3) (nsum_row a0 a4 a5 h4) (wt17 a1) (wt19 a2) d]
  refine congrArg (_ + ·) (Finset.sum_congr rfl fun i _ => ?_)
  rw [idx23, val_main_v22_apply, val_main_v21_apply, val_main_v18_apply, val_main_v20_apply, val_main_call0_v0_apply,
    val_main_call0_cst_apply, zero_word]
  simp only [lidx18, ridx18, lidx20, ridx20]
  rfl

/-- The reference's value, under the two index ranges: the softmax tail of `total`. -/
theorem ref_value (a0 : FVec Ideal S10000x128 .f32) (a1 a2 : FVec Ideal S128x128 .f32) (a3 : IVec S50000 32)
    (a4 a5 : IVec S800000 32)
    (h3 : ∀ i : Fin 50000, 0 ≤ (a3 (ix1 i)).toInt ∧ (a3 (ix1 i)).toInt < 10000)
    (h4 : ∀ e : Fin 800000, 0 ≤ (a4 (ix1 e)).toInt ∧ (a4 (ix1 e)).toInt < 10000) :
    val_main_v33 (F := Ideal) a0 a1 a2 a3 a4 a5 = tailR (total a0 a1 a2 a3 a4 a5) := by
  rw [value_eq_tail, sum_eq_total a0 a1 a2 a3 a4 a5 h3 h4]

end Cert.ReferenceIdeal.RefValue

end
-- ==== Proof.Pre.lean ====
/-
  The precondition decoded: the printed predicate is a conjunction of and-reductions; the two over the node index
  words and the neighbour index words test `0 ≤ x` and `x < 10000` (signed) at every position, so "the predicate is 1"
  gives both ranges at every position.
-/
import proofs.«413086_j36112085025448_1_alg».proof.Defs
import proofs.«413086_j36112085025448_1_alg».proof.Proof.Gen.Pre_finite_inputs
import Idealize.ShloMosaic.Lib.ReduceAll
import Idealize.ShloMosaic.Lib.StableHlo.Predicate
import Idealize.ShloMosaic.Lib.ValueIdx

namespace Cert.Pre

open Idealize.ShloMosaic Idealize.ShloMosaic.ValueIdx Idealize.SL.Sem

/-- The rank-0 index set has one element. -/
instance : Subsingleton Cert.Pre_finite_inputs.S_.Idx := ⟨fun _ _ => funext fun d => d.elim0⟩

/-- One range test read at a position: the conjunction of `lo ≤ x` and `x < hi` (signed) being 1 gives both. -/
theorem range_at {s : Shape} (x lo hi : IVec s 32) (i : s.Idx)
    (h : andi (cmpi .sge x lo) (cmpi .slt x hi) i = 1#1) :
    (lo i).toInt ≤ (x i).toInt ∧ (x i).toInt < (hi i).toInt := by
  have h' : IntOp.andi (IntOp.cmpi .sge (x i) (lo i)) (IntOp.cmpi .slt (x i) (hi i)) = 1#1 := h
  obtain ⟨h1, h2⟩ := IntOp.andi_eq_one.1 h'
  exact ⟨IntOp.cmpi_sge.1 h1, IntOp.cmpi_slt.1 h2⟩

/-- The printed predicate being 1 gives the two index ranges: every node index word and every neighbour index word
    is in `[0, 10000)` read signed. -/
theorem ranges_of_fn {F : FTy → Type} [FloatOps F] [Cert.Pre_finite_inputs.Facts]
    (a0 : FVec F Cert.Pre_finite_inputs.S10000x128 .f32) (a1 a2 : FVec F Cert.Pre_finite_inputs.S128x128 .f32)
    (ids : IVec Cert.Pre_finite_inputs.S50000 32) (nbr seg : IVec Cert.Pre_finite_inputs.S800000 32)
    (h : Cert.Pre_finite_inputs.fn (F := F) a0 a1 a2 ids nbr seg = fun _ => 1#1) :
    (∀ i : Fin 50000, 0 ≤ (ids (ix1 i)).toInt ∧ (ids (ix1 i)).toInt < 10000)
    ∧ (∀ e : Fin 800000, 0 ≤ (nbr (ix1 e)).toInt ∧ (nbr (ix1 e)).toInt < 10000) := by
  have h0 := congrFun h ValueIdx.ix0
  dsimp only [Cert.Pre_finite_inputs.fn, Cert.Pre_finite_inputs.fn_part1] at h0
  have hz : (0#32 : BitVec 32).toInt = 0 := by decide
  have ht : (10000#32 : BitVec 32).toInt = 10000 := by decide
  -- the outer conjunction: (float tests ∧ node range test) ∧ neighbour range test
  obtain ⟨h20, h26⟩ := IntOp.andi_eq_one.1 h0
  obtain ⟨_, h19⟩ := IntOp.andi_eq_one.1 h20
  refine ⟨fun i => ?_, fun e => ?_⟩
  · have hi := Host.reduce_andi_all _ _ _ _ _ h19 (ix1 i)
    have hr := range_at ids _ _ (ix1 i) hi
    change (0#32 : BitVec 32).toInt ≤ _ ∧ _ < (10000#32 : BitVec 32).toInt at hr
    rw [hz, ht] at hr
    exact hr
  · have he := Host.reduce_andi_all _ _ _ _ _ h26 (ix1 e)
    have hr := range_at nbr _ _ (ix1 e) he
    change (0#32 : BitVec 32).toInt ≤ _ ∧ _ < (10000#32 : BitVec 32).toInt at hr
    rw [hz, ht] at hr
    exact hr

/-- The ranges for the kernel's memory: its node and neighbour index arrays hold words in `[0, 10000)`. -/
theorem ranges_kernel [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Fin 50000,
      0 ≤ ((m ((c.tc : Thread Cert.KernelIdeal.nD Cert.KernelIdeal.τ).loc Cert.KernelIdeal.main_arg3)
              : IVec Cert.Pre_finite_inputs.S50000 32) (ix1 i)).toInt
      ∧ ((m ((c.tc : Thread Cert.KernelIdeal.nD Cert.KernelIdeal.τ).loc Cert.KernelIdeal.main_arg3)
              : IVec Cert.Pre_finite_inputs.S50000 32) (ix1 i)).toInt < 10000)
    ∧ (∀ e : Fin 800000,
      0 ≤ ((m ((c.tc : Thread Cert.KernelIdeal.nD Cert.KernelIdeal.τ).loc Cert.KernelIdeal.main_arg4)
              : IVec Cert.Pre_finite_inputs.S800000 32) (ix1 e)).toInt
      ∧ ((m ((c.tc : Thread Cert.KernelIdeal.nD Cert.KernelIdeal.τ).loc Cert.KernelIdeal.main_arg4)
              : IVec Cert.Pre_finite_inputs.S800000 32) (ix1 e)).toInt < 10000) :=
  ranges_of_fn (F := Ideal) _ _ _ _ _ _ (hpre c)

/-- The ranges for the reference's memory. -/
theorem ranges_reference [hPre_finite_inputs : Cert.Pre_finite_inputs.Facts]
    (m' : (ℓ : Loc Cert.ReferenceIdeal.nD Cert.ReferenceIdeal.τ Cert.ReferenceIdeal.sig) → Buf (Elt Ideal) ℓ)
    (hpre : Cert.Pre_ReferenceIdeal m') (c : Dev Cert.ReferenceIdeal.nD) :
    (∀ i : Fin 50000,
      0 ≤ ((m' ((c.tc : Thread Cert.ReferenceIdeal.nD Cert.ReferenceIdeal.τ).loc Cert.ReferenceIdeal.main_arg3)
              : IVec Cert.Pre_finite_inputs.S50000 32) (ix1 i)).toInt
      ∧ ((m' ((c.tc : Thread Cert.ReferenceIdeal.nD Cert.ReferenceIdeal.τ).loc Cert.ReferenceIdeal.main_arg3)
              : IVec Cert.Pre_finite_inputs.S50000 32) (ix1 i)).toInt < 10000)
    ∧ (∀ e : Fin 800000,
      0 ≤ ((m' ((c.tc : Thread Cert.ReferenceIdeal.nD Cert.ReferenceIdeal.τ).loc Cert.ReferenceIdeal.main_arg4)
              : IVec Cert.Pre_finite_inputs.S800000 32) (ix1 e)).toInt
      ∧ ((m' ((c.tc : Thread Cert.ReferenceIdeal.nD Cert.ReferenceIdeal.τ).loc Cert.ReferenceIdeal.main_arg4)
              : IVec Cert.Pre_finite_inputs.S800000 32) (ix1 e)).toInt < 10000) :=
  ranges_of_fn (F := Ideal) _ _ _ _ _ _ (hpre c)

end Cert.Pre
-- ==== Proof.lean ====
/-
  The claim. Both kernel programs run three pipelined stages between stretches of host operations; the run of @main is
  followed segment by segment (`Run` for the idealized program, `KRun` for the word-level one), which gives the two
  frames and, at the extended reals, every unscoped buffer's final contents. The idealized kernel's result buffer then
  holds the softmax tail of `total` of the six arguments (`kernel_value`): stage 0 and stage 1 read rows of the padded
  table through one-hot products (an index word reads its row, or the zero row when it names none), stage 2 credits the
  edge rows to their nodes tile by tile, forms `self · Wᵀ + credited · Mᵀ`, and sums the positive parts over the 50000
  real nodes. The reference computes the same `total` by a wrapped row gather, a scatter-add, two products, a rectifier
  and a sum over the nodes (`ref_value`): under the precondition's index ranges the wrap and the clamp are the identity,
  so its row reads are the same `rowAt`. The idealization rewrote nothing, so `preserves` has nothing to state.
-/
import proofs.«413086_j36112085025448_1_alg».proof.Defs
import proofs.«413086_j36112085025448_1_alg».proof.Proof.Gen.Kernel
import proofs.«413086_j36112085025448_1_alg».proof.Proof.Gen.KernelIdeal
import proofs.«413086_j36112085025448_1_alg».proof.Proof.Gen.ReferenceIdeal
import proofs.«413086_j36112085025448_1_alg».proof.Proof.Gen.Pre_finite_inputs
import proofs.«413086_j36112085025448_1_alg».proof.Proof.Gen.ReferenceIdeal.Run
import proofs.«413086_j36112085025448_1_alg».proof.Proof.KRun
import proofs.«413086_j36112085025448_1_alg».proof.Proof.Run
import proofs.«413086_j36112085025448_1_alg».proof.Proof.KVal
import proofs.«413086_j36112085025448_1_alg».proof.Proof.Ref
import proofs.«413086_j36112085025448_1_alg».proof.Proof.Pre
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Run.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Run.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two tails are one function: the same ten operations over the same shapes. -/
theorem tail_eq (x : Cert.KernelIdeal.S128.Idx → EReal) :
    Cert.ReferenceIdeal.RefValue.tailR x = Cert.KernelIdeal.Val.tailK x := rfl

/-- At the extended reals both result buffers end at the softmax tail of `total` of the six arguments: the kernel's by
    its run's last contents (`kernel_value`), the reference's by its generated run and `ref_value` under the index
    ranges the precondition states, read at arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Val.tailK (Cert.GatherSum.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))), ?_, ?_⟩
  · -- the kernel: the run's last contents, read at the result and at each argument
    exact (θ_run (Cert.KernelIdeal.defs (F := Ideal)) _ _).mono (fun r h c =>
      ⟨(h c _ (Cert.KernelIdeal.Run.mem_uc Cert.KernelIdeal.main_v18 (by decide))).trans
          (Cert.KernelIdeal.Val.kernel_value m ρ c),
       (h c _ (Cert.KernelIdeal.Run.mem_uc Cert.KernelIdeal.main_arg0 (by decide))).trans
          (Cert.KernelIdeal.Run.Wfin_main_arg0 m ρ c),
       (h c _ (Cert.KernelIdeal.Run.mem_uc Cert.KernelIdeal.main_arg1 (by decide))).trans
          (Cert.KernelIdeal.Run.Wfin_main_arg1 m ρ c),
       (h c _ (Cert.KernelIdeal.Run.mem_uc Cert.KernelIdeal.main_arg2 (by decide))).trans
          (Cert.KernelIdeal.Run.Wfin_main_arg2 m ρ c),
       (h c _ (Cert.KernelIdeal.Run.mem_uc Cert.KernelIdeal.main_arg3 (by decide))).trans
          (Cert.KernelIdeal.Run.Wfin_main_arg3 m ρ c),
       (h c _ (Cert.KernelIdeal.Run.mem_uc Cert.KernelIdeal.main_arg4 (by decide))).trans
          (Cert.KernelIdeal.Run.Wfin_main_arg4 m ρ c),
       (h c _ (Cert.KernelIdeal.Run.mem_uc Cert.KernelIdeal.main_arg5 (by decide))).trans
          (Cert.KernelIdeal.Run.Wfin_main_arg5 m ρ c)⟩) (Cert.KernelIdeal.Run.run_all (F := Ideal) m ρ)
  · -- the reference: its generated run, its value under the index ranges, the arguments carried over, one tail
    refine (θ_run (Cert.ReferenceIdeal.defs (F := Ideal)) _ _).mono (fun r h c => ⟨(h c).1.trans ?_, (h c).2⟩)
      (Cert.ReferenceIdeal.Value.run (F := Ideal) m' ρ')
    obtain ⟨h3, h4⟩ := Cert.Pre.ranges_kernel m hpre c
    rw [Cert.ReferenceIdeal.Read.val_main_v33_eq, (hagree c).1, (hagree c).2.1, (hagree c).2.2.1, (hagree c).2.2.2.1,
      (hagree c).2.2.2.2.1, (hagree c).2.2.2.2.2]
    exact (Cert.ReferenceIdeal.RefValue.ref_value _ _ _ _ _ _ h3 h4).trans (tail_eq _)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
